-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_sqrt_d" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16000x256 : Shape := ⟨2, ![16000, 256]⟩
abbrev S256000x256 : Shape := ⟨2, ![256000, 256]⟩
abbrev S2x256000 : Shape := ⟨2, ![2, 256000]⟩
abbrev S16000x3 : Shape := ⟨2, ![16000, 3]⟩
abbrev S256x256 : Shape := ⟨2, ![256, 256]⟩
abbrev S257x256 : Shape := ⟨2, ![257, 256]⟩
abbrev S_ : Shape := ⟨0, ![]⟩

class Facts : Prop where
  bcast_S_S16000x256 : S_.BroadcastsInDim S16000x256 (![] : Fin 0 → Fin S16000x256.rank)
  reducesTo_S16000x256_S_d0_1 : S16000x256.ReducesTo [0, 1] S_
  h_S_ : 0 < S_.numel
  bcast_S_S256000x256 : S_.BroadcastsInDim S256000x256 (![] : Fin 0 → Fin S256000x256.rank)
  reducesTo_S256000x256_S_d0_1 : S256000x256.ReducesTo [0, 1] S_
  bcast_S_S16000x3 : S_.BroadcastsInDim S16000x3 (![] : Fin 0 → Fin S16000x3.rank)
  reducesTo_S16000x3_S_d0_1 : S16000x3.ReducesTo [0, 1] S_
  bcast_S_S256x256 : S_.BroadcastsInDim S256x256 (![] : Fin 0 → Fin S256x256.rank)
  reducesTo_S256x256_S_d0_1 : S256x256.ReducesTo [0, 1] S_
  bcast_S_S257x256 : S_.BroadcastsInDim S257x256 (![] : Fin 0 → Fin S257x256.rank)
  reducesTo_S257x256_S_d0_1 : S257x256.ReducesTo [0, 1] S_

variable [Facts]

def fn_part1 {F : FTy → Type} [FloatOps F] (main_arg5 : FVec F S256x256 .f32) (main_arg6 : FVec F S256x256 .f32) (main_arg7 : FVec F S257x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S257x256 .f32 := Host.absf main_arg7
  let main_cst_10 : FVec F S_ .f32 := constant S_ .f32 0x7F800000#32
  let main_v30 : FVec F S257x256 .f32 := broadcastInDim S257x256 ![] bcast_S_S257x256 main_cst_10
  let main_v31 : IVec S257x256 1 := cmpf .olt main_v29 main_v30
  let main_c_11 : IVec S_ 1 := constantI S_ 1 1#1
  let main_v32 : IVec S_ 1 := (fun x v => Host.reduce IntOp.andi x v reducesTo_S257x256_S_d0_1 h_S_) main_v31 main_c_11
  let main_v33 : IVec S_ 1 := andi main_v28 main_v32
  main_v33

def fn {F : FTy → Type} [FloatOps F] (main_arg0 : FVec F S16000x256 .f32) (main_arg1 : FVec F S256000x256 .f32) (main_arg2 : IVec S2x256000 32) (main_arg3 : FVec F S16000x3 .f32) (main_arg4 : FVec F S256x256 .f32) (main_arg5 : FVec F S256x256 .f32) (main_arg6 : FVec F S256x256 .f32) (main_arg7 : FVec F S257x256 .f32) : IVec S_ 1 :=
  let main_v0 : FVec F S16000x256 .f32 := Host.absf main_arg0
  let main_cst : FVec F S_ .f32 := constant S_ .f32 0x7F800000#32
  let main_v1 : FVec F S16000x256 .f32 := broadcastInDim S16000x256 ![] bcast_S_S16000x256 main_cst
  let main_v2 : IVec S16000x256 1 := cmpf .olt main_v0 main_v1
  let main_c : IVec S_ 1 := constantI S_ 1 1#1
  let main_v3 : IVec S_ 1 := (fun x v => Host.reduce IntOp.andi x v reducesTo_S16000x256_S_d0_1 h_S_) main_v2 main_c
  let main_v4 : FVec F S256000x256 .f32 := Host.absf main_arg1
  let main_cst_0 : FVec F S_ .f32 := constant S_ .f32 0x7F800000#32
  let main_v5 : FVec F S256000x256 .f32 := broadcastInDim S256000x256 ![] bcast_S_S256000x256 main_cst_0
  let main_v6 : IVec S256000x256 1 := cmpf .olt main_v4 main_v5
  let main_c_1 : IVec S_ 1 := constantI S_ 1 1#1
  let main_v7 : IVec S_ 1 := (fun x v => Host.reduce IntOp.andi x v reducesTo_S256000x256_S_d0_1 h_S_) main_v6 main_c_1
  let main_v8 : IVec S_ 1 := andi main_v3 main_v7
  let main_v9 : FVec F S16000x3 .f32 := Host.absf main_arg3
  let main_cst_2 : FVec F S_ .f32 := constant S_ .f32 0x7F800000#32
  let main_v10 : FVec F S16000x3 .f32 := broadcastInDim S16000x3 ![] bcast_S_S16000x3 main_cst_2
  let main_v11 : IVec S16000x3 1 := cmpf .olt main_v9 main_v10
  let main_c_3 : IVec S_ 1 := constantI S_ 1 1#1
  let main_v12 : IVec S_ 1 := (fun x v => Host.reduce IntOp.andi x v reducesTo_S16000x3_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S16000x256 : Shape := ⟨2, ![16000, 256]⟩
abbrev S256000x256 : Shape := ⟨2, ![256000, 256]⟩
abbrev S2x256000 : Shape := ⟨2, ![2, 256000]⟩
abbrev S16000x3 : Shape := ⟨2, ![16000, 3]⟩
abbrev S256x256 : Shape := ⟨2, ![256, 256]⟩
abbrev S257x256 : Shape := ⟨2, ![257, 256]⟩
abbrev S1x256000 : Shape := ⟨2, ![1, 256000]⟩
abbrev S256000 : Shape := ⟨1, ![256000]⟩
abbrev S_ : Shape := ⟨0, ![]⟩
abbrev S256000x1 : Shape := ⟨2, ![256000, 1]⟩
abbrev S256000x3 : Shape := ⟨2, ![256000, 3]⟩
abbrev S256x768 : Shape := ⟨2, ![256, 768]⟩
abbrev S2000x256 : Shape := ⟨2, ![2000, 256]⟩
abbrev S2000x768 : Shape := ⟨2, ![2000, 768]⟩
abbrev S1x256 : Shape := ⟨2, ![1, 256]⟩
abbrev S256 : Shape := ⟨1, ![256]⟩
abbrev S8 : Shape := ⟨1, ![8]⟩
abbrev S256x1 : Shape := ⟨2, ![256, 1]⟩
abbrev S1x8 : Shape := ⟨2, ![1, 8]⟩
abbrev S256x8 : Shape := ⟨2, ![256, 8]⟩
abbrev S8x256 : Shape := ⟨2, ![8, 256]⟩
abbrev S256000x8 : Shape := ⟨2, ![256000, 8]⟩
abbrev S512x256 : Shape := ⟨2, ![512, 256]⟩
abbrev S512 : Shape := ⟨1, ![512]⟩
abbrev S512x8 : Shape := ⟨2, ![512, 8]⟩
abbrev S512x1 : Shape := ⟨2, ![512, 1]⟩
abbrev S16000x8 : Shape := ⟨2, ![16000, 8]⟩
abbrev S16000x8x32 : Shape := ⟨3, ![16000, 8, 32]⟩
abbrev S256000x8x32 : Shape := ⟨3, ![256000, 8, 32]⟩

abbrev nBuf : Space → Nat
  | .hbm => 117
  | .vmem => 29
  | .smem => 0
  | _ => 0

abbrev bufTy : (tb : Table) → Fin (tcTables nBuf tb) → BufTy
  | .hbm, ⟨0, _⟩ => ⟨S16000x256, .f32⟩
  | .hbm, ⟨1, _⟩ => ⟨S256000x256, .f32⟩
  | .hbm, ⟨2, _⟩ => ⟨S2x256000, .i32⟩
  | .hbm, ⟨3, _⟩ => ⟨S16000x3, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S257x256, .f32⟩
  | .hbm, ⟨8, _⟩ => ⟨S1x256000, .i32⟩
  | .hbm, ⟨9, _⟩ => ⟨S256000, .i32⟩
  | .hbm, ⟨10, _⟩ => ⟨S1x256000, .i32⟩
  | .hbm, ⟨11, _⟩ => ⟨S256000, .i32⟩
  | .hbm, ⟨12, _⟩ => ⟨S_, .i32⟩
  | .hbm, ⟨13, _⟩ => ⟨S256000, .i32⟩
  | .hbm, ⟨14, _⟩ => ⟨S256000, .i1⟩
  | .hbm, ⟨15, _⟩ => ⟨S_, .i32⟩
  | .hbm, ⟨16, _⟩ => ⟨S256000, .i32⟩
  | .hbm, ⟨17, _⟩ => ⟨S256000, .i32⟩
  | .hbm, ⟨18, _⟩ => ⟨S256000, .i32⟩
  | .hbm, ⟨19, _⟩ => ⟨S256000x1, .i32⟩
  | .hbm, ⟨20, _⟩ => ⟨S256000x3, .f32⟩
  | .hbm, ⟨21, _⟩ => ⟨S_, .i32⟩
  | .hbm, ⟨22, _⟩ => ⟨S256000, .i32⟩
  | .hbm, ⟨23, _⟩ => ⟨S256000, .i1⟩
  | .hbm, ⟨24, _⟩ => ⟨S_, .i32⟩
  | .hbm, ⟨25, _⟩ => ⟨S256000, .i32⟩
  | .hbm, ⟨26, _⟩ => ⟨S256000, .i32⟩
  | .hbm, ⟨27, _⟩ => ⟨S256000, .i32⟩
  | .hbm, ⟨28, _⟩ => ⟨S256000x1, .i32⟩
  | .hbm, ⟨29, _⟩ => ⟨S256000x3, .f32⟩
  | .hbm, ⟨30, _⟩ => ⟨S256000x3, .f32⟩
  | .hbm, ⟨31, _⟩ => ⟨S256000x3, .f32⟩
  | .hbm, ⟨32, _⟩ => ⟨S_, .f32⟩
  | .hbm, ⟨33, _⟩ => ⟨S256000, .f32⟩
  | .hbm, ⟨34, _⟩ => ⟨S256000, .f32⟩
  | .hbm, ⟨35, _⟩ => ⟨S_, .f32⟩
  | .hbm, ⟨36, _⟩ => ⟨S256000, .f32⟩
  | .hbm, ⟨37, _⟩ => ⟨S256000, .f32⟩
  | .hbm, ⟨38, _⟩ => ⟨S256x768, .f32⟩
  | .hbm, ⟨39, _⟩ => ⟨S16000x256, .bf16⟩
  | .hbm, ⟨40, _⟩ => ⟨S16000x256, .bf16⟩
  | .hbm, ⟨41, _⟩ => ⟨S16000x256, .bf16⟩
  | .hbm, ⟨42, _⟩ => ⟨S_, .i32⟩
  | .hbm, ⟨43, _⟩ => ⟨S256000, .i32⟩
  | .hbm, ⟨44, _⟩ => ⟨S256000, .i1⟩
  | .hbm, ⟨45, _⟩ => ⟨S_, .i32⟩
  | .hbm, ⟨46, _⟩ => ⟨S256000, .i32⟩
  | .hbm, ⟨47, _⟩ => ⟨S256000, .i32⟩
  | .hbm, ⟨48, _⟩ => ⟨S256000, .i32⟩
  | .hbm, ⟨49, _⟩ => ⟨S256000x1, .i32⟩
  | .hbm, ⟨50, _⟩ => ⟨S256000x256, .bf16⟩
  | .hbm, ⟨51, _⟩ => ⟨S_, .i32⟩
  | .hbm, ⟨52, _⟩ => ⟨S256000, .i32⟩
  | .hbm, ⟨53, _⟩ => ⟨S256000, .i1⟩
  | .hbm, ⟨54, _⟩ => ⟨S_, .i32⟩
  | .hbm, ⟨55, _⟩ => ⟨S256000, .i32⟩
  | .hbm, ⟨56, _⟩ => ⟨S256000, .i32⟩
  | .hbm, ⟨57, _⟩ => ⟨S256000, .i32⟩
  | .hbm, ⟨58, _⟩ => ⟨S256000x1, .i32⟩
  | .hbm, ⟨59, _⟩ => ⟨S256000x256, .bf16⟩
  | .hbm, ⟨60, _⟩ => ⟨S_, .i32⟩
  | .hbm, ⟨61, _⟩ => ⟨S256000, .i32⟩
  | .hbm, ⟨62, _⟩ => ⟨S256000, .i1⟩
  | .hbm, ⟨63, _⟩ => ⟨S_, .i32⟩
  | .hbm, ⟨64, _⟩ => ⟨S256000, .i32⟩
  | .hbm, ⟨65, _⟩ => ⟨S256000, .i32⟩
  | .hbm, ⟨66, _⟩ => ⟨S256000, .i32⟩
  | .hbm, ⟨67, _⟩ => ⟨S256000x1, .i32⟩
  | .hbm, ⟨68, _⟩ => ⟨S256000x256, .bf16⟩
  | .hbm, ⟨69, _⟩ => ⟨S256x256, .f32⟩
  | .hbm, ⟨70, _⟩ => ⟨S1x256, .f32⟩
  | .hbm, ⟨71, _⟩ => ⟨S256, .i32⟩
  | .hbm, ⟨72, _⟩ => ⟨S_, .i32⟩
  | .hbm, ⟨73, _⟩ => ⟨S_, .i32⟩
  | .hbm, ⟨74, _⟩ => ⟨S256, .i32⟩
  | .hbm, ⟨75, _⟩ => ⟨S256, .i32⟩
  | .hbm, ⟨76, _⟩ => ⟨S256, .i32⟩
  | .hbm, ⟨77, _⟩ => ⟨S_, .i32⟩
  | .hbm, ⟨78, _⟩ => ⟨S256, .i32⟩
  | .hbm, ⟨79, _⟩ => ⟨S256, .i1⟩
  | .hbm, ⟨80, _⟩ => ⟨S256, .i32⟩
  | .hbm, ⟨81, _⟩ => ⟨S256, .i32⟩
  | .hbm, ⟨82, _⟩ => ⟨S_, .i32⟩
  | .hbm, ⟨83, _⟩ => ⟨S256, .i32⟩
  | .hbm, ⟨84, _⟩ => ⟨S256, .i1⟩
  | .hbm, ⟨85, _⟩ => ⟨S256, .i1⟩
  | .hbm, ⟨86, _⟩ => ⟨S_, .i32⟩
  | .hbm, ⟨87, _⟩ => ⟨S256, .i32⟩
  | .hbm, ⟨88, _⟩ => ⟨S256, .i32⟩
  | .hbm, ⟨89, _⟩ => ⟨S256, .i32⟩
  | .hbm, ⟨90, _⟩ => ⟨S8, .i32⟩
  | .hbm, ⟨91, _⟩ => ⟨S256x1, .i32⟩
  | .hbm, ⟨92, _⟩ => ⟨S1x8, .i32⟩
  | .hbm, ⟨93, _⟩ => ⟨S256x8, .i32⟩
  | .hbm, ⟨94, _⟩ => ⟨S256x8, .i32⟩
  | .hbm, ⟨95, _⟩ => ⟨S256x8, .i1⟩
  | .hbm, ⟨96, _⟩ => ⟨S256x8, .f32⟩
  | .hbm, ⟨97, _⟩ => ⟨S8x256, .f32⟩
  | .hbm, ⟨98, _⟩ => ⟨S256000x256, .f32⟩
  | .hbm, ⟨99, _⟩ => ⟨S256000x256, .f32⟩
  | .hbm, ⟨100, _⟩ => ⟨S256000x8, .f32⟩
  | .hbm, ⟨101, _⟩ => ⟨S_, .f32⟩
  | .hbm, ⟨102, _⟩ => ⟨S16000x256, .f32⟩
  | .hbm, ⟨103, _⟩ => ⟨S256000x1, .i32⟩
  | .hbm, ⟨104, _⟩ => ⟨S16000x256, .f32⟩
  | .hbm, ⟨105, _⟩ => ⟨S_, .f32⟩
  | .hbm, ⟨106, _⟩ => ⟨S16000x8, .f32⟩
  | .hbm, ⟨107, _⟩ => ⟨S256000x1, .i32⟩
  | .hbm, ⟨108, _⟩ => ⟨S16000x8, .f32⟩
  | .hbm, ⟨109, _⟩ => ⟨S16000x8x32, .f32⟩
  | .hbm, ⟨110, _⟩ => ⟨S16000x256, .f32⟩
  | .hbm, ⟨111, _⟩ => ⟨S_, .f32⟩
  | .hbm, ⟨112, _⟩ => ⟨S16000x256, .f32⟩
  | .hbm, ⟨113, _⟩ => ⟨S16000x256, .f32⟩
  | .hbm, ⟨114, _⟩ => ⟨S16000x256, .f32⟩
  | .hbm, ⟨115, _⟩ => ⟨S16000x8x32, .f32⟩
  | .hbm, ⟨116, _⟩ => ⟨S256000x8x32, .f32⟩
  | .local _ .vmem, ⟨0, _⟩ => ⟨S2000x256, .f32⟩
  | .local _ .vmem, ⟨1, _⟩ => ⟨S2000x256, .f32⟩
  | .local _ .vmem, ⟨2, _⟩ => ⟨S256x768, .f32⟩
  | .local _ .vmem, ⟨3, _⟩ => ⟨S2000x256, .bf16⟩
  | .local _ .vmem, ⟨4, _⟩ => ⟨S2000x256, .bf16⟩
  | .local _ .vmem, ⟨5, _⟩ => ⟨S2000x256, .bf16⟩
  | .local _ .vmem, ⟨6, _⟩ => ⟨S2000x256, .bf16⟩
  | .local _ .vmem, ⟨7, _⟩ => ⟨S2000x256, .bf16⟩
  | .local _ .vmem, ⟨8, _⟩ => ⟨S2000x256, .bf16⟩
  | .local _ .vmem, ⟨9, _⟩ => ⟨S512x256, .f32⟩
  | .local _ .vmem, ⟨10, _⟩ => ⟨S512x256, .f32⟩
  | .local _ .vmem, ⟨11, _⟩ => ⟨S512, .f32⟩
  | .local _ .vmem, ⟨12, _⟩ => ⟨S512, .f32⟩
  | .local _ .vmem, ⟨13, _⟩ => ⟨S256x256, .f32⟩
  | .local _ .vmem, ⟨14, _⟩ => ⟨S1x256, .f32⟩
  | .local _ .vmem, ⟨15, _⟩ => ⟨S256x8, .f32⟩
  | .local _ .vmem, ⟨16, _⟩ => ⟨S8x256, .f32⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x8, .f32⟩
  | .local _ .vmem, ⟨28, _⟩ => ⟨S512x8, .f32⟩
  | _, _ => ⟨S16000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_c : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_0 : Ref sig .tc := ⟨.hbm, 86, rfl⟩
abbrev main_call1_v12 : Ref sig .tc := ⟨.hbm, 87, rfl⟩
abbrev main_call1_v13 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57_0 : Ref sig .tc := ⟨.hbm, 98, rfl⟩
abbrev main_v57_1 : Ref sig .tc := ⟨.hbm, 99, rfl⟩
abbrev main_v57_2 : Ref sig .tc := ⟨.hbm, 100, rfl⟩
abbrev main_cst_10 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_11 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_12 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x8 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x256000_S1x256000_0_0 : S2x256000.Slices ![0, 0] S1x256000
  shapeCasts_S1x256000_S256000 : S1x256000.ShapeCasts S256000
  slices_S2x256000_S1x256000_1_0 : S2x256000.Slices ![1, 0] S1x256000
  bcast_S_S256000 : S_.BroadcastsInDim S256000 (![] : Fin 0 → Fin S256000.rank)
  bcast_S256000_S256000x1_0 : S256000.BroadcastsInDim S256000x1 (![0] : Fin 1 → Fin S256000x1.rank)
  reducesTo_S256000x3_S256000_d1 : S256000x3.ReducesTo [1] S256000
  h_S_ : 0 < S_.numel
  concatenates_S256x256_S256x256_S256x256_S256x768_d1 : Shape.Concatenates [S256x256, S256x256, S256x256] S256x768 1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S2000x768_o0_0_S2000x256 : S2000x768.Slices ![0, 0] S2000x256
  packedbf16_S2000x256_S2000x256_0_0 : (Rect.unit (s := S2000x256) ![0, 0] S2000x256.size inb_S2000x256_S2000x256_0_0).PackedRows (EltTy.packing .bf16)
  slices_S2000x768_o0_256_S2000x256 : S2000x768.Slices ![0, 256] S2000x256
  slices_S2000x768_o0_512_S2000x256 : S2000x768.Slices ![0, 512] S2000x256
  slices_S257x256_S256x256_0_0 : S257x256.Slices ![0, 0] S256x256
  slices_S257x256_S1x256_256_0 : S257x256.Slices ![256, 0] S1x256
  bcast_S_S256 : S_.BroadcastsInDim S256 (![] : Fin 0 → Fin S256.rank)
  bcast_S256_S256x1_0 : S256.BroadcastsInDim S256x1 (![0] : Fin 1 → Fin S256x1.rank)
  bcast_S8_S1x8_1 : S8.BroadcastsInDim S1x8 (![1] : Fin 1 → Fin S1x8.rank)
  bcast_S256x1_S256x8_0_1 : S256x1.BroadcastsInDim S256x8 (![0, 1] : Fin 2 → Fin S256x8.rank)
  bcast_S1x8_S256x8_0_1 : S1x8.BroadcastsInDim S256x8 (![0, 1] : Fin 2 → Fin S256x8.rank)
  transposes_S256x8_S8x256_1_0 : S256x8.Transposes [1, 0] S8x256
  inb_S512_S512_0 : ∀ a, (![0] : Fin 1 → Nat) a + S512.size a ≤ S512.size a
  h_S512 : 0 < S512.numel
  shapeCasts_S512_S512 : S512.ShapeCasts S512
  shapeCasts_S512_S512x1 : S512.ShapeCasts S512x1
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S512x1_S512x256 : S512x1.Broadcasts S512x256
  broadcasts_S1x256_S512x256 : S1x256.Broadcasts S512x256
  shapeCasts_S512x256_S512x256 : S512x256.ShapeCasts S512x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S512x8_S512x8_0_0 : ∀ a, (![0, 0] : Fin 2 → Nat) a + S512x8.size a ≤ S512x8.size a
  h_S512x8 : 0 < S512x8.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  bcast_S_S16000x256 : S_.BroadcastsInDim S16000x256 (![] : Fin 0 → Fin S16000x256.rank)
  bcast_S_S16000x8 : S_.BroadcastsInDim S16000x8 (![] : Fin 0 → Fin S16000x8.rank)
  bcast_S16000x8_S16000x8x32_0_1 : S16000x8.BroadcastsInDim S16000x8x32 (![0, 1] : Fin 2 → Fin S16000x8x32.rank)
  shapeCasts_S16000x8x32_S16000x256 : S16000x8x32.ShapeCasts S16000x256
  shapeCasts_S16000x256_S16000x8x32 : S16000x256.ShapeCasts S16000x8x32
  shapeCasts_S256000x256_S256000x8x32 : S256000x256.ShapeCasts S256000x8x32
  gather_S16000x3_S256000x1_S256000x3_1_0_n_n_0_1_13_wf : GatherDims.WF S16000x3 S256000x1 S256000x3 [1] [0] [] [0] [] 1 ![1, 3]
  dot_S2000x256_S256x768_S2000x768_1_0_0_1_n_n_wf : DotDims.WF S2000x256 S256x768 S2000x768 [1] [0] [0] [1] [] []
  gather_S16000x256_S256000x1_S256000x256_1_0_n_n_0_1_1256_wf : GatherDims.WF S16000x256 S256000x1 S256000x256 [1] [0] [] [0] [] 1 ![1, 256]
  dot_S512x256_S256x256_S512x256_1_0_0_1_n_n_wf : DotDims.WF S512x256 S256x256 S512x256 [1] [0] [0] [1] [] []
  dot_S512x256_S256x8_S512x8_1_0_0_1_n_n_wf : DotDims.WF S512x256 S256x8 S512x8 [1] [0] [0] [1] [] []
  dot_S512x8_S8x256_S512x256_1_0_0_1_n_n_wf : DotDims.WF S512x8 S8x256 S512x256 [1] [0] [0] [1] [] []
  scatter_S16000x256_S256000x1_S256000x256_1_0_0_1_wf : ScatterDims.WF S16000x256 S256000x1 S256000x256 [1] [0] [0] 1
  scatter_S16000x8_S256000x1_S256000x8_1_0_0_1_wf : ScatterDims.WF S16000x8 S256000x1 S256000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S16000x256.size a
  hwx0_0 : ∀ i : grid0.Coords, EltTy.bits .f32 = 32 ∨ (Rect.block (s := S16000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S16000x256.size a
  hwx0_2 : ∀ i : grid0.Coords, EltTy.bits .bf16 = 32 ∨ (Rect.block (s := S16000x256) S2000x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S16000x256.size a
  hwx0_3 : ∀ i : grid0.Coords, EltTy.bits .bf16 = 32 ∨ (Rect.block (s := S16000x256) S2000x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S16000x256.size a
  hwx0_4 : ∀ i : grid0.Coords, EltTy.bits .bf16 = 32 ∨ (Rect.block (s := S16000x256) S2000x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S256000x256.size a
  hwx1_0 : ∀ i : grid1.Coords, EltTy.bits .f32 = 32 ∨ (Rect.block (s := S256000x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S256000.size a
  hwx1_1 : ∀ i : grid1.Coords, EltTy.bits .f32 = 32 ∨ (Rect.block (s := S256000) S512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x8.size a ≤ S256x8.size a
  hwx1_4 : ∀ i : grid1.Coords, EltTy.bits .f32 = 32 ∨ (Rect.block (s := S256x8) S256x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x256.size a ≤ S8x256.size a
  hwx1_5 : ∀ i : grid1.Coords, EltTy.bits .f32 = 32 ∨ (Rect.block (s := S8x256) S8x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S256000x256.size a
  hwx1_6 : ∀ i : grid1.Coords, EltTy.bits .bf16 = 32 ∨ (Rect.block (s := S256000x256) S512x256.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x256.size a ≤ S256000x256.size a
  hwx1_7 : ∀ i : grid1.Coords, EltTy.bits .bf16 = 32 ∨ (Rect.block (s := S256000x256) S512x256.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x256.size a ≤ S256000x256.size a
  hwx1_8 : ∀ i : grid1.Coords, EltTy.bits .bf16 = 32 ∨ (Rect.block (s := S256000x256) S512x256.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x256.size a ≤ S256000x256.size a
  hwx1_9 : ∀ i : grid1.Coords, EltTy.bits .f32 = 32 ∨ (Rect.block (s := S256000x256) S512x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x256.size a ≤ S256000x256.size a
  hwx1_10 : ∀ i : grid1.Coords, EltTy.bits .f32 = 32 ∨ (Rect.block (s := S256000x256) S512x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x8.size a ≤ S256000x8.size a
  hwx1_11 : ∀ i : grid1.Coords, EltTy.bits .f32 = 32 ∨ (Rect.block (s := S256000x8) S512x8.size (cc1_transform_11 i) (hinb1_11 i)).WholeWords (EltTy.packing .f32)

variable [Facts₀]

def gather_S16000x3_S256000x1_S256000x3_1_0_n_n_0_1_13 : GatherDims S16000x3 S256000x1 S256000x3 where
  offsetDims := [1]
  collapsedSliceDims := [0]
  operandBatchingDims := []
  startIndicesBatchingDims := []
  startIndexMap := [0]
  indexVectorDim := 1
  sliceSizes := ![1, 3]
  wf := gather_S16000x3_S256000x1_S256000x3_1_0_n_n_0_1_13_wf
def dot_S2000x256_S256x768_S2000x768_1_0_0_1_n_n : DotDims S2000x256 S256x768 S2000x768 where
  lhsContracting := [1]
  rhsContracting := [0]
  lhsNonContracting := [0]
  rhsNonContracting := [1]
  lhsBatch := []
  rhsBatch := []
  wf := dot_S2000x256_S256x768_S2000x768_1_0_0_1_n_n_wf
def gather_S16000x256_S256000x1_S256000x256_1_0_n_n_0_1_1256 : GatherDims S16000x256 S256000x1 S256000x256 where
  offsetDims := [1]
  collapsedSliceDims := [0]
  operandBatchingDims := []
  startIndicesBatchingDims := []
  startIndexMap := [0]
  indexVectorDim := 1
  sliceSizes := ![1, 256]
  wf := gather_S16000x256_S256000x1_S256000x256_1_0_n_n_0_1_1256_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x8_S512x8_1_0_0_1_n_n : DotDims S512x256 S256x8 S512x8 where
  lhsContracting := [1]
  rhsContracting := [0]
  lhsNonContracting := [0]
  rhsNonContracting := [1]
  lhsBatch := []
  rhsBatch := []
  wf := dot_S512x256_S256x8_S512x8_1_0_0_1_n_n_wf
def dot_S512x8_S8x256_S512x256_1_0_0_1_n_n : DotDims S512x8 S8x256 S512x256 where
  lhsContracting := [1]
  rhsContracting := [0]
  lhsNonContracting := [0]
  rhsNonContracting := [1]
  lhsBatch := []
  rhsBatch := []
  wf := dot_S512x8_S8x256_S512x256_1_0_0_1_n_n_wf
def scatter_S16000x256_S256000x1_S256000x256_1_0_0_1 : ScatterDims S16000x256 S256000x1 S256000x256 where
  updateWindowDims := [1]
  insertedWindowDims := [0]
  scatterDimsToOperandDims := [0]
  indexVectorDim := 1
  wf := scatter_S16000x256_S256000x1_S256000x256_1_0_0_1_wf
def scatter_S16000x8_S256000x1_S256000x8_1_0_0_1 : ScatterDims S16000x8 S256000x1 S256000x8 where
  updateWindowDims := [1]
  insertedWindowDims := [0]
  scatterDimsToOperandDims := [0]
  indexVectorDim := 1
  wf := scatter_S16000x8_S256000x1_S256000x8_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23_0) S2000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23_1) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23_2) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S256x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S8x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S512x256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v37) S512x256.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v44) S512x256.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v57_0) S512x256.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v57_1) S512x256.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v57_2) S512x8.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S16000x256 : Shape := ⟨2, ![16000, 256]⟩
abbrev S256000x256 : Shape := ⟨2, ![256000, 256]⟩
abbrev S2x256000 : Shape := ⟨2, ![2, 256000]⟩
abbrev S16000x3 : Shape := ⟨2, ![16000, 3]⟩
abbrev S256x256 : Shape := ⟨2, ![256, 256]⟩
abbrev S257x256 : Shape := ⟨2, ![257, 256]⟩
abbrev S1x256000 : Shape := ⟨2, ![1, 256000]⟩
abbrev S256000 : Shape := ⟨1, ![256000]⟩
abbrev S16000x8x32 : Shape := ⟨3, ![16000, 8, 32]⟩
abbrev S_ : Shape := ⟨0, ![]⟩
abbrev S256000x1 : Shape := ⟨2, ![256000, 1]⟩
abbrev S256000x3 : Shape := ⟨2, ![256000, 3]⟩
abbrev S256000x257 : Shape := ⟨2, ![256000, 257]⟩
abbrev S256000x8x32 : Shape := ⟨3, ![256000, 8, 32]⟩
abbrev S256000x8 : Shape := ⟨2, ![256000, 8]⟩
abbrev S256000x8x1 : Shape := ⟨3, ![256000, 8, 1]⟩
abbrev S16000x8x1 : Shape := ⟨3, ![16000, 8, 1]⟩

abbrev nBuf : Space → Nat
  | .hbm => 115
  | .vmem => 0
  | .smem => 0
  | _ => 0

abbrev bufTy : (tb : Table) → Fin (tcTables nBuf tb) → BufTy
  | .hbm, ⟨0, _⟩ => ⟨S16000x256, .f32⟩
  | .hbm, ⟨1, _⟩ => ⟨S256000x256, .f32⟩
  | .hbm, ⟨2, _⟩ => ⟨S2x256000, .i32⟩
  | .hbm, ⟨3, _⟩ => ⟨S16000x3, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S257x256, .f32⟩
  | .hbm, ⟨8, _⟩ => ⟨S1x256000, .i32⟩
  | .hbm, ⟨9, _⟩ => ⟨S256000, .i32⟩
  | .hbm, ⟨10, _⟩ => ⟨S1x256000, .i32⟩
  | .hbm, ⟨11, _⟩ => ⟨S256000, .i32⟩
  | .hbm, ⟨12, _⟩ => ⟨S16000x256, .f32⟩
  | .hbm, ⟨13, _⟩ => ⟨S16000x8x32, .f32⟩
  | .hbm, ⟨14, _⟩ => ⟨S16000x256, .f32⟩
  | .hbm, ⟨15, _⟩ => ⟨S16000x8x32, .f32⟩
  | .hbm, ⟨16, _⟩ => ⟨S16000x256, .f32⟩
  | .hbm, ⟨17, _⟩ => ⟨S16000x8x32, .f32⟩
  | .hbm, ⟨18, _⟩ => ⟨S_, .i32⟩
  | .hbm, ⟨19, _⟩ => ⟨S256000, .i32⟩
  | .hbm, ⟨20, _⟩ => ⟨S256000, .i1⟩
  | .hbm, ⟨21, _⟩ => ⟨S_, .i32⟩
  | .hbm, ⟨22, _⟩ => ⟨S256000, .i32⟩
  | .hbm, ⟨23, _⟩ => ⟨S256000, .i32⟩
  | .hbm, ⟨24, _⟩ => ⟨S256000, .i32⟩
  | .hbm, ⟨25, _⟩ => ⟨S256000x1, .i32⟩
  | .hbm, ⟨26, _⟩ => ⟨S256000x3, .f32⟩
  | .hbm, ⟨27, _⟩ => ⟨S_, .i32⟩
  | .hbm, ⟨28, _⟩ => ⟨S256000, .i32⟩
  | .hbm, ⟨29, _⟩ => ⟨S256000, .i1⟩
  | .hbm, ⟨30, _⟩ => ⟨S_, .i32⟩
  | .hbm, ⟨31, _⟩ => ⟨S256000, .i32⟩
  | .hbm, ⟨32, _⟩ => ⟨S256000, .i32⟩
  | .hbm, ⟨33, _⟩ => ⟨S256000, .i32⟩
  | .hbm, ⟨34, _⟩ => ⟨S256000x1, .i32⟩
  | .hbm, ⟨35, _⟩ => ⟨S256000x3, .f32⟩
  | .hbm, ⟨36, _⟩ => ⟨S256000x3, .f32⟩
  | .hbm, ⟨37, _⟩ => ⟨S256000x3, .f32⟩
  | .hbm, ⟨38, _⟩ => ⟨S_, .f32⟩
  | .hbm, ⟨39, _⟩ => ⟨S256000, .f32⟩
  | .hbm, ⟨40, _⟩ => ⟨S256000x1, .f32⟩
  | .hbm, ⟨41, _⟩ => ⟨S256000x1, .f32⟩
  | .hbm, ⟨42, _⟩ => ⟨S_, .f32⟩
  | .hbm, ⟨43, _⟩ => ⟨S256000x1, .f32⟩
  | .hbm, ⟨44, _⟩ => ⟨S256000x1, .f32⟩
  | .hbm, ⟨45, _⟩ => ⟨S256000x257, .f32⟩
  | .hbm, ⟨46, _⟩ => ⟨S256000x256, .f32⟩
  | .hbm, ⟨47, _⟩ => ⟨S256000x8x32, .f32⟩
  | .hbm, ⟨48, _⟩ => ⟨S_, .i32⟩
  | .hbm, ⟨49, _⟩ => ⟨S256000, .i32⟩
  | .hbm, ⟨50, _⟩ => ⟨S256000, .i1⟩
  | .hbm, ⟨51, _⟩ => ⟨S_, .i32⟩
  | .hbm, ⟨52, _⟩ => ⟨S256000, .i32⟩
  | .hbm, ⟨53, _⟩ => ⟨S256000, .i32⟩
  | .hbm, ⟨54, _⟩ => ⟨S256000, .i32⟩
  | .hbm, ⟨55, _⟩ => ⟨S256000x1, .i32⟩
  | .hbm, ⟨56, _⟩ => ⟨S256000x8x32, .f32⟩
  | .hbm, ⟨57, _⟩ => ⟨S_, .i32⟩
  | .hbm, ⟨58, _⟩ => ⟨S256000, .i32⟩
  | .hbm, ⟨59, _⟩ => ⟨S256000, .i1⟩
  | .hbm, ⟨60, _⟩ => ⟨S_, .i32⟩
  | .hbm, ⟨61, _⟩ => ⟨S256000, .i32⟩
  | .hbm, ⟨62, _⟩ => ⟨S256000, .i32⟩
  | .hbm, ⟨63, _⟩ => ⟨S256000, .i32⟩
  | .hbm, ⟨64, _⟩ => ⟨S256000x1, .i32⟩
  | .hbm, ⟨65, _⟩ => ⟨S256000x8x32, .f32⟩
  | .hbm, ⟨66, _⟩ => ⟨S256000x8x32, .f32⟩
  | .hbm, ⟨67, _⟩ => ⟨S_, .f32⟩
  | .hbm, ⟨68, _⟩ => ⟨S256000x8x32, .f32⟩
  | .hbm, ⟨69, _⟩ => ⟨S256000x8x32, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S256000x8x32, .f32⟩
  | .hbm, ⟨74, _⟩ => ⟨S256000x8x32, .f32⟩
  | .hbm, ⟨75, _⟩ => ⟨S_, .f32⟩
  | .hbm, ⟨76, _⟩ => ⟨S256000x8x32, .f32⟩
  | .hbm, ⟨77, _⟩ => ⟨S256000x8x32, .f32⟩
  | .hbm, ⟨78, _⟩ => ⟨S256000x8x32, .f32⟩
  | .hbm, ⟨79, _⟩ => ⟨S_, .f32⟩
  | .hbm, ⟨80, _⟩ => ⟨S256000x8, .f32⟩
  | .hbm, ⟨81, _⟩ => ⟨S256000x8x1, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S256000x8x1, .f32⟩
  | .hbm, ⟨86, _⟩ => ⟨S256000x8x1, .f32⟩
  | .hbm, ⟨87, _⟩ => ⟨S_, .f32⟩
  | .hbm, ⟨88, _⟩ => ⟨S256000x8x1, .f32⟩
  | .hbm, ⟨89, _⟩ => ⟨S256000x8x1, .f32⟩
  | .hbm, ⟨90, _⟩ => ⟨S256000x8x1, .f32⟩
  | .hbm, ⟨91, _⟩ => ⟨S_, .i32⟩
  | .hbm, ⟨92, _⟩ => ⟨S256000, .i32⟩
  | .hbm, ⟨93, _⟩ => ⟨S256000, .i1⟩
  | .hbm, ⟨94, _⟩ => ⟨S_, .i32⟩
  | .hbm, ⟨95, _⟩ => ⟨S256000, .i32⟩
  | .hbm, ⟨96, _⟩ => ⟨S256000, .i32⟩
  | .hbm, ⟨97, _⟩ => ⟨S256000, .i32⟩
  | .hbm, ⟨98, _⟩ => ⟨S256000x1, .i32⟩
  | .hbm, ⟨99, _⟩ => ⟨S256000x8x32, .f32⟩
  | .hbm, ⟨100, _⟩ => ⟨S256000x8x32, .f32⟩
  | .hbm, ⟨101, _⟩ => ⟨S256000x8x32, .f32⟩
  | .hbm, ⟨102, _⟩ => ⟨S_, .f32⟩
  | .hbm, ⟨103, _⟩ => ⟨S16000x8x32, .f32⟩
  | .hbm, ⟨104, _⟩ => ⟨S256000x1, .i32⟩
  | .hbm, ⟨105, _⟩ => ⟨S16000x8x32, .f32⟩
  | .hbm, ⟨106, _⟩ => ⟨S_, .f32⟩
  | .hbm, ⟨107, _⟩ => ⟨S16000x8x1, .f32⟩
  | .hbm, ⟨108, _⟩ => ⟨S256000x1, .i32⟩
  | .hbm, ⟨109, _⟩ => ⟨S16000x8x1, .f32⟩
  | .hbm, ⟨110, _⟩ => ⟨S_, .f32⟩
  | .hbm, ⟨111, _⟩ => ⟨S16000x8x1, .f32⟩
  | .hbm, ⟨112, _⟩ => ⟨S16000x8x1, .f32⟩
  | .hbm, ⟨113, _⟩ => ⟨S16000x8x32, .f32⟩
  | .hbm, ⟨114, _⟩ => ⟨S16000x8x32, .f32⟩
  | _, _ => ⟨S16000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_call0_v2 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_3 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_cst_9 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v52 : Ref sig .tc := ⟨.hbm, 89, rfl⟩
abbrev main_v53 : Ref sig .tc := ⟨.hbm, 90, rfl⟩
abbrev main_c_13 : Ref sig .tc := ⟨.hbm, 91, rfl⟩
abbrev main_v54 : Ref sig .tc := ⟨.hbm, 92, rfl⟩
abbrev main_v55 : Ref sig .tc := ⟨.hbm, 93, rfl⟩
abbrev main_c_14 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_15 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_16 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_17 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩

abbrev nD : Nat := 1
abbrev τ : Topo := Topo.v7x

variable {F : FTy → Type} [FloatOps F]

class Facts₀ : Prop where
  slices_S2x256000_S1x256000_0_0 : S2x256000.Slices ![0, 0] S1x256000
  shapeCasts_S1x256000_S256000 : S1x256000.ShapeCasts S256000
  slices_S2x256000_S1x256000_1_0 : S2x256000.Slices ![1, 0] S1x256000
  shapeCasts_S16000x256_S16000x8x32 : S16000x256.ShapeCasts S16000x8x32
  bcast_S_S256000 : S_.BroadcastsInDim S256000 (![] : Fin 0 → Fin S256000.rank)
  bcast_S256000_S256000x1_0 : S256000.BroadcastsInDim S256000x1 (![0] : Fin 1 → Fin S256000x1.rank)
  reducesTo_S256000x3_S256000_d1 : S256000x3.ReducesTo [1] S256000
  h_S_ : 0 < S_.numel
  bcast_S_S256000x1 : S_.BroadcastsInDim S256000x1 (![] : Fin 0 → Fin S256000x1.rank)
  concatenates_S256000x256_S256000x1_S256000x257_d1 : Shape.Concatenates [S256000x256, S256000x1] S256000x257 1
  shapeCasts_S256000x256_S256000x8x32 : S256000x256.ShapeCasts S256000x8x32
  bcast_S_S256000x8x32 : S_.BroadcastsInDim S256000x8x32 (![] : Fin 0 → Fin S256000x8x32.rank)
  reducesTo_S256000x8x32_S256000x8_d2 : S256000x8x32.ReducesTo [2] S256000x8
  bcast_S256000x8_S256000x8x1_0_1 : S256000x8.BroadcastsInDim S256000x8x1 (![0, 1] : Fin 2 → Fin S256000x8x1.rank)
  bcast_S_S256000x8x1 : S_.BroadcastsInDim S256000x8x1 (![] : Fin 0 → Fin S256000x8x1.rank)
  bcast_S256000x8x1_S256000x8x32_0_1_2 : S256000x8x1.BroadcastsInDim S256000x8x32 (![0, 1, 2] : Fin 3 → Fin S256000x8x32.rank)
  bcast_S_S16000x8x32 : S_.BroadcastsInDim S16000x8x32 (![] : Fin 0 → Fin S16000x8x32.rank)
  bcast_S_S16000x8x1 : S_.BroadcastsInDim S16000x8x1 (![] : Fin 0 → Fin S16000x8x1.rank)
  bcast_S16000x8x1_S16000x8x32_0_1_2 : S16000x8x1.BroadcastsInDim S16000x8x32 (![0, 1, 2] : Fin 3 → Fin S16000x8x32.rank)
  dot_S16000x256_S256x256_S16000x256_1_0_0_1_n_n_wf : DotDims.WF S16000x256 S256x256 S16000x256 [1] [0] [0] [1] [] []
  gather_S16000x3_S256000x1_S256000x3_1_0_n_n_0_1_13_wf : GatherDims.WF S16000x3 S256000x1 S256000x3 [1] [0] [] [0] [] 1 ![1, 3]
  dot_S256000x257_S257x256_S256000x256_1_0_0_1_n_n_wf : DotDims.WF S256000x257 S257x256 S256000x256 [1] [0] [0] [1] [] []
  gather_S16000x8x32_S256000x1_S256000x8x32_12_0_n_n_0_1_1832_wf : GatherDims.WF S16000x8x32 S256000x1 S256000x8x32 [1, 2] [0] [] [0] [] 1 ![1, 8, 32]
  scatter_S16000x8x32_S256000x1_S256000x8x32_12_0_0_1_wf : ScatterDims.WF S16000x8x32 S256000x1 S256000x8x32 [1, 2] [0] [0] 1
  scatter_S16000x8x1_S256000x1_S256000x8x1_12_0_0_1_wf : ScatterDims.WF S16000x8x1 S256000x1 S256000x8x1 [1, 2] [0] [0] 1

variable [Facts₀]

def dot_S16000x256_S256x256_S16000x256_1_0_0_1_n_n : DotDims S16000x256 S256x256 S16000x256 where
  lhsContracting := [1]
  rhsContracting := [0]
  lhsNonContracting := [0]
  rhsNonContracting := [1]
  lhsBatch := []
  rhsBatch := []
  wf := dot_S16000x256_S256x256_S16000x256_1_0_0_1_n_n_wf
def gather_S16000x3_S256000x1_S256000x3_1_0_n_n_0_1_13 : GatherDims S16000x3 S256000x1 S256000x3 where
  offsetDims := [1]
  collapsedSliceDims := [0]
  operandBatchingDims := []
  startIndicesBatchingDims := []
  startIndexMap := [0]
  indexVectorDim := 1
  sliceSizes := ![1, 3]
  wf := gather_S16000x3_S256000x1_S256000x3_1_0_n_n_0_1_13_wf
def dot_S256000x257_S257x256_S256000x256_1_0_0_1_n_n : DotDims S256000x257 S257x256 S256000x256 where
  lhsContracting := [1]
  rhsContracting := [0]
  lhsNonContracting := [0]
  rhsNonContracting := [1]
  lhsBatch := []
  rhsBatch := []
  wf := dot_S256000x257_S257x256_S256000x256_1_0_0_1_n_n_wf
def gather_S16000x8x32_S256000x1_S256000x8x32_12_0_n_n_0_1_1832 : GatherDims S16000x8x32 S256000x1 S256000x8x32 where
  offsetDims := [1, 2]
  collapsedSliceDims := [0]
  operandBatchingDims := []
  startIndicesBatchingDims := []
  startIndexMap := [0]
  indexVectorDim := 1
  sliceSizes := ![1, 8, 32]
  wf := gather_S16000x8x32_S256000x1_S256000x8x32_12_0_n_n_0_1_1832_wf
def scatter_S16000x8x32_S256000x1_S256000x8x32_12_0_0_1 : ScatterDims S16000x8x32 S256000x1 S256000x8x32 where
  updateWindowDims := [1, 2]
  insertedWindowDims := [0]
  scatterDimsToOperandDims := [0]
  indexVectorDim := 1
  wf := scatter_S16000x8x32_S256000x1_S256000x8x32_12_0_0_1_wf
def scatter_S16000x8x1_S256000x1_S256000x8x1_12_0_0_1 : ScatterDims S16000x8x1 S256000x1 S256000x8x1 where
  updateWindowDims := [1, 2]
  insertedWindowDims := [0]
  scatterDimsToOperandDims := [0]
  indexVectorDim := 1
  wf := scatter_S16000x8x1_S256000x1_S256000x8x1_12_0_0_1_wf

class Facts : Prop extends Facts₀ where

variable [Facts]
-- ==== Proof.K.Body0.lean ====
/-
  The first pallas_call (the projection x · [Wq | Wk | Wv], a grid of 8 row tiles of 2000 rows) at region-entry
  contents `V`: what each window's staging buffer holds at a grid point, the body's Hoare triple, and the proof data
  the pipeline library asks for. The body reads the row tile of x and the whole 256 x 768 weight block, and writes the
  three 2000 x 256 column slices of their product, each store covering its whole output block.
-/
import proofs.«409030_j11063835754631_4_alg».proof.Proof.Gen.Kernel.Launch
import proofs.«409030_j11063835754631_4_alg».proof.Proof.Gen.Kernel.Skeleton
import proofs.«409030_j11063835754631_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of x: its staging buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight block: fetched once, its block index never moves, so its staging buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev rX0 : Rect S2000x256 := Rect.unit (s := S2000x256) ![0, 0] S2000x256.size inb_S2000x256_S2000x256_0_0
abbrev rW0 : Rect S256x768 := Rect.unit (s := S256x768) ![0, 0] S256x768.size inb_S256x768_S256x768_0_0

/-! ## What the body leaves in each output block -/

/-- The q block: columns 0..255 of the tile's product. -/
def out0_2 (x0 : Vec F S2000x256 .f32) (x1 : Vec F S256x768 .f32) : Vec F S2000x256 .bf16 :=
  View.canon [⟨rX0, k0_pay2 (View.ld x0 rX0) (View.ld x1 rW0)⟩]
/-- The k block: columns 256..511. -/
def out0_3 (x0 : Vec F S2000x256 .f32) (x1 : Vec F S256x768 .f32) : Vec F S2000x256 .bf16 :=
  View.canon [⟨rX0, k0_pay3 (View.ld x0 rX0) (View.ld x1 rW0)⟩]
/-- The v block: columns 512..767. -/
def out0_4 (x0 : Vec F S2000x256 .f32) (x1 : Vec F S256x768 .f32) : Vec F S2000x256 .bf16 :=
  View.canon [⟨rX0, k0_pay4 (View.ld x0 rX0) (View.ld x1 rW0)⟩]

/-- One whole-block store covers the block. -/
theorem cover0 (p0 : Vec F S2000x256 .bf16) (y : S2000x256.Idx) :
    ∃ pc ∈ ([⟨rX0, p0⟩] : List (View.Piece (Elt F) S2000x256 .bf16)), y ∈ pc.1.set :=
  View.cover_of_tiled [⟨rX0, p0⟩] S2000x256.size (by rfl) y

/-! ## The body's triple -/

set_option maxHeartbeats 4000000 in
/-- The body on whole staging buffers, the inputs' holding `x0`, `x1` and the outputs' anything, runs to the
    continuation with the inputs' unchanged and the three outputs' at the three slices of the product. -/
theorem sound_kernel0 (c : Dev nD) (E : Set ℕ) (i : grid0.Coords)
    (arg1 : Memref sig .tc .vmem S2000x256 .f32) (harg1 : arg1.IsWhole) (arg2 : Memref sig .tc .vmem S256x768 .f32) (harg2 : arg2.IsWhole)
    (arg3 : Memref sig .tc .vmem S2000x256 .bf16) (harg3 : arg3.IsWhole) (arg4 : Memref sig .tc .vmem S2000x256 .bf16) (harg4 : arg4.IsWhole)
    (arg5 : Memref sig .tc .vmem S2000x256 .bf16) (harg5 : arg5.IsWhole)
    (x0 : Vec F S2000x256 .f32) (x1 : Vec F S256x768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_kernel i arg1 harg1 arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The pipeline's proof data -/

/-- The proof data of the first pipeline on core `c`: arrays as the region finds them; after the body at point `t`
    each input's buffer at its block and each output's at its slice of the product of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The second pallas_call (the per-edge attention score and aggregation payload, a grid of 500 tiles of 512 edges) at
  region-entry contents `V`: what each window's staging buffer holds at a grid point, the body's Hoare triple, and the
  proof data the pipeline library asks for. The body reads nine blocks (edge features, distances, the two parts of the
  edge weight, the two head selectors, and the gathered k, q, v rows) and writes three whole blocks: the clipped score
  times the edge projection, the value rows weighted by the per-head exponential, and that exponential per head.
-/
import proofs.«409030_j11063835754631_4_alg».proof.Proof.Gen.Kernel.Launch
import proofs.«409030_j11063835754631_4_alg».proof.Proof.Gen.Kernel.Skeleton
import proofs.«409030_j11063835754631_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds its block at every point: a tile that moves with the point is fetched there, a
    block whose index never moves was fetched at the first point and is still in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole block -/

abbrev rA : Rect S512x256 := Rect.unit (s := S512x256) ![0, 0] S512x256.size inb_S512x256_S512x256_0_0
abbrev rD : Rect S512 := Rect.unit (s := S512) ![0] S512.size inb_S512_S512_0
abbrev rM : Rect S256x256 := Rect.unit (s := S256x256) ![0, 0] S256x256.size inb_S256x256_S256x256_0_0
abbrev rB : Rect S1x256 := Rect.unit (s := S1x256) ![0, 0] S1x256.size inb_S1x256_S1x256_0_0
abbrev rF : Rect S256x8 := Rect.unit (s := S256x8) ![0, 0] S256x8.size inb_S256x8_S256x8_0_0
abbrev rG : Rect S8x256 := Rect.unit (s := S8x256) ![0, 0] S8x256.size inb_S8x256_S8x256_0_0
abbrev rH : Rect S512x8 := Rect.unit (s := S512x8) ![0, 0] S512x8.size inb_S512x8_S512x8_0_0

/-! ## What the body leaves in each output block -/

/-- The score block: clip(k · q · scale) times (edge features · main weight + distance · bias row). -/
def out1_9 (x0 : Vec F S512x256 .f32) (x1 : Vec F S512 .f32) (x2 : Vec F S256x256 .f32) (x3 : Vec F S1x256 .f32) (x4 : Vec F S256x8 .f32) (x5 : Vec F S8x256 .f32) (x6 : Vec F S512x256 .bf16) (x7 : Vec F S512x256 .bf16) (x8 : Vec F S512x256 .bf16) : Vec F S512x256 .f32 :=
  View.canon [⟨rA, k1_pay4 (View.ld x1 rD) (View.ld x0 rA) (View.ld x2 rM) (View.ld x3 rB) (View.ld x6 rA) (View.ld x7 rA)⟩]
/-- The weighted value block: v times the per-head exponential spread back over the head's columns. -/
def out1_10 (x0 : Vec F S512x256 .f32) (x1 : Vec F S512 .f32) (x2 : Vec F S256x256 .f32) (x3 : Vec F S1x256 .f32) (x4 : Vec F S256x8 .f32) (x5 : Vec F S8x256 .f32) (x6 : Vec F S512x256 .bf16) (x7 : Vec F S512x256 .bf16) (x8 : Vec F S512x256 .bf16) : Vec F S512x256 .f32 :=
  View.canon [⟨rA, k1_pay2 (k1_pay3 (View.ld x8 rA))
    (k1_pay5 (View.ld x1 rD) (View.ld x0 rA) (View.ld x2 rM) (View.ld x3 rB) (View.ld x6 rA) (View.ld x7 rA) (View.ld x4 rF)) (View.ld x5 rG)⟩]
/-- The per-head exponential of the clipped head sums of the score. -/
def out1_11 (x0 : Vec F S512x256 .f32) (x1 : Vec F S512 .f32) (x2 : Vec F S256x256 .f32) (x3 : Vec F S1x256 .f32) (x4 : Vec F S256x8 .f32) (x5 : Vec F S8x256 .f32) (x6 : Vec F S512x256 .bf16) (x7 : Vec F S512x256 .bf16) (x8 : Vec F S512x256 .bf16) : Vec F S512x8 .f32 :=
  View.canon [⟨rH, k1_pay1
    (k1_pay5 (View.ld x1 rD) (View.ld x0 rA) (View.ld x2 rM) (View.ld x3 rB) (View.ld x6 rA) (View.ld x7 rA) (View.ld x4 rF))⟩]

/-- One whole-block store covers the block. -/
theorem cover1_A (p0 : Vec F S512x256 .f32) (y : S512x256.Idx) :
    ∃ pc ∈ ([⟨rA, p0⟩] : List (View.Piece (Elt F) S512x256 .f32)), y ∈ pc.1.set :=
  View.cover_of_tiled [⟨rA, p0⟩] S512x256.size (by rfl) y
theorem cover1_H (p0 : Vec F S512x8 .f32) (y : S512x8.Idx) :
    ∃ pc ∈ ([⟨rH, p0⟩] : List (View.Piece (Elt F) S512x8 .f32)), y ∈ pc.1.set :=
  View.cover_of_tiled [⟨rH, p0⟩] S512x8.size (by rfl) y

/-! ## The body's triple -/

set_option maxHeartbeats 8000000 in
/-- The body on whole staging buffers, the nine inputs' holding `x0 … x8` and the outputs' anything, runs to the
    continuation with the inputs' unchanged and the three outputs' at the three blocks above. -/
theorem sound_kernel1 (c : Dev nD) (E : Set ℕ) (i : grid1.Coords)
    (arg1 : Memref sig .tc .vmem S512x256 .f32) (harg1 : arg1.IsWhole)
    (arg2 : Memref sig .tc .vmem S512 .f32) (harg2 : arg2.IsWhole)
    (arg3 : Memref sig .tc .vmem S256x256 .f32) (harg3 : arg3.IsWhole)
    (arg4 : Memref sig .tc .vmem S1x256 .f32) (harg4 : arg4.IsWhole)
    (arg5 : Memref sig .tc .vmem S256x8 .f32) (harg5 : arg5.IsWhole)
    (arg6 : Memref sig .tc .vmem S8x256 .f32) (harg6 : arg6.IsWhole)
    (arg7 : Memref sig .tc .vmem S512x256 .bf16) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S512x256 .f32) (harg10 : arg10.IsWhole)
    (arg11 : Memref sig .tc .vmem S512x256 .f32) (harg11 : arg11.IsWhole)
    (arg12 : Memref sig .tc .vmem S512x8 .f32) (harg12 : arg12.IsWhole)
    (x0 : Vec F S512x256 .f32) (x1 : Vec F S512 .f32) (x2 : Vec F S256x256 .f32) (x3 : Vec F S1x256 .f32) (x4 : Vec F S256x8 .f32) (x5 : Vec F S8x256 .f32) (x6 : Vec F S512x256 .bf16) (x7 : Vec F S512x256 .bf16) (x8 : Vec F S512x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8) ∗ owns (c : Thread nD τ) arg11 fullShare (out1_10 x0 x1 x2 x3 x4 x5 x6 x7 x8)
            ∗ owns (c : Thread nD τ) arg12 fullShare (out1_11 x0 x1 x2 x3 x4 x5 x6 x7 x8)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11 arg12 harg12) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover1_A _)
  isplitl [H10]
  · iexists _; isplitr
    swap; · iexact H10
    ipureintro
    try dsimp only
    exact View.read_writes_eq_canon _ _ _ (cover1_A _)
  iexists _; isplitr
  swap; · iexact H11
  ipureintro
  try dsimp only
  exact View.read_writes_eq_canon _ _ _ (cover1_H _)

/-! ## The pipeline's proof data -/

/-- The proof data of the second pipeline on core `c`: arrays as the region finds them; after the body at point `t`
    each input's buffer at its block and each output's at its block of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  @main of the kernel program as nine segments (three stretches of host operations, the projection's pallas_call, three
  more stretches, the per-edge pallas_call, the closing stretch), launched once: every weakly fair execution terminates,
  and at the end every unscoped buffer holds the value obtained by folding the segments over the launch memory — a host
  stretch applies its operations, a pallas_call replaces its windows' arrays by what its write-backs leave and touches
  nothing else. The frame claim and the two results are read off that one statement.
-/
import proofs.«409030_j11063835754631_4_alg».proof.Proof.K.Body0
import proofs.«409030_j11063835754631_4_alg».proof.Proof.K.Body1
import proofs.«409030_j11063835754631_4_alg».proof.Proof.Gen.Kernel.Regions
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary: a fold through @main -/

/-- Core c's buffers at launch. -/
abbrev W0 : Dev nD → Valuation τ sig (Elt F) := fun c b => m (c, b)
/-- After the first host stretch (indices, coordinate gathers, their difference). -/
abbrev W1 : Dev nD → Valuation τ sig (Elt F) := fun c => StableHlo.after hostOps0 (W0 m c)
/-- After the norm's operations. -/
abbrev W2 : Dev nD → Valuation τ sig (Elt F) := fun c => StableHlo.after hostOps0_1 (W1 m c)
/-- After the scaling of the distance and the joining of the three weights: the projection's entry. -/
abbrev W3 : Dev nD → Valuation τ sig (Elt F) := fun c => StableHlo.after hostOps0_2 (W2 m c)
/-- The same read at the TensorCore's references. -/
abbrev E3 : (c : Dev nD) → (b : Ref sig .tc) → Buf (Elt F) ((c : Thread nD τ).loc b) := fun c b => W3 m c b
/-- At the projection's exit: its arrays at what the pipeline leaves, every other buffer as entered. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev X4 : (c : Dev nD) → (b : Ref sig .tc) → Buf (Elt F) ((c : Thread nD τ).loc b) := fun c b => W4 m c b
theorem hF0 (c : Dev nD) (w : Fin cfg0.W) : (dat0 (E3 m) c).arrAt w cfg0.N = X4 m c (Pipeline.arrRef spec0 w) :=
  (W4_arr m c w).symm
theorem hrest0 (c : Dev nD) : ∀ b, b ∉ Finset.univ.image (Pipeline.arrRef spec0) → X4 m c b = E3 m c b :=
  fun b hb => W4_of_ne m c b fun w e => hb (Finset.mem_image.mpr ⟨w, Finset.mem_univ _, e⟩)

/-- After the gathers of k, q, v rows, the weight slices and the first selector operations. -/
abbrev W5 : Dev nD → Valuation τ sig (Elt F) := fun c => StableHlo.after hostOps1 (W4 m c)
/-- After the floor division's operations. -/
abbrev W6 : Dev nD → Valuation τ sig (Elt F) := fun c => StableHlo.after hostOps1_1 (W5 m c)
/-- After the selectors: the per-edge call's entry. -/
abbrev W7 : Dev nD → Valuation τ sig (Elt F) := fun c => StableHlo.after hostOps1_2 (W6 m c)
abbrev E7 : (c : Dev nD) → (b : Ref sig .tc) → Buf (Elt F) ((c : Thread nD τ).loc b) := fun c b => W7 m c b
/-- At the per-edge call's exit. -/
def W8 (c : Dev nD) : Valuation τ sig (Elt F) :=
  Pipeline.withArrays spec1 c (W7 m c) fun w => (dat1 (E7 m) c).arrAt w cfg1.N
theorem W8_arr (c : Dev nD) (w : Fin cfg1.W) :
    W8 m c (Proc.devRef .tc (Pipeline.arrRef spec1 w)) = (dat1 (E7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev X8 : (c : Dev nD) → (b : Ref sig .tc) → Buf (Elt F) ((c : Thread nD τ).loc b) := fun c b => W8 m c b
theorem hF1 (c : Dev nD) (w : Fin cfg1.W) : (dat1 (E7 m) c).arrAt w cfg1.N = X8 m c (Pipeline.arrRef spec1 w) :=
  (W8_arr m c w).symm
theorem hrest1 (c : Dev nD) : ∀ b, b ∉ Finset.univ.image (Pipeline.arrRef spec1) → X8 m c b = E7 m c b :=
  fun b hb => W8_of_ne m c b fun w e => hb (Finset.mem_image.mpr ⟨w, Finset.mem_univ _, e⟩)
/-- After the closing stretch (the two segment sums, the quotient, the reshapes): the end. -/
abbrev W9 : Dev nD → Valuation τ sig (Elt F) := fun c => StableHlo.after hostOps2 (W8 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E7 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The projection's call: entered from every unscoped buffer at W3, left at W4. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (X4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The per-edge call: entered from every unscoped buffer at W7, left at W8. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (X8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m),
    .host (hseg hostOps2 hostOps2_sub hostOps2_fresh (W8 m)) ]

/-- The last boundary: the register leaves the riding state for the final thread state, the debt stays beside it. -/
theorem last_state (c : Dev nD) (H : sProp 𝕄) :
    iprop(H ∗ R (F := F) c) ⊢ iprop((H ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN: from any memory with zero counters every weakly fair execution of @main terminates, nothing faulting, and
    every final memory holds each unscoped buffer at the fold's last contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W9 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W9 m c) ∗ ∃ r, prngReg c r))
    (hch := fun c => ⟨.rfl, .rfl, .rfl, .rfl, .rfl, .rfl, .rfl, .rfl, .rfl, last_state c _⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-! ## The arguments end as launched -/

/-- A buffer that no host stretch writes and that is no array of either call reaches the end as launched. -/
theorem W9_untouched (c : Dev nD) (r : Ref sig .tc)
    (h0 : r ∉ hostOps0_W) (h1 : r ∉ hostOps0_1_W) (h2 : r ∉ hostOps0_2_W) (h3 : ∀ w, Pipeline.arrRef spec0 w ≠ r)
    (h4 : r ∉ hostOps1_W) (h5 : r ∉ hostOps1_1_W) (h6 : r ∉ hostOps1_2_W) (h7 : ∀ w, Pipeline.arrRef spec1 w ≠ r)
    (h8 : r ∉ hostOps2_W) : W9 m c (Proc.devRef .tc r) = m ((c : Thread nD τ).loc r) :=
  calc W9 m c (Proc.devRef .tc r)
    _ = W8 m c (Proc.devRef .tc r) := StableHlo.after_of_writes_sub hostOps2 _ hostOps2_writes h8
    _ = W7 m c (Proc.devRef .tc r) := W8_of_ne m c r h7
    _ = W6 m c (Proc.devRef .tc r) := StableHlo.after_of_writes_sub hostOps1_2 _ hostOps1_2_writes h6
    _ = W5 m c (Proc.devRef .tc r) := StableHlo.after_of_writes_sub hostOps1_1 _ hostOps1_1_writes h5
    _ = W4 m c (Proc.devRef .tc r) := StableHlo.after_of_writes_sub hostOps1 _ hostOps1_writes h4
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-- x is the projection's first window: an input window's array is left as entered. -/
theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps2 _ hostOps2_writes (by decide)
    _ = W7 m c (Proc.devRef .tc main_arg0) := W8_of_ne m c main_arg0 (by decide)
    _ = W6 m c (Proc.devRef .tc main_arg0) := StableHlo.after_of_writes_sub hostOps1_2 _ hostOps1_2_writes (by decide)
    _ = W5 m c (Proc.devRef .tc main_arg0) := StableHlo.after_of_writes_sub hostOps1_1 _ hostOps1_1_writes (by decide)
    _ = W4 m c (Proc.devRef .tc main_arg0) := StableHlo.after_of_writes_sub hostOps1 _ hostOps1_writes (by decide)
    _ = W3 m c (Proc.devRef .tc main_arg0) := (W4_arr m c 0).trans (((dat0 (E3 m) c).arrAt_in 0 rfl _).trans (A_eq0 (E3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-- The edge features are the per-edge call's first window. -/
theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps2 _ hostOps2_writes (by decide)
    _ = W7 m c (Proc.devRef .tc main_arg1) := (W8_arr m c 0).trans (((dat1 (E7 m) c).arrAt_in 0 rfl _).trans (A_eq1 (E7 m) c 0))
    _ = W6 m c (Proc.devRef .tc main_arg1) := StableHlo.after_of_writes_sub hostOps1_2 _ hostOps1_2_writes (by decide)
    _ = W5 m c (Proc.devRef .tc main_arg1) := StableHlo.after_of_writes_sub hostOps1_1 _ hostOps1_1_writes (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

theorem W9_main_arg2 (c : Dev nD) : W9 m c (Proc.devRef .tc main_arg2) = m ((c : Thread nD τ).loc main_arg2) :=
  W9_untouched m c main_arg2 (by decide) (by decide) (by decide) (by decide) (by decide) (by decide) (by decide) (by decide) (by decide)
theorem W9_main_arg3 (c : Dev nD) : W9 m c (Proc.devRef .tc main_arg3) = m ((c : Thread nD τ).loc main_arg3) :=
  W9_untouched m c main_arg3 (by decide) (by decide) (by decide) (by decide) (by decide) (by decide) (by decide) (by decide) (by decide)
theorem W9_main_arg4 (c : Dev nD) : W9 m c (Proc.devRef .tc main_arg4) = m ((c : Thread nD τ).loc main_arg4) :=
  W9_untouched m c main_arg4 (by decide) (by decide) (by decide) (by decide) (by decide) (by decide) (by decide) (by decide) (by decide)
theorem W9_main_arg5 (c : Dev nD) : W9 m c (Proc.devRef .tc main_arg5) = m ((c : Thread nD τ).loc main_arg5) :=
  W9_untouched m c main_arg5 (by decide) (by decide) (by decide) (by decide) (by decide) (by decide) (by decide) (by decide) (by decide)
theorem W9_main_arg6 (c : Dev nD) : W9 m c (Proc.devRef .tc main_arg6) = m ((c : Thread nD τ).loc main_arg6) :=
  W9_untouched m c main_arg6 (by decide) (by decide) (by decide) (by decide) (by decide) (by decide) (by decide) (by decide) (by decide)
theorem W9_main_arg7 (c : Dev nD) : W9 m c (Proc.devRef .tc main_arg7) = m ((c : Thread nD τ).loc main_arg7) :=
  W9_untouched m c main_arg7 (by decide) (by decide) (by decide) (by decide) (by decide) (by decide) (by decide) (by decide) (by decide)

/-- THE FRAME: every weakly fair execution terminates, nothing faulting, and the eight arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c)⟩) (run_all m ρ)

end Cert.Kernel.Hand

end
-- ==== Proof.KI.Body0.lean ====
/-
  The first pallas_call (the projection x · [Wq | Wk | Wv], a grid of 8 row tiles of 2000 rows) at region-entry
  contents `V`: what each window's staging buffer holds at a grid point, the body's Hoare triple, and the proof data
  the pipeline library asks for. The body reads the row tile of x and the whole 256 x 768 weight block, and writes the
  three 2000 x 256 column slices of their product, each store covering its whole output block.
-/
import proofs.«409030_j11063835754631_4_alg».proof.Proof.Gen.KernelIdeal.Launch
import proofs.«409030_j11063835754631_4_alg».proof.Proof.Gen.KernelIdeal.Skeleton
import proofs.«409030_j11063835754631_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of x: its staging buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight block: fetched once, its block index never moves, so its staging buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev rX0 : Rect S2000x256 := Rect.unit (s := S2000x256) ![0, 0] S2000x256.size inb_S2000x256_S2000x256_0_0
abbrev rW0 : Rect S256x768 := Rect.unit (s := S256x768) ![0, 0] S256x768.size inb_S256x768_S256x768_0_0

/-! ## What the body leaves in each output block -/

/-- The q block: columns 0..255 of the tile's product. -/
def out0_2 (x0 : Vec F S2000x256 .f32) (x1 : Vec F S256x768 .f32) : Vec F S2000x256 .bf16 :=
  View.canon [⟨rX0, k0_pay2 (View.ld x0 rX0) (View.ld x1 rW0)⟩]
/-- The k block: columns 256..511. -/
def out0_3 (x0 : Vec F S2000x256 .f32) (x1 : Vec F S256x768 .f32) : Vec F S2000x256 .bf16 :=
  View.canon [⟨rX0, k0_pay3 (View.ld x0 rX0) (View.ld x1 rW0)⟩]
/-- The v block: columns 512..767. -/
def out0_4 (x0 : Vec F S2000x256 .f32) (x1 : Vec F S256x768 .f32) : Vec F S2000x256 .bf16 :=
  View.canon [⟨rX0, k0_pay4 (View.ld x0 rX0) (View.ld x1 rW0)⟩]

/-- One whole-block store covers the block. -/
theorem cover0 (p0 : Vec F S2000x256 .bf16) (y : S2000x256.Idx) :
    ∃ pc ∈ ([⟨rX0, p0⟩] : List (View.Piece (Elt F) S2000x256 .bf16)), y ∈ pc.1.set :=
  View.cover_of_tiled [⟨rX0, p0⟩] S2000x256.size (by rfl) y

/-! ## The body's triple -/

set_option maxHeartbeats 4000000 in
/-- The body on whole staging buffers, the inputs' holding `x0`, `x1` and the outputs' anything, runs to the
    continuation with the inputs' unchanged and the three outputs' at the three slices of the product. -/
theorem sound_kernel0 (c : Dev nD) (E : Set ℕ) (i : grid0.Coords)
    (arg1 : Memref sig .tc .vmem S2000x256 .f32) (harg1 : arg1.IsWhole) (arg2 : Memref sig .tc .vmem S256x768 .f32) (harg2 : arg2.IsWhole)
    (arg3 : Memref sig .tc .vmem S2000x256 .bf16) (harg3 : arg3.IsWhole) (arg4 : Memref sig .tc .vmem S2000x256 .bf16) (harg4 : arg4.IsWhole)
    (arg5 : Memref sig .tc .vmem S2000x256 .bf16) (harg5 : arg5.IsWhole)
    (x0 : Vec F S2000x256 .f32) (x1 : Vec F S256x768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_kernel i arg1 harg1 arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-! ## The pipeline's proof data -/

/-- The proof data of the first pipeline on core `c`: arrays as the region finds them; after the body at point `t`
    each input's buffer at its block and each output's at its slice of the product of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The second pallas_call (the per-edge attention score and aggregation payload, a grid of 500 tiles of 512 edges) at
  region-entry contents `V`: what each window's staging buffer holds at a grid point, the body's Hoare triple, and the
  proof data the pipeline library asks for. The body reads nine blocks (edge features, distances, the two parts of the
  edge weight, the two head selectors, and the gathered k, q, v rows) and writes three whole blocks: the clipped score
  times the edge projection, the value rows weighted by the per-head exponential, and that exponential per head.
-/
import proofs.«409030_j11063835754631_4_alg».proof.Proof.Gen.KernelIdeal.Launch
import proofs.«409030_j11063835754631_4_alg».proof.Proof.Gen.KernelIdeal.Skeleton
import proofs.«409030_j11063835754631_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds its block at every point: a tile that moves with the point is fetched there, a
    block whose index never moves was fetched at the first point and is still in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole block -/

abbrev rA : Rect S512x256 := Rect.unit (s := S512x256) ![0, 0] S512x256.size inb_S512x256_S512x256_0_0
abbrev rD : Rect S512 := Rect.unit (s := S512) ![0] S512.size inb_S512_S512_0
abbrev rM : Rect S256x256 := Rect.unit (s := S256x256) ![0, 0] S256x256.size inb_S256x256_S256x256_0_0
abbrev rB : Rect S1x256 := Rect.unit (s := S1x256) ![0, 0] S1x256.size inb_S1x256_S1x256_0_0
abbrev rF : Rect S256x8 := Rect.unit (s := S256x8) ![0, 0] S256x8.size inb_S256x8_S256x8_0_0
abbrev rG : Rect S8x256 := Rect.unit (s := S8x256) ![0, 0] S8x256.size inb_S8x256_S8x256_0_0
abbrev rH : Rect S512x8 := Rect.unit (s := S512x8) ![0, 0] S512x8.size inb_S512x8_S512x8_0_0

/-! ## What the body leaves in each output block -/

/-- The score block: clip(k · q · scale) times (edge features · main weight + distance · bias row). -/
def out1_9 (x0 : Vec F S512x256 .f32) (x1 : Vec F S512 .f32) (x2 : Vec F S256x256 .f32) (x3 : Vec F S1x256 .f32) (x4 : Vec F S256x8 .f32) (x5 : Vec F S8x256 .f32) (x6 : Vec F S512x256 .bf16) (x7 : Vec F S512x256 .bf16) (x8 : Vec F S512x256 .bf16) : Vec F S512x256 .f32 :=
  View.canon [⟨rA, k1_pay4 (View.ld x1 rD) (View.ld x0 rA) (View.ld x2 rM) (View.ld x3 rB) (View.ld x6 rA) (View.ld x7 rA)⟩]
/-- The weighted value block: v times the per-head exponential spread back over the head's columns. -/
def out1_10 (x0 : Vec F S512x256 .f32) (x1 : Vec F S512 .f32) (x2 : Vec F S256x256 .f32) (x3 : Vec F S1x256 .f32) (x4 : Vec F S256x8 .f32) (x5 : Vec F S8x256 .f32) (x6 : Vec F S512x256 .bf16) (x7 : Vec F S512x256 .bf16) (x8 : Vec F S512x256 .bf16) : Vec F S512x256 .f32 :=
  View.canon [⟨rA, k1_pay2 (k1_pay3 (View.ld x8 rA))
    (k1_pay5 (View.ld x1 rD) (View.ld x0 rA) (View.ld x2 rM) (View.ld x3 rB) (View.ld x6 rA) (View.ld x7 rA) (View.ld x4 rF)) (View.ld x5 rG)⟩]
/-- The per-head exponential of the clipped head sums of the score. -/
def out1_11 (x0 : Vec F S512x256 .f32) (x1 : Vec F S512 .f32) (x2 : Vec F S256x256 .f32) (x3 : Vec F S1x256 .f32) (x4 : Vec F S256x8 .f32) (x5 : Vec F S8x256 .f32) (x6 : Vec F S512x256 .bf16) (x7 : Vec F S512x256 .bf16) (x8 : Vec F S512x256 .bf16) : Vec F S512x8 .f32 :=
  View.canon [⟨rH, k1_pay1
    (k1_pay5 (View.ld x1 rD) (View.ld x0 rA) (View.ld x2 rM) (View.ld x3 rB) (View.ld x6 rA) (View.ld x7 rA) (View.ld x4 rF))⟩]

/-- One whole-block store covers the block. -/
theorem cover1_A (p0 : Vec F S512x256 .f32) (y : S512x256.Idx) :
    ∃ pc ∈ ([⟨rA, p0⟩] : List (View.Piece (Elt F) S512x256 .f32)), y ∈ pc.1.set :=
  View.cover_of_tiled [⟨rA, p0⟩] S512x256.size (by rfl) y
theorem cover1_H (p0 : Vec F S512x8 .f32) (y : S512x8.Idx) :
    ∃ pc ∈ ([⟨rH, p0⟩] : List (View.Piece (Elt F) S512x8 .f32)), y ∈ pc.1.set :=
  View.cover_of_tiled [⟨rH, p0⟩] S512x8.size (by rfl) y

/-! ## The body's triple -/

set_option maxHeartbeats 8000000 in
/-- The body on whole staging buffers, the nine inputs' holding `x0 … x8` and the outputs' anything, runs to the
    continuation with the inputs' unchanged and the three outputs' at the three blocks above. -/
theorem sound_kernel1 (c : Dev nD) (E : Set ℕ) (i : grid1.Coords)
    (arg1 : Memref sig .tc .vmem S512x256 .f32) (harg1 : arg1.IsWhole)
    (arg2 : Memref sig .tc .vmem S512 .f32) (harg2 : arg2.IsWhole)
    (arg3 : Memref sig .tc .vmem S256x256 .f32) (harg3 : arg3.IsWhole)
    (arg4 : Memref sig .tc .vmem S1x256 .f32) (harg4 : arg4.IsWhole)
    (arg5 : Memref sig .tc .vmem S256x8 .f32) (harg5 : arg5.IsWhole)
    (arg6 : Memref sig .tc .vmem S8x256 .f32) (harg6 : arg6.IsWhole)
    (arg7 : Memref sig .tc .vmem S512x256 .bf16) (harg7 : arg7.IsWhole)
    (arg8 : Memref sig .tc .vmem S512x256 .bf16) (harg8 : arg8.IsWhole)
    (arg9 : Memref sig .tc .vmem S512x256 .bf16) (harg9 : arg9.IsWhole)
    (arg10 : Memref sig .tc .vmem S512x256 .f32) (harg10 : arg10.IsWhole)
    (arg11 : Memref sig .tc .vmem S512x256 .f32) (harg11 : arg11.IsWhole)
    (arg12 : Memref sig .tc .vmem S512x8 .f32) (harg12 : arg12.IsWhole)
    (x0 : Vec F S512x256 .f32) (x1 : Vec F S512 .f32) (x2 : Vec F S256x256 .f32) (x3 : Vec F S1x256 .f32) (x4 : Vec F S256x8 .f32) (x5 : Vec F S8x256 .f32) (x6 : Vec F S512x256 .bf16) (x7 : Vec F S512x256 .bf16) (x8 : Vec F S512x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out1_9 x0 x1 x2 x3 x4 x5 x6 x7 x8) ∗ owns (c : Thread nD τ) arg11 fullShare (out1_10 x0 x1 x2 x3 x4 x5 x6 x7 x8)
            ∗ owns (c : Thread nD τ) arg12 fullShare (out1_11 x0 x1 x2 x3 x4 x5 x6 x7 x8)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11 arg12 harg12) K := by
  simp only [cc1__edge_kernel_eq_skeleton]; unfold cc1__edge_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover1_A _)
  isplitl [H10]
  · iexists _; isplitr
    swap; · iexact H10
    ipureintro
    try dsimp only
    exact View.read_writes_eq_canon _ _ _ (cover1_A _)
  iexists _; isplitr
  swap; · iexact H11
  ipureintro
  try dsimp only
  exact View.read_writes_eq_canon _ _ _ (cover1_H _)

/-! ## The pipeline's proof data -/

/-- The proof data of the second pipeline on core `c`: arrays as the region finds them; after the body at point `t`
    each input's buffer at its block and each output's at its block of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  @main of the kernel program as nine segments (three stretches of host operations, the projection's pallas_call, three
  more stretches, the per-edge pallas_call, the closing stretch), launched once: every weakly fair execution terminates,
  and at the end every unscoped buffer holds the value obtained by folding the segments over the launch memory — a host
  stretch applies its operations, a pallas_call replaces its windows' arrays by what its write-backs leave and touches
  nothing else. The frame claim and the two results are read off that one statement.
-/
import proofs.«409030_j11063835754631_4_alg».proof.Proof.KI.Body0
import proofs.«409030_j11063835754631_4_alg».proof.Proof.KI.Body1
import proofs.«409030_j11063835754631_4_alg».proof.Proof.Gen.KernelIdeal.Regions
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffer contents at each segment boundary: a fold through @main -/

/-- Core c's buffers at launch. -/
abbrev W0 : Dev nD → Valuation τ sig (Elt F) := fun c b => m (c, b)
/-- After the first host stretch (indices, coordinate gathers, their difference). -/
abbrev W1 : Dev nD → Valuation τ sig (Elt F) := fun c => StableHlo.after hostOps0 (W0 m c)
/-- After the norm's operations. -/
abbrev W2 : Dev nD → Valuation τ sig (Elt F) := fun c => StableHlo.after hostOps0_1 (W1 m c)
/-- After the scaling of the distance and the joining of the three weights: the projection's entry. -/
abbrev W3 : Dev nD → Valuation τ sig (Elt F) := fun c => StableHlo.after hostOps0_2 (W2 m c)
/-- The same read at the TensorCore's references. -/
abbrev E3 : (c : Dev nD) → (b : Ref sig .tc) → Buf (Elt F) ((c : Thread nD τ).loc b) := fun c b => W3 m c b
/-- At the projection's exit: its arrays at what the pipeline leaves, every other buffer as entered. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev X4 : (c : Dev nD) → (b : Ref sig .tc) → Buf (Elt F) ((c : Thread nD τ).loc b) := fun c b => W4 m c b
theorem hF0 (c : Dev nD) (w : Fin cfg0.W) : (dat0 (E3 m) c).arrAt w cfg0.N = X4 m c (Pipeline.arrRef spec0 w) :=
  (W4_arr m c w).symm
theorem hrest0 (c : Dev nD) : ∀ b, b ∉ Finset.univ.image (Pipeline.arrRef spec0) → X4 m c b = E3 m c b :=
  fun b hb => W4_of_ne m c b fun w e => hb (Finset.mem_image.mpr ⟨w, Finset.mem_univ _, e⟩)

/-- After the gathers of k, q, v rows, the weight slices and the first selector operations. -/
abbrev W5 : Dev nD → Valuation τ sig (Elt F) := fun c => StableHlo.after hostOps1 (W4 m c)
/-- After the floor division's operations. -/
abbrev W6 : Dev nD → Valuation τ sig (Elt F) := fun c => StableHlo.after hostOps1_1 (W5 m c)
/-- After the selectors: the per-edge call's entry. -/
abbrev W7 : Dev nD → Valuation τ sig (Elt F) := fun c => StableHlo.after hostOps1_2 (W6 m c)
abbrev E7 : (c : Dev nD) → (b : Ref sig .tc) → Buf (Elt F) ((c : Thread nD τ).loc b) := fun c b => W7 m c b
/-- At the per-edge call's exit. -/
def W8 (c : Dev nD) : Valuation τ sig (Elt F) :=
  Pipeline.withArrays spec1 c (W7 m c) fun w => (dat1 (E7 m) c).arrAt w cfg1.N
theorem W8_arr (c : Dev nD) (w : Fin cfg1.W) :
    W8 m c (Proc.devRef .tc (Pipeline.arrRef spec1 w)) = (dat1 (E7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev X8 : (c : Dev nD) → (b : Ref sig .tc) → Buf (Elt F) ((c : Thread nD τ).loc b) := fun c b => W8 m c b
theorem hF1 (c : Dev nD) (w : Fin cfg1.W) : (dat1 (E7 m) c).arrAt w cfg1.N = X8 m c (Pipeline.arrRef spec1 w) :=
  (W8_arr m c w).symm
theorem hrest1 (c : Dev nD) : ∀ b, b ∉ Finset.univ.image (Pipeline.arrRef spec1) → X8 m c b = E7 m c b :=
  fun b hb => W8_of_ne m c b fun w e => hb (Finset.mem_image.mpr ⟨w, Finset.mem_univ _, e⟩)
/-- After the closing stretch (the two segment sums, the quotient, the reshapes): the end. -/
abbrev W9 : Dev nD → Valuation τ sig (Elt F) := fun c => StableHlo.after hostOps2 (W8 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E7 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The projection's call: entered from every unscoped buffer at W3, left at W4. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (X4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The per-edge call: entered from every unscoped buffer at W7, left at W8. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (X8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .host (hseg hostOps1_2 hostOps1_2_sub hostOps1_2_fresh (W6 m)),
    .region (reg1 m),
    .host (hseg hostOps2 hostOps2_sub hostOps2_fresh (W8 m)) ]

/-- The last boundary: the register leaves the riding state for the final thread state, the debt stays beside it. -/
theorem last_state (c : Dev nD) (H : sProp 𝕄) :
    iprop(H ∗ R (F := F) c) ⊢ iprop((H ∗ ∃ r, prngReg c r) ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN: from any memory with zero counters every weakly fair execution of @main terminates, nothing faulting, and
    every final memory holds each unscoped buffer at the fold's last contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W9 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W9 m c) ∗ ∃ r, prngReg c r))
    (hch := fun c => ⟨.rfl, .rfl, .rfl, .rfl, .rfl, .rfl, .rfl, .rfl, .rfl, last_state c _⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-! ## The arguments end as launched -/

/-- A buffer that no host stretch writes and that is no array of either call reaches the end as launched. -/
theorem W9_untouched (c : Dev nD) (r : Ref sig .tc)
    (h0 : r ∉ hostOps0_W) (h1 : r ∉ hostOps0_1_W) (h2 : r ∉ hostOps0_2_W) (h3 : ∀ w, Pipeline.arrRef spec0 w ≠ r)
    (h4 : r ∉ hostOps1_W) (h5 : r ∉ hostOps1_1_W) (h6 : r ∉ hostOps1_2_W) (h7 : ∀ w, Pipeline.arrRef spec1 w ≠ r)
    (h8 : r ∉ hostOps2_W) : W9 m c (Proc.devRef .tc r) = m ((c : Thread nD τ).loc r) :=
  calc W9 m c (Proc.devRef .tc r)
    _ = W8 m c (Proc.devRef .tc r) := StableHlo.after_of_writes_sub hostOps2 _ hostOps2_writes h8
    _ = W7 m c (Proc.devRef .tc r) := W8_of_ne m c r h7
    _ = W6 m c (Proc.devRef .tc r) := StableHlo.after_of_writes_sub hostOps1_2 _ hostOps1_2_writes h6
    _ = W5 m c (Proc.devRef .tc r) := StableHlo.after_of_writes_sub hostOps1_1 _ hostOps1_1_writes h5
    _ = W4 m c (Proc.devRef .tc r) := StableHlo.after_of_writes_sub hostOps1 _ hostOps1_writes h4
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-- x is the projection's first window: an input window's array is left as entered. -/
theorem W9_main_arg0 (c : Dev nD) : W9 m c (Proc.devRef .tc main_arg0) = m ((c : Thread nD τ).loc main_arg0) :=
  calc W9 m c (Proc.devRef .tc main_arg0)
    _ = W8 m c (Proc.devRef .tc main_arg0) := StableHlo.after_of_writes_sub hostOps2 _ hostOps2_writes (by decide)
    _ = W7 m c (Proc.devRef .tc main_arg0) := W8_of_ne m c main_arg0 (by decide)
    _ = W6 m c (Proc.devRef .tc main_arg0) := StableHlo.after_of_writes_sub hostOps1_2 _ hostOps1_2_writes (by decide)
    _ = W5 m c (Proc.devRef .tc main_arg0) := StableHlo.after_of_writes_sub hostOps1_1 _ hostOps1_1_writes (by decide)
    _ = W4 m c (Proc.devRef .tc main_arg0) := StableHlo.after_of_writes_sub hostOps1 _ hostOps1_writes (by decide)
    _ = W3 m c (Proc.devRef .tc main_arg0) := (W4_arr m c 0).trans (((dat0 (E3 m) c).arrAt_in 0 rfl _).trans (A_eq0 (E3 m) c 0))
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-- The edge features are the per-edge call's first window. -/
theorem W9_main_arg1 (c : Dev nD) : W9 m c (Proc.devRef .tc main_arg1) = m ((c : Thread nD τ).loc main_arg1) :=
  calc W9 m c (Proc.devRef .tc main_arg1)
    _ = W8 m c (Proc.devRef .tc main_arg1) := StableHlo.after_of_writes_sub hostOps2 _ hostOps2_writes (by decide)
    _ = W7 m c (Proc.devRef .tc main_arg1) := (W8_arr m c 0).trans (((dat1 (E7 m) c).arrAt_in 0 rfl _).trans (A_eq1 (E7 m) c 0))
    _ = W6 m c (Proc.devRef .tc main_arg1) := StableHlo.after_of_writes_sub hostOps1_2 _ hostOps1_2_writes (by decide)
    _ = W5 m c (Proc.devRef .tc main_arg1) := StableHlo.after_of_writes_sub hostOps1_1 _ hostOps1_1_writes (by decide)
    _ = W4 m c (Proc.devRef .tc main_arg1) := StableHlo.after_of_writes_sub hostOps1 _ hostOps1_writes (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

theorem W9_main_arg2 (c : Dev nD) : W9 m c (Proc.devRef .tc main_arg2) = m ((c : Thread nD τ).loc main_arg2) :=
  W9_untouched m c main_arg2 (by decide) (by decide) (by decide) (by decide) (by decide) (by decide) (by decide) (by decide) (by decide)
theorem W9_main_arg3 (c : Dev nD) : W9 m c (Proc.devRef .tc main_arg3) = m ((c : Thread nD τ).loc main_arg3) :=
  W9_untouched m c main_arg3 (by decide) (by decide) (by decide) (by decide) (by decide) (by decide) (by decide) (by decide) (by decide)
theorem W9_main_arg4 (c : Dev nD) : W9 m c (Proc.devRef .tc main_arg4) = m ((c : Thread nD τ).loc main_arg4) :=
  W9_untouched m c main_arg4 (by decide) (by decide) (by decide) (by decide) (by decide) (by decide) (by decide) (by decide) (by decide)
theorem W9_main_arg5 (c : Dev nD) : W9 m c (Proc.devRef .tc main_arg5) = m ((c : Thread nD τ).loc main_arg5) :=
  W9_untouched m c main_arg5 (by decide) (by decide) (by decide) (by decide) (by decide) (by decide) (by decide) (by decide) (by decide)
theorem W9_main_arg6 (c : Dev nD) : W9 m c (Proc.devRef .tc main_arg6) = m ((c : Thread nD τ).loc main_arg6) :=
  W9_untouched m c main_arg6 (by decide) (by decide) (by decide) (by decide) (by decide) (by decide) (by decide) (by decide) (by decide)
theorem W9_main_arg7 (c : Dev nD) : W9 m c (Proc.devRef .tc main_arg7) = m ((c : Thread nD τ).loc main_arg7) :=
  W9_untouched m c main_arg7 (by decide) (by decide) (by decide) (by decide) (by decide) (by decide) (by decide) (by decide) (by decide)

/-- THE FRAME: every weakly fair execution terminates, nothing faulting, and the eight arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c)⟩) (run_all m ρ)

end Cert.KernelIdeal.Hand

end
-- ==== Proof.KI.RunVals.lean ====
/-
  The kernel program's run with its results named: at the end the two result buffers hold the fold's last contents
  and every argument its launch contents.
-/
import proofs.«409030_j11063835754631_4_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ)

/-- Every weakly fair execution terminates with the node output and the edge score at the fold's last contents, the
    coordinates (returned as they came) and all eight arguments as launched. -/
theorem run_vals (ρ : Dev nD → PrngReg) :
    θ_run defs (onTc (τ := τ) (main (F := F))) ⟨m, fun _ => 0, ρ⟩ (fun r => ∀ c : Dev nD,
      r.2.mem ((c.tc : Thread nD τ).loc main_v69) = W9 m c (Proc.devRef .tc main_v69)
      ∧ r.2.mem ((c.tc : Thread nD τ).loc main_v70) = W9 m c (Proc.devRef .tc main_v70)
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v69 (by decide)),
     h c _ (mem_uc main_v70 (by decide)),
     (h c _ (mem_uc main_arg3 (by decide))).trans (W9_main_arg3 m c),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c)⟩) (run_all m ρ)

end Cert.KernelIdeal.Hand

end
-- ==== Proof.RefFrame.lean ====
/-
  The reference program's frame: its @main is host operations only, so every weakly fair execution ends with the
  arguments as launched; the run's result terms are dropped here and used again where the two programs are compared.
-/
import proofs.«409030_j11063835754631_4_alg».proof.Defs
import proofs.«409030_j11063835754631_4_alg».proof.Proof.Gen.ReferenceIdeal
import proofs.«409030_j11063835754631_4_alg».proof.Proof.Gen.Pre_finite_inputs
import proofs.«409030_j11063835754631_4_alg».proof.Proof.Gen.ReferenceIdeal.Run
import proofs.«409030_j11063835754631_4_alg».proof.Proof.Gen.ReferenceIdeal.Read

noncomputable section

open Idealize.ShloMosaic Idealize.ShloMosaic.TcCoe Idealize.SL.Sem

namespace Cert.Proof.RefFrame

/-- The reference terminates, faults nowhere and leaves its eight arguments unchanged. -/
theorem frame_ri [hR : Cert.ReferenceIdeal.Facts] [hP : Cert.Pre_finite_inputs.Facts] : Cert.frame_ReferenceIdeal := fun m ρ _ =>
  (θ_run Cert.ReferenceIdeal.defs _ _).mono (fun _ h c => (h c).2.2.2) (Cert.ReferenceIdeal.Value.run (F := Ideal) m ρ)

end Cert.Proof.RefFrame

end
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.KI.Val0.lean ====
/-
  The first pallas_call's three output arrays as functions of its two input arrays, at the extended reals.

  The body leaves in each output block a 256-column slice of the row tile's product with the joined weights; the
  roundings to the narrow format and the cast to the same shape are identities there, and a matrix product onto a zero
  accumulator is the plain sum of products. The row tile at grid point t is rows 2000 t .. 2000 t + 1999 of x, the weight
  block is the whole 256 x 768 array at every point, and the output blocks tile their arrays by rows: so what point t
  writes back is block t of ONE function of the two input arrays, and after the run each output array is that function.
  This file: the payloads, the index facts, and the q array (columns 0..255).
-/
import proofs.«409030_j11063835754631_4_alg».proof.Proof.KI.Body0
import proofs.«409030_j11063835754631_4_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The body's payloads at an index -/

/-- The two zero offsets of a whole-block access, as the constant function. -/
theorem zero2 : (![0, 0] : Fin 2 → Nat) = fun _ => 0 :=
  funext fun a => match a with | ⟨0, _⟩ => rfl | ⟨1, _⟩ => rfl

/-- The printed contraction is the plain one: second axis of the left operand against the first of the right. -/
theorem dot0_plain : dot_S2000x256_S256x768_S2000x768_1_0_0_1_n_n = DotDims.plain 2000 256 768 := rfl

/-- The tile's product with the joined weights, at row `p` and column `q` of the 768: the roundings and the cast
    to the same shape are identities on the extended reals, the accumulator is zero. -/
theorem pay1_apply (x0 : Vec Ideal S2000x256 .f32) (x1 : Vec Ideal S256x768 .f32) (p : Fin 2000) (q : Fin 768) :
    k0_pay1 x0 x1 (ix2 p q) = ∑ k : Fin 256, x0 (ix2 p k) * x1 (ix2 k q) := by
  unfold k0_pay1
  show FloatOps.matmul (DotDims.plain 2000 256 768) none (truncf .bf16 x0 bitsLt_bf16_f32)
      (truncf .bf16 (shapeCast S256x768 x1 shapeCasts_S256x768_S256x768) bitsLt_bf16_f32)
      (constant (F := Ideal) S2000x768 .f32 0x00000000#32) (ix2 p q) = _
  rw [PlainDot.matmul_zero_apply, shapeCast_self]
  rfl

/-- A column slice of width 256 at offset `o` of the product, at `(p, j)`, is the product at column `o + j`. -/
theorem slice_apply (o : Nat) (ho : o + 256 ≤ 768) (h : S2000x768.Slices ![0, o] S2000x256)
    (y : FVec Ideal S2000x768 .f32) (p : Fin 2000) (j : Fin 256) :
    extractStridedSlice S2000x256 ![0, o] y h (ix2 p j) = y (ix2 p ⟨o + j.val, by have := j.isLt; omega⟩) :=
  extractStridedSlice_apply ![0, o] y h (ix2 p j) (ix2 p ⟨o + j.val, by have := j.isLt; omega⟩) fun a =>
    match a with
    | ⟨0, _⟩ => by show p.val = 0 + p.val; omega
    | ⟨1, _⟩ => rfl

/-- The q payload: columns 0..255 of the product. -/
theorem pay2_apply (x0 : Vec Ideal S2000x256 .f32) (x1 : Vec Ideal S256x768 .f32) (p : Fin 2000) (j : Fin 256) :
    k0_pay2 x0 x1 (ix2 p j) = ∑ k : Fin 256, x0 (ix2 p k) * x1 (ix2 k ⟨0 + j.val, by have := j.isLt; omega⟩) := by
  unfold k0_pay2
  show extractStridedSlice S2000x256 ![0, 0] (k0_pay1 x0 x1) slices_S2000x768_o0_0_S2000x256 (ix2 p j) = _
  rw [slice_apply 0 (by omega), pay1_apply]

/-- The k payload: columns 256..511. -/
theorem pay3_apply (x0 : Vec Ideal S2000x256 .f32) (x1 : Vec Ideal S256x768 .f32) (p : Fin 2000) (j : Fin 256) :
    k0_pay3 x0 x1 (ix2 p j) = ∑ k : Fin 256, x0 (ix2 p k) * x1 (ix2 k ⟨256 + j.val, by have := j.isLt; omega⟩) := by
  unfold k0_pay3
  show extractStridedSlice S2000x256 ![0, 256] (k0_pay1 x0 x1) slices_S2000x768_o0_256_S2000x256 (ix2 p j) = _
  rw [slice_apply 256 (by omega), pay1_apply]

/-- The v payload: columns 512..767. -/
theorem pay4_apply (x0 : Vec Ideal S2000x256 .f32) (x1 : Vec Ideal S256x768 .f32) (p : Fin 2000) (j : Fin 256) :
    k0_pay4 x0 x1 (ix2 p j) = ∑ k : Fin 256, x0 (ix2 p k) * x1 (ix2 k ⟨512 + j.val, by have := j.isLt; omega⟩) := by
  unfold k0_pay4
  show extractStridedSlice S2000x256 ![0, 512] (k0_pay1 x0 x1) slices_S2000x768_o0_512_S2000x256 (ix2 p j) = _
  rw [slice_apply 512 (by omega), pay1_apply]

/-- What the body leaves in the q block, at an index. -/
theorem out0_2_apply (x0 : Vec Ideal S2000x256 .f32) (x1 : Vec Ideal S256x768 .f32) (p : Fin 2000) (j : Fin 256) :
    out0_2 x0 x1 (ix2 p j) = ∑ k : Fin 256, x0 (ix2 p k) * x1 (ix2 k ⟨0 + j.val, by have := j.isLt; omega⟩) := by
  unfold out0_2
  rw [View.canon_unit_zero zero2, View.ld_unit_zero (S := S2000x256) zero2, View.ld_unit_zero (S := S256x768) zero2]
  exact pay2_apply x0 x1 p j
theorem out0_3_apply (x0 : Vec Ideal S2000x256 .f32) (x1 : Vec Ideal S256x768 .f32) (p : Fin 2000) (j : Fin 256) :
    out0_3 x0 x1 (ix2 p j) = ∑ k : Fin 256, x0 (ix2 p k) * x1 (ix2 k ⟨256 + j.val, by have := j.isLt; omega⟩) := by
  unfold out0_3
  rw [View.canon_unit_zero zero2, View.ld_unit_zero (S := S2000x256) zero2, View.ld_unit_zero (S := S256x768) zero2]
  exact pay3_apply x0 x1 p j
theorem out0_4_apply (x0 : Vec Ideal S2000x256 .f32) (x1 : Vec Ideal S256x768 .f32) (p : Fin 2000) (j : Fin 256) :
    out0_4 x0 x1 (ix2 p j) = ∑ k : Fin 256, x0 (ix2 p k) * x1 (ix2 k ⟨512 + j.val, by have := j.isLt; omega⟩) := by
  unfold out0_4
  rw [View.canon_unit_zero zero2, View.ld_unit_zero (S := S2000x256) zero2, View.ld_unit_zero (S := S256x768) zero2]
  exact pay4_apply x0 x1 p j

/-! ## The windows' index maps, decided over the grid -/

variable (V : (c : Dev nD) → (b : Ref sig .tc) → Buf (Elt Ideal) ((c : Thread nD τ).loc b))

/-- The row tile of x and the three outputs move with the point along the rows; the weight block stays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem lt8 (t : Fin cfg0.N) : t.val < 8 := lt_of_lt_of_eq t.isLt N_0

/-- Element `(p, k)` of the row tile at point `t` is x at row `2000 t + p`, column `k`. -/
theorem emb0_0 (t : Fin cfg0.N) (p : Fin 2000) (k : Fin 256) :
    (((cfg0.win 0).blk t).view.emb (ix2 p k) : S16000x256.Idx)
      = ix2 ⟨t.val * 2000 + p.val, by have := lt8 t; have := p.isLt; omega⟩ k := by
  obtain ⟨e0, e1, -⟩ := idx_facts0 t
  funext a; apply Fin.ext
  match a with
  | ⟨0, _⟩ => show win0_0.index t (0 : Fin 2) * 2000 + 1 * p.val = t.val * 2000 + p.val; rw [e0]; omega
  | ⟨1, _⟩ => show win0_0.index t (1 : Fin 2) * 256 + 1 * k.val = k.val; rw [e1]; omega

/-- The weight block at every point is the whole joined weight array. -/
theorem emb0_1 (t : Fin cfg0.N) (k : Fin 256) (q : Fin 768) :
    (((cfg0.win 1).blk t).view.emb (ix2 k q) : S256x768.Idx) = ix2 k q := by
  obtain ⟨-, -, e0, e1, -⟩ := idx_facts0 t
  funext a; apply Fin.ext
  match a with
  | ⟨0, _⟩ => show win0_1.index t (0 : Fin 2) * 256 + 1 * k.val = k.val; rw [e0]; omega
  | ⟨1, _⟩ => show win0_1.index t (1 : Fin 2) * 768 + 1 * q.val = q.val; rw [e1]; omega

/-- The row tile's staging contents, read at an element. -/
theorem iblk0_0_apply (c : Dev nD) (t : Fin cfg0.N) (p : Fin 2000) (k : Fin 256) :
    iblk0 V c 0 t (ix2 p k) = V c main_arg0 (ix2 ⟨t.val * 2000 + p.val, by have := lt8 t; have := p.isLt; omega⟩ k) := by
  show V c main_arg0 (((cfg0.win 0).blk t).view.emb (ix2 p k)) = _
  rw [emb0_0]

/-- The weight block's staging contents, read at an element. -/
theorem iblk0_1_apply (c : Dev nD) (t : Fin cfg0.N) (k : Fin 256) (q : Fin 768) :
    iblk0 V c 1 t (ix2 k q) = V c main_v22 (ix2 k q) := by
  show V c main_v22 (((cfg0.win 1).blk t).view.emb (ix2 k q)) = _
  rw [emb0_1]

/-! ## Each output array as one function of the two input arrays -/

/-- Columns `o .. o + 255` of the product of an `x` of 16000 rows with a `w` of 768 columns, entry by entry. -/
def G0 (x : FVec Ideal S16000x256 .f32) (w : FVec Ideal S256x768 .f32) (o : Nat) (ho : o + 256 ≤ 768) :
    S16000x256.Idx → Ideal .bf16 := fun i =>
  ∑ k : Fin 256, x (ix2 (i 0) k) * w (ix2 k ⟨o + (i 1).val, by have := idx2_lt1 i; omega⟩)

theorem G0_apply (x : FVec Ideal S16000x256 .f32) (w : FVec Ideal S256x768 .f32) (o : Nat) (ho : o + 256 ≤ 768)
    (n : Fin 16000) (j : Fin 256) :
    G0 x w o ho (ix2 n j) = ∑ k : Fin 256, x (ix2 n k) * w (ix2 k ⟨o + j.val, by have := j.isLt; omega⟩) := rfl

/-! ## The q array (window 2) -/

/-- Element `(p, j)` of the q block at point `t` is row `2000 t + p`, column `j` of the q array. -/
theorem emb0_2 (t : Fin cfg0.N) (p : Fin 2000) (j : Fin 256) :
    (((cfg0.win 2).blk t).view.emb (ix2 p j) : S16000x256.Idx)
      = ix2 ⟨t.val * 2000 + p.val, by have := lt8 t; have := p.isLt; omega⟩ j := by
  obtain ⟨-, -, -, -, e0, e1, -⟩ := idx_facts0 t
  funext a; apply Fin.ext
  match a with
  | ⟨0, _⟩ => show win0_2.index t (0 : Fin 2) * 2000 + 1 * p.val = t.val * 2000 + p.val; rw [e0]; omega
  | ⟨1, _⟩ => show win0_2.index t (1 : Fin 2) * 256 + 1 * j.val = j.val; rw [e1]; omega

/-- What point `t` writes back to the q array is block `t` of columns 0..255 of the product. -/
theorem flushed0_2 (c : Dev nD) (t : Fin cfg0.N) :
    (dat0 (F := Ideal) V c).flushed 2 t
      = ((cfg0.win 2).blk t).view.read (Elt Ideal) (G0 (V c main_arg0) (V c main_v22) 0 (by omega)) := by
  show (cfg0.win 2).cut (grid0.coords t) ((dat0 (F := Ideal) V c).after 2 t) = _
  rw [after0_2]
  funext j
  obtain ⟨p, jj, rfl⟩ : ∃ (p : Fin 2000) (jj : Fin 256), j = ix2 p jj := ⟨j 0, j 1, eq_ix2 j⟩
  show out0_2 (iblk0 V c 0 t) (iblk0 V c 1 t) (ix2 p jj)
    = G0 (V c main_arg0) (V c main_v22) 0 (by omega) (((cfg0.win 2).blk t).view.emb (ix2 p jj))
  rw [out0_2_apply, emb0_2 t p jj, G0_apply]
  refine Finset.sum_congr rfl fun k _ => ?_
  rw [iblk0_0_apply, iblk0_1_apply]

/-- An index of the q array is in point `t`'s block iff its row is among the tile's 2000 rows. -/
theorem mem_blk0_2 (t : Fin cfg0.N) (n : Fin 16000) (j : Fin 256) :
    (ix2 n j : S16000x256.Idx) ∈ ((cfg0.win 2).blk t).view.set ↔ t.val * 2000 ≤ n.val ∧ n.val < t.val * 2000 + 2000 := by
  obtain ⟨-, -, -, -, e0, e1, -⟩ := idx_facts0 t
  show (ix2 n j : S16000x256.Idx) ∈ ((View.whole main_v23_0).slice (win0_2.rect t)).set ↔ _
  rw [View.set_slice_whole, Rect.mem_set_unit]
  constructor
  · intro h
    have h0 : win0_2.index t (0 : Fin 2) * 2000 ≤ n.val ∧ n.val < win0_2.index t (0 : Fin 2) * 2000 + 2000 := h 0
    rw [e0] at h0; exact h0
  · intro h a
    match a with
    | ⟨0, _⟩ => show win0_2.index t (0 : Fin 2) * 2000 ≤ n.val ∧ n.val < win0_2.index t (0 : Fin 2) * 2000 + 2000; rw [e0]; exact h
    | ⟨1, _⟩ => show win0_2.index t (1 : Fin 2) * 256 ≤ j.val ∧ j.val < win0_2.index t (1 : Fin 2) * 256 + 256; rw [e1]; have := j.isLt; omega

/-- Row `n` is in the block of point `n / 2000`. -/
theorem cover0_2 (i : S16000x256.Idx) :
    ∃ t : Fin cfg0.N, (cfg0.win 2).flush t = true ∧ i ∈ ((cfg0.win 2).blk t).view.set := by
  obtain ⟨n, j, rfl⟩ : ∃ (n : Fin 16000) (j : Fin 256), i = ix2 n j := ⟨i 0, i 1, eq_ix2 i⟩
  have hn := n.isLt
  refine ⟨⟨n.val / 2000, by rw [show cfg0.N = 8 from N_0]; omega⟩, flush0_2 _, ?_⟩
  rw [mem_blk0_2]
  show n.val / 2000 * 2000 ≤ n.val ∧ n.val < n.val / 2000 * 2000 + 2000
  omega

/-- THE q ARRAY after the first pallas_call: columns 0..255 of the product of the two input arrays
    (`x`, `w` name them as the region finds them). -/
theorem region0_q (c : Dev nD) (x : FVec Ideal S16000x256 .f32) (w : FVec Ideal S256x768 .f32)
    (hx : V c main_arg0 = x) (hw : V c main_v22 = w) (n : Fin 16000) (j : Fin 256) :
    @Eq EReal ((dat0 (F := Ideal) V c).arrAt 2 cfg0.N (ix2 n j))
      (∑ k : Fin 256, x (ix2 n k) * w (ix2 k ⟨j.val, by have := j.isLt; omega⟩)) := by
  subst hx; subst hw
  rw [(dat0 (F := Ideal) V c).arrAt_eq_of_cover 2 (G0 (V c main_arg0) (V c main_v22) 0 (by omega))
    (fun t _ => flushed0_2 V c t) cover0_2, G0_apply]
  refine Finset.sum_congr rfl fun k _ => ?_
  congr 3
  exact Fin.ext (Nat.zero_add _)

end Cert.KernelIdeal.Hand

end
-- ==== Proof.KI.Val0kv.lean ====
/-
  The first pallas_call's k and v arrays (columns 256..511 and 512..767 of the product of the two input arrays), by the
  same argument as the q array: what a grid point writes back is its block of one function of the input arrays, and the
  blocks tile the array by rows.
-/
import proofs.«409030_j11063835754631_4_alg».proof.Proof.KI.Val0

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The k array (window 3) -/

variable (V : (c : Dev nD) → (b : Ref sig .tc) → Buf (Elt Ideal) ((c : Thread nD τ).loc b))

/-- Element `(p, j)` of the k block at point `t` is row `2000 t + p`, column `j` of the k array. -/
theorem emb0_3 (t : Fin cfg0.N) (p : Fin 2000) (j : Fin 256) :
    (((cfg0.win 3).blk t).view.emb (ix2 p j) : S16000x256.Idx)
      = ix2 ⟨t.val * 2000 + p.val, by have := lt8 t; have := p.isLt; omega⟩ j := by
  obtain ⟨-, -, -, -, -, -, e0, e1, -⟩ := idx_facts0 t
  funext a; apply Fin.ext
  match a with
  | ⟨0, _⟩ => show win0_3.index t (0 : Fin 2) * 2000 + 1 * p.val = t.val * 2000 + p.val; rw [e0]; omega
  | ⟨1, _⟩ => show win0_3.index t (1 : Fin 2) * 256 + 1 * j.val = j.val; rw [e1]; omega

/-- What point `t` writes back to the k array is block `t` of columns 256..511 of the product. -/
theorem flushed0_3 (c : Dev nD) (t : Fin cfg0.N) :
    (dat0 (F := Ideal) V c).flushed 3 t
      = ((cfg0.win 3).blk t).view.read (Elt Ideal) (G0 (V c main_arg0) (V c main_v22) 256 (by omega)) := by
  show (cfg0.win 3).cut (grid0.coords t) ((dat0 (F := Ideal) V c).after 3 t) = _
  rw [after0_3]
  funext j
  obtain ⟨p, jj, rfl⟩ : ∃ (p : Fin 2000) (jj : Fin 256), j = ix2 p jj := ⟨j 0, j 1, eq_ix2 j⟩
  show out0_3 (iblk0 V c 0 t) (iblk0 V c 1 t) (ix2 p jj)
    = G0 (V c main_arg0) (V c main_v22) 256 (by omega) (((cfg0.win 3).blk t).view.emb (ix2 p jj))
  rw [out0_3_apply, emb0_3 t p jj, G0_apply]
  refine Finset.sum_congr rfl fun k _ => ?_
  rw [iblk0_0_apply, iblk0_1_apply]

/-- An index of the k array is in point `t`'s block iff its row is among the tile's 2000 rows. -/
theorem mem_blk0_3 (t : Fin cfg0.N) (n : Fin 16000) (j : Fin 256) :
    (ix2 n j : S16000x256.Idx) ∈ ((cfg0.win 3).blk t).view.set ↔ t.val * 2000 ≤ n.val ∧ n.val < t.val * 2000 + 2000 := by
  obtain ⟨-, -, -, -, -, -, e0, e1, -⟩ := idx_facts0 t
  show (ix2 n j : S16000x256.Idx) ∈ ((View.whole main_v23_1).slice (win0_3.rect t)).set ↔ _
  rw [View.set_slice_whole, Rect.mem_set_unit]
  constructor
  · intro h
    have h0 : win0_3.index t (0 : Fin 2) * 2000 ≤ n.val ∧ n.val < win0_3.index t (0 : Fin 2) * 2000 + 2000 := h 0
    rw [e0] at h0; exact h0
  · intro h a
    match a with
    | ⟨0, _⟩ => show win0_3.index t (0 : Fin 2) * 2000 ≤ n.val ∧ n.val < win0_3.index t (0 : Fin 2) * 2000 + 2000; rw [e0]; exact h
    | ⟨1, _⟩ => show win0_3.index t (1 : Fin 2) * 256 ≤ j.val ∧ j.val < win0_3.index t (1 : Fin 2) * 256 + 256; rw [e1]; have := j.isLt; omega

/-- Row `n` is in the block of point `n / 2000`. -/
theorem cover0_3 (i : S16000x256.Idx) :
    ∃ t : Fin cfg0.N, (cfg0.win 3).flush t = true ∧ i ∈ ((cfg0.win 3).blk t).view.set := by
  obtain ⟨n, j, rfl⟩ : ∃ (n : Fin 16000) (j : Fin 256), i = ix2 n j := ⟨i 0, i 1, eq_ix2 i⟩
  have hn := n.isLt
  refine ⟨⟨n.val / 2000, by rw [show cfg0.N = 8 from N_0]; omega⟩, flush0_3 _, ?_⟩
  rw [mem_blk0_3]
  show n.val / 2000 * 2000 ≤ n.val ∧ n.val < n.val / 2000 * 2000 + 2000
  omega

/-- THE k ARRAY after the first pallas_call: columns 256..511 of the product of the two input arrays. -/
theorem region0_k (c : Dev nD) (x : FVec Ideal S16000x256 .f32) (w : FVec Ideal S256x768 .f32)
    (hx : V c main_arg0 = x) (hw : V c main_v22 = w) (n : Fin 16000) (j : Fin 256) :
    @Eq EReal ((dat0 (F := Ideal) V c).arrAt 3 cfg0.N (ix2 n j))
      (∑ k : Fin 256, x (ix2 n k) * w (ix2 k ⟨256 + j.val, by have := j.isLt; omega⟩)) := by
  subst hx; subst hw
  rw [(dat0 (F := Ideal) V c).arrAt_eq_of_cover 3 (G0 (V c main_arg0) (V c main_v22) 256 (by omega))
    (fun t _ => flushed0_3 V c t) cover0_3, G0_apply]

/-! ## The v array (window 4) -/

/-- Element `(p, j)` of the v block at point `t` is row `2000 t + p`, column `j` of the v array. -/
theorem emb0_4 (t : Fin cfg0.N) (p : Fin 2000) (j : Fin 256) :
    (((cfg0.win 4).blk t).view.emb (ix2 p j) : S16000x256.Idx)
      = ix2 ⟨t.val * 2000 + p.val, by have := lt8 t; have := p.isLt; omega⟩ j := by
  obtain ⟨-, -, -, -, -, -, -, -, e0, e1⟩ := idx_facts0 t
  funext a; apply Fin.ext
  match a with
  | ⟨0, _⟩ => show win0_4.index t (0 : Fin 2) * 2000 + 1 * p.val = t.val * 2000 + p.val; rw [e0]; omega
  | ⟨1, _⟩ => show win0_4.index t (1 : Fin 2) * 256 + 1 * j.val = j.val; rw [e1]; omega

/-- What point `t` writes back to the v array is block `t` of columns 512..767 of the product. -/
theorem flushed0_4 (c : Dev nD) (t : Fin cfg0.N) :
    (dat0 (F := Ideal) V c).flushed 4 t
      = ((cfg0.win 4).blk t).view.read (Elt Ideal) (G0 (V c main_arg0) (V c main_v22) 512 (by omega)) := by
  show (cfg0.win 4).cut (grid0.coords t) ((dat0 (F := Ideal) V c).after 4 t) = _
  rw [after0_4]
  funext j
  obtain ⟨p, jj, rfl⟩ : ∃ (p : Fin 2000) (jj : Fin 256), j = ix2 p jj := ⟨j 0, j 1, eq_ix2 j⟩
  show out0_4 (iblk0 V c 0 t) (iblk0 V c 1 t) (ix2 p jj)
    = G0 (V c main_arg0) (V c main_v22) 512 (by omega) (((cfg0.win 4).blk t).view.emb (ix2 p jj))
  rw [out0_4_apply, emb0_4 t p jj, G0_apply]
  refine Finset.sum_congr rfl fun k _ => ?_
  rw [iblk0_0_apply, iblk0_1_apply]

/-- An index of the v array is in point `t`'s block iff its row is among the tile's 2000 rows. -/
theorem mem_blk0_4 (t : Fin cfg0.N) (n : Fin 16000) (j : Fin 256) :
    (ix2 n j : S16000x256.Idx) ∈ ((cfg0.win 4).blk t).view.set ↔ t.val * 2000 ≤ n.val ∧ n.val < t.val * 2000 + 2000 := by
  obtain ⟨-, -, -, -, -, -, -, -, e0, e1⟩ := idx_facts0 t
  show (ix2 n j : S16000x256.Idx) ∈ ((View.whole main_v23_2).slice (win0_4.rect t)).set ↔ _
  rw [View.set_slice_whole, Rect.mem_set_unit]
  constructor
  · intro h
    have h0 : win0_4.index t (0 : Fin 2) * 2000 ≤ n.val ∧ n.val < win0_4.index t (0 : Fin 2) * 2000 + 2000 := h 0
    rw [e0] at h0; exact h0
  · intro h a
    match a with
    | ⟨0, _⟩ => show win0_4.index t (0 : Fin 2) * 2000 ≤ n.val ∧ n.val < win0_4.index t (0 : Fin 2) * 2000 + 2000; rw [e0]; exact h
    | ⟨1, _⟩ => show win0_4.index t (1 : Fin 2) * 256 ≤ j.val ∧ j.val < win0_4.index t (1 : Fin 2) * 256 + 256; rw [e1]; have := j.isLt; omega

/-- Row `n` is in the block of point `n / 2000`. -/
theorem cover0_4 (i : S16000x256.Idx) :
    ∃ t : Fin cfg0.N, (cfg0.win 4).flush t = true ∧ i ∈ ((cfg0.win 4).blk t).view.set := by
  obtain ⟨n, j, rfl⟩ : ∃ (n : Fin 16000) (j : Fin 256), i = ix2 n j := ⟨i 0, i 1, eq_ix2 i⟩
  have hn := n.isLt
  refine ⟨⟨n.val / 2000, by rw [show cfg0.N = 8 from N_0]; omega⟩, flush0_4 _, ?_⟩
  rw [mem_blk0_4]
  show n.val / 2000 * 2000 ≤ n.val ∧ n.val < n.val / 2000 * 2000 + 2000
  omega

/-- THE v ARRAY after the first pallas_call: columns 512..767 of the product of the two input arrays. -/
theorem region0_v (c : Dev nD) (x : FVec Ideal S16000x256 .f32) (w : FVec Ideal S256x768 .f32)
    (hx : V c main_arg0 = x) (hw : V c main_v22 = w) (n : Fin 16000) (j : Fin 256) :
    @Eq EReal ((dat0 (F := Ideal) V c).arrAt 4 cfg0.N (ix2 n j))
      (∑ k : Fin 256, x (ix2 n k) * w (ix2 k ⟨512 + j.val, by have := j.isLt; omega⟩)) := by
  subst hx; subst hw
  rw [(dat0 (F := Ideal) V c).arrAt_eq_of_cover 4 (G0 (V c main_arg0) (V c main_v22) 512 (by omega))
    (fun t _ => flushed0_4 V c t) cover0_4, G0_apply]

end Cert.KernelIdeal.Hand

end
-- ==== Proof.LibRows.lean ====
/-
  A scatter-add of whole rows into a table, and a gather of whole rows out of one, read at an index.

  The host's accumulating scatter with one index per update row: entry (c, j) of the result is the operand's entry plus the
  sum of column j of every update row whose index, read as a signed integer, is c and lies inside the table; an update row
  whose index lies outside is dropped. The same for a table of scalars (no column).
  The host's gather of rows: entry (…, j) of the result is column j of the table row named by the index at (…), read as a
  signed integer and clamped into the table.
  The four dimension records below are the ones a row scatter and a row gather print as; a printed record is one of them
  with its own well-formedness proof.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- The word h, read signed, is the number of row c of a table of N rows. -/
def RowHit {w : Nat} (N : Nat) (h : BitVec w) (c : Fin N) : Prop :=
  0 ≤ h.toInt ∧ h.toInt < (N : Int) ∧ h.toInt.toNat = c.val

instance {w : Nat} (N : Nat) (h : BitVec w) (c : Fin N) : Decidable (RowHit N h c) := by unfold RowHit; infer_instance

/-- The word h, read signed and clamped into a table of N rows. -/
def rowClamp {w : Nat} (N : Nat) (hN : 0 < N) (h : BitVec w) : Fin N := ⟨min h.toInt.toNat (N - 1), by omega⟩

/-- A scatter of M rows of C columns into a table of N rows, one index per row. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A scatter of M scalars into a table of N scalars, one index per scalar. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A gather of rows of C columns out of a table of N rows, indexed by an A x B array of indices. -/
abbrev rowsGather3 (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of rows of C columns out of a table of N rows, indexed by an A x B x D array of indices. -/
abbrev rowsGather4 (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

section RowsScatter

variable {N M C w : Nat} (wf : ScatterDims.WF ⟨2, ![N, C]⟩ ⟨2, ![M, 1]⟩ ⟨2, ![M, C]⟩ [1] [0] [0] 1)
  (idx : IVec ⟨2, ![M, 1]⟩ w) (q : Fin M) (j' : Fin C)

/-- On the table's row axis the window of update (q, j') starts at the q-th index, read signed. -/
private theorem rows_start0 : (rowsScatter N M C wf).start (ix2 q j') idx 0 = (idx (ix2 q 0)).toInt := by
  unfold ScatterDims.start
  rw [dif_pos (show (0 : Fin 2) ∈ (rowsScatter N M C wf).scatterDimsToOperandDims from List.mem_singleton.mpr rfl)]
  have hsi : (rowsScatter N M C wf).siIdx (ix2 q j') ⟨List.idxOf (0 : Fin 2) (rowsScatter N M C wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- On the column axis it starts at 0. -/
private theorem rows_start1 : (rowsScatter N M C wf).start (ix2 q j') idx 1 = 0 := by
  unfold ScatterDims.start
  rw [dif_neg (show (1 : Fin 2) ∉ ([0] : List (Fin 2)) by decide)]

/-- The row axis is inserted: no window coordinate. -/
private theorem rows_window0 : (rowsScatter N M C wf).window (ix2 q j') 0 = 0 := by
  have h0 : (0 : Fin 2) ∉ (List.finRange 2).filter (fun a => decide (a ∉ ([0] : List (Fin 2)))) := by decide
  unfold ScatterDims.window
  rw [dif_neg (show (0 : Fin 2) ∉ (rowsScatter N M C wf).sKept from h0)]

/-- The column axis carries the update's column. -/
private theorem rows_window1 : (rowsScatter N M C wf).window (ix2 q j') 1 = j'.val := by
  have h1 : (1 : Fin 2) ∈ (List.finRange 2).filter (fun a => decide (a ∉ ([0] : List (Fin 2)))) := by decide
  unfold ScatterDims.window
  rw [dif_pos (show (1 : Fin 2) ∈ (rowsScatter N M C wf).sKept from h1)]
  rfl

/-- Update (q, j') lands at (c, j) exactly when its index names row c inside the table and j' = j. -/
private theorem rows_hit (c : Fin N) (j : Fin C) :
    (rowsScatter N M C wf).resultIdx? (ix2 q j') idx = some (ix2 c j) ↔ RowHit N (idx (ix2 q 0)) c ∧ j' = j := by
  unfold ScatterDims.resultIdx?
  constructor
  · intro h
    split at h
    · rename_i hall
      have hf := Option.some.inj h
      have h0 : ((rowsScatter N M C wf).start (ix2 q j') idx 0 + ((rowsScatter N M C wf).window (ix2 q j') 0 : Nat)).toNat = c.val :=
        congrArg Fin.val (congrFun hf 0)
      have h1 : ((rowsScatter N M C wf).start (ix2 q j') idx 1 + ((rowsScatter N M C wf).window (ix2 q j') 1 : Nat)).toNat = j.val :=
        congrArg Fin.val (congrFun hf 1)
      have ha : 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int) := hall 0
      rw [rows_start0, rows_window0] at h0 ha
      rw [rows_start1, rows_window1] at h1
      refine ⟨⟨by omega, by omega, by omega⟩, Fin.ext (by omega)⟩
    · exact absurd h (by simp)
  · rintro ⟨⟨h0, h1, h2⟩, rfl⟩
    have hall : ∀ a, 0 ≤ (rowsScatter N M C wf).start (ix2 q j') idx a + ((rowsScatter N M C wf).window (ix2 q j') a : Nat)
        ∧ (rowsScatter N M C wf).start (ix2 q j') idx a + ((rowsScatter N M C wf).window (ix2 q j') a : Nat) < ((⟨2, ![N, C]⟩ : Shape).size a : Int) := by
      intro a
      match a with
      | ⟨0, _⟩ =>
        show 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int)
        rw [rows_start0, rows_window0]; omega
      | ⟨1, _⟩ =>
        show 0 ≤ (rowsScatter N M C wf).start (ix2 q j') idx 1 + ((rowsScatter N M C wf).window (ix2 q j') 1 : Nat)
          ∧ (rowsScatter N M C wf).start (ix2 q j') idx 1 + ((rowsScatter N M C wf).window (ix2 q j') 1 : Nat) < (C : Int)
        rw [rows_start1, rows_window1]; have := j'.isLt; omega
    rw [dif_pos hall]
    congr 1
    funext a
    refine Fin.ext ?_
    match a with
    | ⟨0, _⟩ =>
      show ((rowsScatter N M C wf).start (ix2 q j') idx 0 + ((rowsScatter N M C wf).window (ix2 q j') 0 : Nat)).toNat = c.val
      rw [rows_start0, rows_window0]; omega
    | ⟨1, _⟩ =>
      show ((rowsScatter N M C wf).start (ix2 q j') idx 1 + ((rowsScatter N M C wf).window (ix2 q j') 1 : Nat)).toNat = j'.val
      rw [rows_start1, rows_window1]; omega

end RowsScatter

section VecScatter

variable {N M w : Nat} (wf : ScatterDims.WF ⟨1, ![N]⟩ ⟨2, ![M, 1]⟩ ⟨1, ![M]⟩ [] [0] [0] 1)
  (idx : IVec ⟨2, ![M, 1]⟩ w) (q : Fin M)

/-- The window of update q starts at the q-th index, read signed. -/
private theorem vec_start0 : (vecScatter N M wf).start (ix1 q) idx 0 = (idx (ix2 q 0)).toInt := by
  unfold ScatterDims.start
  rw [dif_pos (show (0 : Fin 1) ∈ (vecScatter N M wf).scatterDimsToOperandDims from List.mem_singleton.mpr rfl)]
  have hsi : (vecScatter N M wf).siIdx (ix1 q) ⟨List.idxOf (0 : Fin 1) (vecScatter N M wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- The table's one axis is inserted: no window coordinate. -/
private theorem vec_window0 : (vecScatter N M wf).window (ix1 q) 0 = 0 := by
  have h0 : (0 : Fin 1) ∉ (List.finRange 1).filter (fun a => decide (a ∉ ([0] : List (Fin 1)))) := by decide
  unfold ScatterDims.window
  rw [dif_neg (show (0 : Fin 1) ∉ (vecScatter N M wf).sKept from h0)]

/-- Update q lands at c exactly when its index names entry c inside the table. -/
private theorem vec_hit (c : Fin N) :
    (vecScatter N M wf).resultIdx? (ix1 q) idx = some (ix1 c) ↔ RowHit N (idx (ix2 q 0)) c := by
  unfold ScatterDims.resultIdx?
  constructor
  · intro h
    split at h
    · rename_i hall
      have hf := Option.some.inj h
      have h0 : ((vecScatter N M wf).start (ix1 q) idx 0 + ((vecScatter N M wf).window (ix1 q) 0 : Nat)).toNat = c.val :=
        congrArg Fin.val (congrFun hf 0)
      have ha : 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int) := hall 0
      rw [vec_start0, vec_window0] at h0 ha
      exact ⟨by omega, by omega, by omega⟩
    · exact absurd h (by simp)
  · rintro ⟨h0, h1, h2⟩
    have hall : ∀ a, 0 ≤ (vecScatter N M wf).start (ix1 q) idx a + ((vecScatter N M wf).window (ix1 q) a : Nat)
        ∧ (vecScatter N M wf).start (ix1 q) idx a + ((vecScatter N M wf).window (ix1 q) a : Nat) < ((⟨1, ![N]⟩ : Shape).size a : Int) := by
      intro a
      match a with
      | ⟨0, _⟩ =>
        show 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int)
        rw [vec_start0, vec_window0]; omega
    rw [dif_pos hall]
    congr 1
    funext a
    refine Fin.ext ?_
    match a with
    | ⟨0, _⟩ =>
      show ((vecScatter N M wf).start (ix1 q) idx 0 + ((vecScatter N M wf).window (ix1 q) 0 : Nat)).toNat = c.val
      rw [vec_start0, vec_window0]; omega

end VecScatter

/-- THE ROW SCATTER-ADD READ AT (c, j). -/
theorem scatterAdd_rows_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (c : Fin N) (j : Fin C) :
    Host.scatterAdd (F := Ideal) (rowsScatter N M C wf) x idx upd (ix2 c j)
      = x (ix2 c j) + ∑ q ∈ Finset.univ.filter (fun q : Fin M => RowHit N (idx (ix2 q 0)) c), upd (ix2 q j) := by
  show Ideal.hostScatterAdd (rowsScatter N M C wf) x idx upd (ix2 c j) = _
  unfold Ideal.hostScatterAdd
  congr 1
  -- an update that lands at (c, j) hits row c and sits in column j
  have key : ∀ i : (⟨2, ![M, C]⟩ : Shape).Idx, (rowsScatter N M C wf).resultIdx? i idx = some (ix2 c j) →
      RowHit N (idx (ix2 (i 0) 0)) c ∧ ix2 (i 0) j = i := by
    intro i hi
    have hi2 : (rowsScatter N M C wf).resultIdx? (ix2 (i 0) (i 1)) idx = some (ix2 c j) :=
      Eq.mp (congrArg (fun t => (rowsScatter N M C wf).resultIdx? t idx = some (ix2 c j)) (eq_ix2 i)) hi
    obtain ⟨hr, hj⟩ := (rows_hit wf idx (i 0) (i 1) c j).mp hi2
    exact ⟨hr, (congrArg (fun t => ix2 (i 0) t) hj).symm.trans (eq_ix2 i).symm⟩
  -- so the updates landing at (c, j) are the (q, j) with q a hit, one for one
  refine Finset.sum_nbij' (fun i => (i 0 : Fin M)) (fun q => ix2 q j) ?_ ?_ ?_ ?_ ?_
  · intro i hi
    exact Finset.mem_filter.mpr ⟨Finset.mem_univ _, (key i (Finset.mem_filter.mp hi).2).1⟩
  · intro q hq
    exact Finset.mem_filter.mpr ⟨Finset.mem_univ _, (rows_hit wf idx q j c j).mpr ⟨(Finset.mem_filter.mp hq).2, rfl⟩⟩
  · intro i hi
    exact (key i (Finset.mem_filter.mp hi).2).2
  · intro q _
    rfl
  · intro i hi
    exact congrArg upd (key i (Finset.mem_filter.mp hi).2).2.symm

/-- THE SCALAR SCATTER-ADD READ AT c. -/
theorem scatterAdd_vec_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (F := Ideal) (vecScatter N M wf) x idx upd (ix1 c)
      = x (ix1 c) + ∑ q ∈ Finset.univ.filter (fun q : Fin M => RowHit N (idx (ix2 q 0)) c), upd (ix1 q) := by
  show Ideal.hostScatterAdd (vecScatter N M wf) x idx upd (ix1 c) = _
  unfold Ideal.hostScatterAdd
  congr 1
  -- an update that lands at c hits entry c
  have key : ∀ i : (⟨1, ![M]⟩ : Shape).Idx, (vecScatter N M wf).resultIdx? i idx = some (ix1 c) →
      RowHit N (idx (ix2 (i 0) 0)) c := by
    intro i hi
    have hi2 : (vecScatter N M wf).resultIdx? (ix1 (i 0)) idx = some (ix1 c) :=
      Eq.mp (congrArg (fun t => (vecScatter N M wf).resultIdx? t idx = some (ix1 c)) (eq_ix1 i)) hi
    exact (vec_hit wf idx (i 0) c).mp hi2
  -- so the updates landing at c are the hits, one for one
  refine Finset.sum_nbij' (fun i => (i 0 : Fin M)) (fun q => ix1 q) ?_ ?_ ?_ ?_ ?_
  · intro i hi
    exact Finset.mem_filter.mpr ⟨Finset.mem_univ _, key i (Finset.mem_filter.mp hi).2⟩
  · intro q hq
    exact Finset.mem_filter.mpr ⟨Finset.mem_univ _, (vec_hit wf idx q c).mpr (Finset.mem_filter.mp hq).2⟩
  · intro i _
    exact (eq_ix1 i).symm
  · intro q _
    rfl
  · intro i _
    exact congrArg upd (eq_ix1 i)

/-- THE ROW GATHER OVER AN A x B ARRAY OF INDICES READ AT (a, b, j). -/
theorem gather_rows3_apply {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (rowsGather3 N C A B wf) x idx (ix3 a b j) = x (ix2 (rowClamp N hN (idx (ix3 a b 0))) j) := by
  unfold Host.gather
  congr 1
  funext e
  refine Fin.ext ?_
  match e with
  | ⟨0, _⟩ =>
    show (rowsGather3 N C A B wf).start (ix3 a b j) idx 0 + (rowsGather3 N C A B wf).batchCoord (ix3 a b j) 0
      + (rowsGather3 N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather3 N C A B wf).startIndexMap from List.mem_singleton.mpr rfl)]
    have hsi : (rowsGather3 N C A B wf).siIdx (ix3 a b j) ⟨List.idxOf (0 : Fin 2) (rowsGather3 N C A B wf).startIndexMap,
        List.idxOf_lt_length_iff.2 (List.mem_singleton.mpr rfl)⟩ = ix3 a b 0 := by
      funext b'; refine Fin.ext ?_
      match b' with
      | ⟨0, _⟩ => rfl
      | ⟨1, _⟩ => rfl
      | ⟨2, _⟩ => rfl
    rw [hsi]
    rfl
  | ⟨1, _⟩ =>
    show (rowsGather3 N C A B wf).start (ix3 a b j) idx 1 + (rowsGather3 N C A B wf).batchCoord (ix3 a b j) 1
      + (rowsGather3 N C A B wf).offCoord (ix3 a b j) 1 = j.val
    rw [GatherDims.batchCoord_eq_zero _ _ _ List.not_mem_nil]
    have hs : (rowsGather3 N C A B wf).start (ix3 a b j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- THE ROW GATHER OVER AN A x B x D ARRAY OF INDICES READ AT (a, b, d, j). -/
theorem gather_rows4_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w) (a : Fin A) (b : Fin B) (d : Fin D) (j : Fin C) :
    Host.gather (rowsGather4 N C A B D wf) x idx (ix4 a b d j) = x (ix2 (rowClamp N hN (idx (ix4 a b d 0))) j) := by
  unfold Host.gather
  congr 1
  funext e
  refine Fin.ext ?_
  match e with
  | ⟨0, _⟩ =>
    show (rowsGather4 N C A B D wf).start (ix4 a b d j) idx 0 + (rowsGather4 N C A B D wf).batchCoord (ix4 a b d j) 0
      + (rowsGather4 N C A B D wf).offCoord (ix4 a b d j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather4 N C A B D wf).startIndexMap from List.mem_singleton.mpr rfl)]
    have hsi : (rowsGather4 N C A B D wf).siIdx (ix4 a b d j) ⟨List.idxOf (0 : Fin 2) (rowsGather4 N C A B D wf).startIndexMap,
        List.idxOf_lt_length_iff.2 (List.mem_singleton.mpr rfl)⟩ = ix4 a b d 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show (rowsGather4 N C A B D wf).start (ix4 a b d j) idx 1 + (rowsGather4 N C A B D wf).batchCoord (ix4 a b d j) 1
      + (rowsGather4 N C A B D wf).offCoord (ix4 a b d j) 1 = j.val
    rw [GatherDims.batchCoord_eq_zero _ _ _ List.not_mem_nil]
    have hs : (rowsGather4 N C A B D wf).start (ix4 a b d j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.LibRows

end
-- ==== Proof.Spec.lean ====
/-
  The mathematics both programs compute, over the extended reals, as functions of the eight argument arrays.

  A graph has 16000 nodes and 256000 edges; edge e runs from its row node to its column node. With q, k, v the three
  256-column projections of the node features x, an edge's score in column j is the product k[row e, j] · q[col e, j],
  scaled, clamped to [-5, 5], times the edge's own projection (its 256 features and its scaled length against the
  257-row edge weight). Columns come in 8 heads of 32: the clamped sum of a head's scores, exponentiated, weights the v
  row of the edge's row node, and both that weight and the weighted row are summed over the edges that name a node as
  their column node; the node's output is the quotient of the two sums (the second shifted by a small constant).

  The kernel program and the reference arrange this differently — the scale as a product with a named reciprocal or as a
  quotient, the edge projection as 256 terms plus one or as 257 terms — and `score_eq` below is the law that joins them.
  Float words are kept as words: the same word on both sides is never evaluated.
-/
import Idealize.ShloMosaic.PureOps.Ideal
import Idealize.ShloMosaic.PureOps.Ideal.Laws
import Idealize.ShloMosaic.Lib.ValueIdx
import Mathlib.Algebra.BigOperators.Fin
import proofs.«409030_j11063835754631_4_alg».proof.Proof.LibRows

noncomputable section

namespace Cert.Spec

open Idealize.ShloMosaic Idealize.ShloMosaic.ValueIdx Cert.LibRows
open scoped BigOperators

/-! ## The float words -/

/-- -5.0 -/
abbrev lo : EReal := Ideal.ofBits .f32 0xC0A00000#32
/-- 5.0 -/
abbrev hi : EReal := Ideal.ofBits .f32 0x40A00000#32
/-- 0.0 -/
abbrev zero : EReal := Ideal.ofBits .f32 0x00000000#32
/-- the shift of the denominator, about 1e-6 -/
abbrev eps : EReal := Ideal.ofBits .f32 0x358637BD#32
/-- the scale of an edge's length, about 0.1 -/
abbrev tenth : EReal := Ideal.ofBits .f32 0x3DCCCCCD#32
/-- the reference's divisor, the f32 nearest the square root of 32: 11863283 / 2^21 -/
abbrev dvs : EReal := Ideal.ofBits .f32 0x40B504F3#32
/-- the kernel's named scale: the reciprocal of that divisor -/
abbrev scl : EReal := ((2097152 / 11863283 : ℝ) : EReal)

/-- Clamping to [-5, 5]: first from below, then from above. -/
def clip (y : EReal) : EReal := min hi (max lo y)

/-- A start index read as the programs normalise it: a negative index counts from the end of the 16000 rows. -/
def nidx (r : BitVec 32) : BitVec 32 := if r.slt 0#32 then r + 16000#32 else r

/-- Column position (h, d) of the 8 x 32 head layout in the flat 256 columns. -/
def col (h : Fin 8) (d : Fin 32) : Fin 256 := ⟨32 * h.val + d.val, by omega⟩
/-- The head of flat column j. -/
def head (j : Fin 256) : Fin 8 := ⟨j.val / 32, by omega⟩

section

variable (x : FVec Ideal ⟨2, ![16000, 256]⟩ .f32) (ea : FVec Ideal ⟨2, ![256000, 256]⟩ .f32)
  (ei : IVec ⟨2, ![2, 256000]⟩ 32) (co : FVec Ideal ⟨2, ![16000, 3]⟩ .f32)
  (Wq Wk Wv : FVec Ideal ⟨2, ![256, 256]⟩ .f32) (We : FVec Ideal ⟨2, ![257, 256]⟩ .f32)

/-- The row node of edge e (its start index normalised, then clamped into the table, as a gather reads it). -/
def rowOf (e : Fin 256000) : Fin 16000 := rowClamp 16000 (by decide) (nidx (ei (ix2 0 e)))
/-- The column node of edge e as a gather reads it. -/
def colOf (e : Fin 256000) : Fin 16000 := rowClamp 16000 (by decide) (nidx (ei (ix2 1 e)))
/-- Edge e is summed into node n: its raw column index names row n of the table (an index outside the table is dropped). -/
def Hits (e : Fin 256000) (n : Fin 16000) : Prop := RowHit 16000 (ei (ix2 1 e)) n
instance (e : Fin 256000) (n : Fin 16000) : Decidable (Hits ei e n) := by unfold Hits; infer_instance

/-- Entry (n, j) of x · W. -/
def proj (W : FVec Ideal ⟨2, ![256, 256]⟩ .f32) (n : Fin 16000) (j : Fin 256) : EReal :=
  ∑ k : Fin 256, x (ix2 n k) * W (ix2 k j)

/-- The scaled length of edge e: the square root of the sum of squares of the coordinate differences, times the scale word. -/
def dist (e : Fin 256000) : EReal :=
  Ideal.sqrt (zero + ∑ a : Fin 3, (co (ix2 (rowOf ei e) a) - co (ix2 (colOf ei e) a)) * (co (ix2 (rowOf ei e) a) - co (ix2 (colOf ei e) a))) * tenth

/-- The edge's projection as the kernel program computes it: 256 feature terms, then the length term. -/
def edgeProjK (e : Fin 256000) (j : Fin 256) : EReal :=
  (∑ k : Fin 256, ea (ix2 e k) * We (ix2 k.castSucc j)) + dist ei co e * We (ix2 (Fin.last 256) j)

/-- The same as the reference computes it: one contraction over the 257 features, the length last. -/
def edgeProjR (e : Fin 256000) (j : Fin 256) : EReal :=
  ∑ k : Fin 257, (Fin.lastCases (dist ei co e) (fun k' : Fin 256 => ea (ix2 e k')) k) * We (ix2 k j)

/-- The kernel program's score: the product with the named reciprocal. -/
def scoreK (e : Fin 256000) (j : Fin 256) : EReal :=
  clip (proj x Wk (rowOf ei e) j * proj x Wq (colOf ei e) j * scl) * edgeProjK ea ei co We e j

/-- The reference's score: the quotient by its divisor word. -/
def scoreR (e : Fin 256000) (j : Fin 256) : EReal :=
  clip (Ideal.div (proj x Wk (rowOf ei e) j * proj x Wq (colOf ei e) j) dvs) * edgeProjR ea ei co We e j

/-- The weight of head h on edge e: the exponential of the clamped sum of the head's 32 scores (over a score s). -/
def headW (s : Fin 256000 → Fin 256 → EReal) (e : Fin 256000) (h : Fin 8) : EReal :=
  Ideal.exp (clip (zero + ∑ d : Fin 32, s e (col h d)))

/-- The same without the zero the host's sum starts from (the kernel's selector product starts from a zero accumulator
    that the contraction law already absorbs). -/
def headW' (s : Fin 256000 → Fin 256 → EReal) (e : Fin 256000) (h : Fin 8) : EReal :=
  Ideal.exp (clip (∑ d : Fin 32, s e (col h d)))

/-- The weighted value row of edge e, column j. -/
def wval (w : Fin 256000 → Fin 8 → EReal) (e : Fin 256000) (j : Fin 256) : EReal :=
  proj x Wv (rowOf ei e) j * w e (head j)

/-- The sum over the edges that name node n as their column node, from the zero word. -/
def segSum (u : Fin 256000 → EReal) (n : Fin 16000) : EReal :=
  zero + ∑ e ∈ Finset.univ.filter (fun e : Fin 256000 => Hits ei e n), u e

/-- A node's output at head h, column d, over a head weight w. -/
def nodeOut (w : Fin 256000 → Fin 8 → EReal) (n : Fin 16000) (h : Fin 8) (d : Fin 32) : EReal :=
  Ideal.div (segSum ei (fun e => wval x ei Wv w e (col h d)) n) (segSum ei (fun e => w e h) n + eps)

end

end Cert.Spec

end
-- ==== Proof.KI.Val1.lean ====
/-
  The second pallas_call at an index, part one: what its body's three payloads are at row p of a tile, and which
  rows of the nine input arrays a tile's blocks hold.

  A tile is 512 edges. With k, q the gathered projection rows, a the edge features, d the edge length, W the main edge
  weight, b its last row, S the column-to-head selector and T its transpose, the body computes at row p:
  the score  s(p, j) = clamp(k(p, j) · q(p, j) · scale) · (Σ_k a(p, k) · W(k, j) + d(p) · b(0, j)),
  the head weight  w(p, h) = exp(clamp(Σ_j s(p, j) · S(j, h))),  and the weighted value  v(p, j) · Σ_h w(p, h) · T(h, j).
  The tile at grid point t holds rows 512·t … 512·t + 511 of the five per-edge arrays and the whole of the four others.
-/
import proofs.«409030_j11063835754631_4_alg».proof.Proof.KI.Body1
import proofs.«409030_j11063835754631_4_alg».proof.Proof.LibPlainDot
import proofs.«409030_j11063835754631_4_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

/-! ## Two layout reads: a vector stood up as a column, and a column spread along its rows -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The constants and the three products -/

/-- The named scale is the reciprocal the certificate's table gives it. -/
theorem scl_named : Named.named (F := Ideal) κ "inv_sqrt_d" (φ := .f32) 0x3E3504F3#32 = Spec.scl :=
  IdealRules.named_const.ideal_named_scalar _ _ _ _ rfl

/-- The three products are plain: rows by columns. -/
theorem dot_A : dot_S512x256_S256x256_S512x256_1_0_0_1_n_n = DotDims.plain 512 256 256 := rfl
theorem dot_H : dot_S512x256_S256x8_S512x8_1_0_0_1_n_n = DotDims.plain 512 256 8 := rfl
theorem dot_W : dot_S512x8_S8x256_S512x256_1_0_0_1_n_n = DotDims.plain 512 8 256 := rfl

theorem zero2B : (![0, 0] : Fin 2 → Nat) = fun _ => 0 := funext fun a => by fin_cases a <;> rfl
theorem zero1 : (![0] : Fin 1 → Nat) = fun _ => 0 := funext fun a => by fin_cases a <;> rfl

/-! ## The payloads at row p -/

/-- The score of row `p`, column `j` of a tile, over the tile's blocks. -/
def scB (x0 : Vec Ideal S512x256 .f32) (x1 : Vec Ideal S512 .f32) (x2 : Vec Ideal S256x256 .f32) (x3 : Vec Ideal S1x256 .f32)
    (x6 x7 : Vec Ideal S512x256 .bf16) (p : Fin 512) (j : Fin 256) : EReal :=
  Spec.clip ((x6 (ix2 p j) : EReal) * (x7 (ix2 p j) : EReal) * Spec.scl)
    * ((∑ k : Fin 256, (x0 (ix2 p k) : EReal) * (x2 (ix2 k j) : EReal)) + (x1 (ix1 p) : EReal) * (x3 (ix2 (0 : Fin 1) j) : EReal))

/-- The head weight of row `p`, head `h`. -/
def hwB (x0 : Vec Ideal S512x256 .f32) (x1 : Vec Ideal S512 .f32) (x2 : Vec Ideal S256x256 .f32) (x3 : Vec Ideal S1x256 .f32)
    (x4 : Vec Ideal S256x8 .f32) (x6 x7 : Vec Ideal S512x256 .bf16) (p : Fin 512) (h : Fin 8) : EReal :=
  Ideal.exp (Spec.clip (∑ j : Fin 256, scB x0 x1 x2 x3 x6 x7 p j * (x4 (ix2 j h) : EReal)))

theorem k1pay4_apply (x0 : Vec Ideal S512x256 .f32) (x1 : Vec Ideal S512 .f32) (x2 : Vec Ideal S256x256 .f32) (x3 : Vec Ideal S1x256 .f32)
    (x6 x7 : Vec Ideal S512x256 .bf16) (p : Fin 512) (j : Fin 256) :
    k1_pay4 (F := Ideal) x1 x0 x2 x3 x6 x7 (ix2 p j) = scB x0 x1 x2 x3 x6 x7 p j := by
  unfold k1_pay4 scB Spec.clip
  simp only [mulf_apply, addf_apply, minimumf_apply, maximumf_apply, broadcast_apply, shapeCast_self, dot_A, matmul]
  rw [PlainDot.matmul_zero_apply, broadcastTo_a1_ab_apply, broadcastTo_1b_ab_apply, shapeCast_a_a1_apply]
  simp only [extf_apply, truncf_apply, scl_named]
  rfl

theorem k1pay5_apply (x0 : Vec Ideal S512x256 .f32) (x1 : Vec Ideal S512 .f32) (x2 : Vec Ideal S256x256 .f32) (x3 : Vec Ideal S1x256 .f32)
    (x4 : Vec Ideal S256x8 .f32) (x6 x7 : Vec Ideal S512x256 .bf16) (p : Fin 512) (h : Fin 8) :
    k1_pay5 (F := Ideal) x1 x0 x2 x3 x6 x7 x4 (ix2 p h) = ∑ j : Fin 256, scB x0 x1 x2 x3 x6 x7 p j * (x4 (ix2 j h) : EReal) := by
  unfold k1_pay5
  simp only [shapeCast_self, dot_H, matmul]
  rw [PlainDot.matmul_zero_apply]
  exact Finset.sum_congr rfl fun j _ => by rw [k1pay4_apply]

theorem k1pay1_apply (v : FVec Ideal S512x8 .f32) (p : Fin 512) (h : Fin 8) :
    k1_pay1 (F := Ideal) v (ix2 p h) = Ideal.exp (Spec.clip (v (ix2 p h))) := rfl

theorem k1pay3_apply (x8 : Vec Ideal S512x256 .bf16) (p : Fin 512) (j : Fin 256) :
    k1_pay3 (F := Ideal) x8 (ix2 p j) = (x8 (ix2 p j) : EReal) := by
  unfold k1_pay3
  simp only [extf_apply, shapeCast_self]

theorem k1pay2_apply (v23 : FVec Ideal S512x256 .f32) (v35 : FVec Ideal S512x8 .f32) (x5 : Vec Ideal S8x256 .f32) (p : Fin 512) (j : Fin 256) :
    k1_pay2 (F := Ideal) v23 v35 x5 (ix2 p j) = v23 (ix2 p j) * ∑ h : Fin 8, k1_pay1 (F := Ideal) v35 (ix2 p h) * (x5 (ix2 h j) : EReal) := by
  unfold k1_pay2
  simp only [mulf_apply, shapeCast_self, dot_W, matmul]
  rw [PlainDot.matmul_zero_apply]

/-! ## The three output blocks at row p -/

section Blocks
variable (x0 : Vec Ideal S512x256 .f32) (x1 : Vec Ideal S512 .f32) (x2 : Vec Ideal S256x256 .f32) (x3 : Vec Ideal S1x256 .f32)
  (x4 : Vec Ideal S256x8 .f32) (x5 : Vec Ideal S8x256 .f32) (x6 x7 x8 : Vec Ideal S512x256 .bf16)

theorem out1_9_apply (p : Fin 512) (j : Fin 256) :
    out1_9 (F := Ideal) x0 x1 x2 x3 x4 x5 x6 x7 x8 (ix2 p j) = scB x0 x1 x2 x3 x6 x7 p j := by
  unfold out1_9
  rw [View.canon_unit_zero zero2B]
  simp only [View.ld_unit_zero (S := S512x256) zero2B, View.ld_unit_zero (S := S512) zero1,
    View.ld_unit_zero (S := S256x256) zero2B, View.ld_unit_zero (S := S1x256) zero2B]
  exact k1pay4_apply x0 x1 x2 x3 x6 x7 p j

theorem out1_11_apply (p : Fin 512) (h : Fin 8) :
    out1_11 (F := Ideal) x0 x1 x2 x3 x4 x5 x6 x7 x8 (ix2 p h) = hwB x0 x1 x2 x3 x4 x6 x7 p h := by
  unfold out1_11
  rw [View.canon_unit_zero zero2B]
  simp only [View.ld_unit_zero (S := S512x256) zero2B, View.ld_unit_zero (S := S512) zero1,
    View.ld_unit_zero (S := S256x256) zero2B, View.ld_unit_zero (S := S1x256) zero2B, View.ld_unit_zero (S := S256x8) zero2B]
  rw [k1pay1_apply, k1pay5_apply]
  rfl

theorem out1_10_apply (p : Fin 512) (j : Fin 256) :
    out1_10 (F := Ideal) x0 x1 x2 x3 x4 x5 x6 x7 x8 (ix2 p j)
      = (x8 (ix2 p j) : EReal) * ∑ h : Fin 8, hwB x0 x1 x2 x3 x4 x6 x7 p h * (x5 (ix2 h j) : EReal) := by
  unfold out1_10
  rw [View.canon_unit_zero zero2B]
  simp only [View.ld_unit_zero (S := S512x256) zero2B, View.ld_unit_zero (S := S512) zero1,
    View.ld_unit_zero (S := S256x256) zero2B, View.ld_unit_zero (S := S1x256) zero2B, View.ld_unit_zero (S := S256x8) zero2B,
    View.ld_unit_zero (S := S8x256) zero2B]
  rw [k1pay2_apply, k1pay3_apply]
  refine congrArg _ (Finset.sum_congr rfl fun h _ => ?_)
  rw [k1pay1_apply, k1pay5_apply]
  rfl

end Blocks

end Cert.KernelIdeal.Hand

end
-- ==== Proof.KI.Val1b.lean ====
/-
  The second pallas_call at an index, part two: which rows of the input arrays the tile at a grid point holds.

  The grid has 500 points; the tile at point t holds rows 512·t … 512·t + 511 of the five per-edge inputs (edge
  features, edge lengths, and the gathered k, q, v rows) and of the three outputs, and the whole of the four
  weight and selector arrays. The index maps are decided once over the grid; a block's element at local row p is
  then the array's at row 512·t + p.
-/
import proofs.«409030_j11063835754631_4_alg».proof.Proof.KI.Val1

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

/-! ## The index maps, decided over the grid -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 1) = t.val :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)
theorem idx1_11 : ∀ t : Fin cfg1.N, win1_11.index t (0 : Fin 2) = t.val ∧ win1_11.index t (1 : Fin 2) = 0 :=
  (by decide +kernel : ∀ t : Fin grid1.N, _)

/-- Row `p` of the tile at grid point `t` is edge `512·t + p`. -/
def erow (t : Fin cfg1.N) (p : Fin 512) : Fin 256000 := ⟨512 * t.val + p.val, by
  have ht : t.val < 500 := t.isLt
  have hp := p.isLt
  omega⟩

theorem erow_val (t : Fin cfg1.N) (p : Fin 512) : (erow t p).val = 512 * t.val + p.val := rfl

/-! ## Where a block's element sits in its array -/

theorem emb1_0 (t : Fin cfg1.N) (p : Fin 512) (k : Fin 256) : ((cfg1.win 0).blk t).view.emb (ix2 p k) = ix2 (erow t p) k := by
  funext a; apply Fin.ext
  match a with
  | ⟨0, _⟩ => show win1_0.index t (0 : Fin 2) * 512 + 1 * p.val = 512 * t.val + p.val; rw [(idx1_0 t).1]; omega
  | ⟨1, _⟩ => show win1_0.index t (1 : Fin 2) * 256 + 1 * k.val = k.val; rw [(idx1_0 t).2]; omega
theorem emb1_1 (t : Fin cfg1.N) (p : Fin 512) : ((cfg1.win 1).blk t).view.emb (ix1 p) = ix1 (erow t p) := by
  funext a; apply Fin.ext
  match a with
  | ⟨0, _⟩ => show win1_1.index t (0 : Fin 1) * 512 + 1 * p.val = 512 * t.val + p.val; rw [idx1_1 t]; omega
theorem emb1_2 (t : Fin cfg1.N) (k : Fin 256) (j : Fin 256) : ((cfg1.win 2).blk t).view.emb (ix2 k j) = ix2 k j := by
  funext a; apply Fin.ext
  match a with
  | ⟨0, _⟩ => show win1_2.index t (0 : Fin 2) * 256 + 1 * k.val = k.val; rw [(idx1_2 t).1]; omega
  | ⟨1, _⟩ => show win1_2.index t (1 : Fin 2) * 256 + 1 * j.val = j.val; rw [(idx1_2 t).2]; omega
theorem emb1_3 (t : Fin cfg1.N) (u : Fin 1) (j : Fin 256) : ((cfg1.win 3).blk t).view.emb (ix2 u j) = ix2 u j := by
  funext a; apply Fin.ext
  match a with
  | ⟨0, _⟩ => show win1_3.index t (0 : Fin 2) * 1 + 1 * u.val = u.val; rw [(idx1_3 t).1]; omega
  | ⟨1, _⟩ => show win1_3.index t (1 : Fin 2) * 256 + 1 * j.val = j.val; rw [(idx1_3 t).2]; omega
theorem emb1_4 (t : Fin cfg1.N) (j : Fin 256) (h : Fin 8) : ((cfg1.win 4).blk t).view.emb (ix2 j h) = ix2 j h := by
  funext a; apply Fin.ext
  match a with
  | ⟨0, _⟩ => show win1_4.index t (0 : Fin 2) * 256 + 1 * j.val = j.val; rw [(idx1_4 t).1]; omega
  | ⟨1, _⟩ => show win1_4.index t (1 : Fin 2) * 8 + 1 * h.val = h.val; rw [(idx1_4 t).2]; omega
theorem emb1_5 (t : Fin cfg1.N) (h : Fin 8) (j : Fin 256) : ((cfg1.win 5).blk t).view.emb (ix2 h j) = ix2 h j := by
  funext a; apply Fin.ext
  match a with
  | ⟨0, _⟩ => show win1_5.index t (0 : Fin 2) * 8 + 1 * h.val = h.val; rw [(idx1_5 t).1]; omega
  | ⟨1, _⟩ => show win1_5.index t (1 : Fin 2) * 256 + 1 * j.val = j.val; rw [(idx1_5 t).2]; omega
theorem emb1_6 (t : Fin cfg1.N) (p : Fin 512) (k : Fin 256) : ((cfg1.win 6).blk t).view.emb (ix2 p k) = ix2 (erow t p) k := by
  funext a; apply Fin.ext
  match a with
  | ⟨0, _⟩ => show win1_6.index t (0 : Fin 2) * 512 + 1 * p.val = 512 * t.val + p.val; rw [(idx1_6 t).1]; omega
  | ⟨1, _⟩ => show win1_6.index t (1 : Fin 2) * 256 + 1 * k.val = k.val; rw [(idx1_6 t).2]; omega
theorem emb1_7 (t : Fin cfg1.N) (p : Fin 512) (k : Fin 256) : ((cfg1.win 7).blk t).view.emb (ix2 p k) = ix2 (erow t p) k := by
  funext a; apply Fin.ext
  match a with
  | ⟨0, _⟩ => show win1_7.index t (0 : Fin 2) * 512 + 1 * p.val = 512 * t.val + p.val; rw [(idx1_7 t).1]; omega
  | ⟨1, _⟩ => show win1_7.index t (1 : Fin 2) * 256 + 1 * k.val = k.val; rw [(idx1_7 t).2]; omega
theorem emb1_8 (t : Fin cfg1.N) (p : Fin 512) (k : Fin 256) : ((cfg1.win 8).blk t).view.emb (ix2 p k) = ix2 (erow t p) k := by
  funext a; apply Fin.ext
  match a with
  | ⟨0, _⟩ => show win1_8.index t (0 : Fin 2) * 512 + 1 * p.val = 512 * t.val + p.val; rw [(idx1_8 t).1]; omega
  | ⟨1, _⟩ => show win1_8.index t (1 : Fin 2) * 256 + 1 * k.val = k.val; rw [(idx1_8 t).2]; omega
theorem emb1_9 (t : Fin cfg1.N) (p : Fin 512) (k : Fin 256) : ((cfg1.win 9).blk t).view.emb (ix2 p k) = ix2 (erow t p) k := by
  funext a; apply Fin.ext
  match a with
  | ⟨0, _⟩ => show win1_9.index t (0 : Fin 2) * 512 + 1 * p.val = 512 * t.val + p.val; rw [(idx1_9 t).1]; omega
  | ⟨1, _⟩ => show win1_9.index t (1 : Fin 2) * 256 + 1 * k.val = k.val; rw [(idx1_9 t).2]; omega
theorem emb1_10 (t : Fin cfg1.N) (p : Fin 512) (k : Fin 256) : ((cfg1.win 10).blk t).view.emb (ix2 p k) = ix2 (erow t p) k := by
  funext a; apply Fin.ext
  match a with
  | ⟨0, _⟩ => show win1_10.index t (0 : Fin 2) * 512 + 1 * p.val = 512 * t.val + p.val; rw [(idx1_10 t).1]; omega
  | ⟨1, _⟩ => show win1_10.index t (1 : Fin 2) * 256 + 1 * k.val = k.val; rw [(idx1_10 t).2]; omega
theorem emb1_11 (t : Fin cfg1.N) (p : Fin 512) (h : Fin 8) : ((cfg1.win 11).blk t).view.emb (ix2 p h) = ix2 (erow t p) h := by
  funext a; apply Fin.ext
  match a with
  | ⟨0, _⟩ => show win1_11.index t (0 : Fin 2) * 512 + 1 * p.val = 512 * t.val + p.val; rw [(idx1_11 t).1]; omega
  | ⟨1, _⟩ => show win1_11.index t (1 : Fin 2) * 8 + 1 * h.val = h.val; rw [(idx1_11 t).2]; omega

/-! ## The input blocks at an index -/

variable (V : (c : Dev nD) → (b : Ref sig .tc) → Buf (Elt Ideal) ((c : Thread nD τ).loc b))

theorem iblk1_0_apply (c : Dev nD) (t : Fin cfg1.N) (p : Fin 512) (k : Fin 256) :
    iblk1 V c 0 t (ix2 p k) = V c main_arg1 (ix2 (erow t p) k) := by
  show V c main_arg1 (((cfg1.win 0).blk t).view.emb (ix2 p k)) = _
  rw [emb1_0]
theorem iblk1_1_apply (c : Dev nD) (t : Fin cfg1.N) (p : Fin 512) :
    iblk1 V c 1 t (ix1 p) = V c main_v21 (ix1 (erow t p)) := by
  show V c main_v21 (((cfg1.win 1).blk t).view.emb (ix1 p)) = _
  rw [emb1_1]
theorem iblk1_2_apply (c : Dev nD) (t : Fin cfg1.N) (k : Fin 256) (j : Fin 256) :
    iblk1 V c 2 t (ix2 k j) = V c main_v45 (ix2 k j) := by
  show V c main_v45 (((cfg1.win 2).blk t).view.emb (ix2 k j)) = _
  rw [emb1_2]
theorem iblk1_3_apply (c : Dev nD) (t : Fin cfg1.N) (u : Fin 1) (j : Fin 256) :
    iblk1 V c 3 t (ix2 u j) = V c main_v46 (ix2 u j) := by
  show V c main_v46 (((cfg1.win 3).blk t).view.emb (ix2 u j)) = _
  rw [emb1_3]
theorem iblk1_4_apply (c : Dev nD) (t : Fin cfg1.N) (j : Fin 256) (h : Fin 8) :
    iblk1 V c 4 t (ix2 j h) = V c main_v55 (ix2 j h) := by
  show V c main_v55 (((cfg1.win 4).blk t).view.emb (ix2 j h)) = _
  rw [emb1_4]
theorem iblk1_5_apply (c : Dev nD) (t : Fin cfg1.N) (h : Fin 8) (j : Fin 256) :
    iblk1 V c 5 t (ix2 h j) = V c main_v56 (ix2 h j) := by
  show V c main_v56 (((cfg1.win 5).blk t).view.emb (ix2 h j)) = _
  rw [emb1_5]
theorem iblk1_6_apply (c : Dev nD) (t : Fin cfg1.N) (p : Fin 512) (k : Fin 256) :
    iblk1 V c 6 t (ix2 p k) = V c main_v30 (ix2 (erow t p) k) := by
  show V c main_v30 (((cfg1.win 6).blk t).view.emb (ix2 p k)) = _
  rw [emb1_6]
theorem iblk1_7_apply (c : Dev nD) (t : Fin cfg1.N) (p : Fin 512) (k : Fin 256) :
    iblk1 V c 7 t (ix2 p k) = V c main_v37 (ix2 (erow t p) k) := by
  show V c main_v37 (((cfg1.win 7).blk t).view.emb (ix2 p k)) = _
  rw [emb1_7]
theorem iblk1_8_apply (c : Dev nD) (t : Fin cfg1.N) (p : Fin 512) (k : Fin 256) :
    iblk1 V c 8 t (ix2 p k) = V c main_v44 (ix2 (erow t p) k) := by
  show V c main_v44 (((cfg1.win 8).blk t).view.emb (ix2 p k)) = _
  rw [emb1_8]

end Cert.KernelIdeal.Hand

end
-- ==== Proof.KI.Val1c.lean ====
/-
  The second pallas_call at an index, part three: from a tile's blocks to the three whole output arrays.

  Over the nine input arrays as the region finds them, edge e has the score
  s(e, j) = clamp(k(e, j) · q(e, j) · scale) · (Σ_k a(e, k) · W(k, j) + d(e) · b(0, j)),
  the head weight  w(e, h) = exp(clamp(Σ_j s(e, j) · S(j, h))),  and the weighted value  v(e, j) · Σ_h w(e, h) · T(h, j).
  What grid point t writes back is rows 512·t … 512·t + 511 of these three functions; edge e lies in the tile
  e / 512; so after the run the three output arrays are these functions, index by index.
-/
import proofs.«409030_j11063835754631_4_alg».proof.Proof.KI.Val1b

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## The three functions of the input arrays

Each is first a function of the arrays it reads, every array at its literal shape over the extended reals, and then
that function of the region-entry contents. -/

/-- The score of edge `e`, column `j`: over the edge features `a`, the edge lengths `d`, the main edge weight `W`,
    its last row `b`, and the gathered rows `k`, `q`. -/
def scoreA (a : S256000x256.Idx → EReal) (d : S256000.Idx → EReal) (W : S256x256.Idx → EReal) (b : S1x256.Idx → EReal)
    (k q : S256000x256.Idx → EReal) (e : Fin 256000) (j : Fin 256) : EReal :=
  Spec.clip (k (ix2 e j) * q (ix2 e j) * Spec.scl)
    * ((∑ i : Fin 256, a (ix2 e i) * W (ix2 i j)) + d (ix1 e) * b (ix2 (0 : Fin 1) j))

/-- The weight of head `h` on edge `e`, over the column-to-head selector `S` and a score `s`. -/
def headA (S : S256x8.Idx → EReal) (s : Fin 256000 → Fin 256 → EReal) (e : Fin 256000) (h : Fin 8) : EReal :=
  Ideal.exp (Spec.clip (∑ j : Fin 256, s e j * S (ix2 j h)))

/-- The weighted value of edge `e`, column `j`, over the gathered rows `v`, the head-to-column selector `T` and a head weight `w`. -/
def wvalA (v : S256000x256.Idx → EReal) (T : S8x256.Idx → EReal) (w : Fin 256000 → Fin 8 → EReal) (e : Fin 256000) (j : Fin 256) : EReal :=
  v (ix2 e j) * ∑ h : Fin 8, w e h * T (ix2 h j)

/-- The score of edge `e`, column `j`, of the region-entry contents. -/
def sc1 (c : Dev nD) (e : Fin 256000) (j : Fin 256) : EReal :=
  scoreA (V c main_arg1) (V c main_v21) (V c main_v45) (V c main_v46) (V c main_v30) (V c main_v37) e j

/-- The weight of head `h` on edge `e`. -/
def hw1 (c : Dev nD) (e : Fin 256000) (h : Fin 8) : EReal := headA (V c main_v55) (sc1 V c) e h

/-- The weighted value of edge `e`, column `j`. -/
def wv1 (c : Dev nD) (e : Fin 256000) (j : Fin 256) : EReal := wvalA (V c main_v44) (V c main_v56) (hw1 V c) e j

/-- A tile's score at row `p` is the score of edge `512·t + p`. -/
theorem scB_iblk (c : Dev nD) (t : Fin cfg1.N) (p : Fin 512) (j : Fin 256) :
    scB (iblk1 V c 0 t) (iblk1 V c 1 t) (iblk1 V c 2 t) (iblk1 V c 3 t) (iblk1 V c 6 t) (iblk1 V c 7 t) p j = sc1 V c (erow t p) j := by
  unfold scB sc1 scoreA
  simp only [iblk1_0_apply, iblk1_1_apply, iblk1_2_apply, iblk1_3_apply, iblk1_6_apply, iblk1_7_apply] <;> rfl

/-- A tile's head weight at row `p` is that of edge `512·t + p`. -/
theorem hwB_iblk (c : Dev nD) (t : Fin cfg1.N) (p : Fin 512) (h : Fin 8) :
    hwB (iblk1 V c 0 t) (iblk1 V c 1 t) (iblk1 V c 2 t) (iblk1 V c 3 t) (iblk1 V c 4 t) (iblk1 V c 6 t) (iblk1 V c 7 t) p h = hw1 V c (erow t p) h := by
  unfold hwB hw1 headA
  simp only [scB_iblk, iblk1_4_apply] <;> rfl

/-- The three output arrays as functions of the inputs. -/
def G9 (c : Dev nD) : S256000x256.Idx → Elt Ideal .f32 := fun i => sc1 V c (i 0) (i 1)
def G10 (c : Dev nD) : S256000x256.Idx → Elt Ideal .f32 := fun i => wv1 V c (i 0) (i 1)
def G11 (c : Dev nD) : S256000x8.Idx → Elt Ideal .f32 := fun i => hw1 V c (i 0) (i 1)

/-! ## What a grid point writes back -/

theorem flushed1_9_eq (c : Dev nD) (t : Fin cfg1.N) :
    (dat1 V c).flushed 9 t = ((cfg1.win 9).blk t).view.read (Elt Ideal) (G9 V c) := by
  show (cfg1.win 9).cut (grid1.coords t) ((dat1 V c).after 9 t) = _
  rw [after1_9]
  funext y
  obtain ⟨p, j, rfl⟩ : ∃ (p : Fin 512) (j : Fin 256), y = ix2 p j := ⟨y 0, y 1, eq_ix2 y⟩
  show out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 p j)
      = G9 V c (((cfg1.win 9).blk t).view.emb (ix2 p j))
  rw [out1_9_apply, scB_iblk, emb1_9]
  rfl

theorem flushed1_10_eq (c : Dev nD) (t : Fin cfg1.N) :
    (dat1 V c).flushed 10 t = ((cfg1.win 10).blk t).view.read (Elt Ideal) (G10 V c) := by
  show (cfg1.win 10).cut (grid1.coords t) ((dat1 V c).after 10 t) = _
  rw [after1_10]
  funext y
  obtain ⟨p, j, rfl⟩ : ∃ (p : Fin 512) (j : Fin 256), y = ix2 p j := ⟨y 0, y 1, eq_ix2 y⟩
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (ix2 p j)
      = G10 V c (((cfg1.win 10).blk t).view.emb (ix2 p j))
  rw [out1_10_apply, emb1_10]
  show _ = wvalA (V c main_v44) (V c main_v56) (hw1 V c) (erow t p) j
  unfold wvalA
  simp only [hwB_iblk, iblk1_5_apply, iblk1_8_apply] <;> rfl

theorem flushed1_11_eq (c : Dev nD) (t : Fin cfg1.N) :
    (dat1 V c).flushed 11 t = ((cfg1.win 11).blk t).view.read (Elt Ideal) (G11 V c) := by
  show (cfg1.win 11).cut (grid1.coords t) ((dat1 V c).after 11 t) = _
  rw [after1_11]
  funext y
  obtain ⟨p, h, rfl⟩ : ∃ (p : Fin 512) (h : Fin 8), y = ix2 p h := ⟨y 0, y 1, eq_ix2 y⟩
  show out1_11 (iblk1 V c 0 t) (iblk1 V c 1 t) (iblk1 V c 2 t) (iblk1 V c 3 t) (iblk1 V c 4 t) (iblk1 V c 5 t) (iblk1 V c 6 t) (iblk1 V c 7 t) (iblk1 V c 8 t) (ix2 p h)
      = G11 V c (((cfg1.win 11).blk t).view.emb (ix2 p h))
  rw [out1_11_apply, hwB_iblk, emb1_11]
  rfl

/-! ## Every edge is in its tile -/

theorem mem_blk1_9 (t : Fin cfg1.N) (i : S256000x256.Idx) :
    i ∈ ((cfg1.win 9).blk t).view.set ↔ ∀ a : Fin 2, win1_9.index t a * S512x256.size a ≤ (i a).val ∧ (i a).val < win1_9.index t a * S512x256.size a + S512x256.size a := by
  show i ∈ ((View.whole main_v57_0).slice (win1_9.rect t)).set ↔ _
  rw [View.set_slice_whole, Rect.mem_set_unit]
  exact Iff.rfl
theorem mem_blk1_10 (t : Fin cfg1.N) (i : S256000x256.Idx) :
    i ∈ ((cfg1.win 10).blk t).view.set ↔ ∀ a : Fin 2, win1_10.index t a * S512x256.size a ≤ (i a).val ∧ (i a).val < win1_10.index t a * S512x256.size a + S512x256.size a := by
  show i ∈ ((View.whole main_v57_1).slice (win1_10.rect t)).set ↔ _
  rw [View.set_slice_whole, Rect.mem_set_unit]
  exact Iff.rfl
theorem mem_blk1_11 (t : Fin cfg1.N) (i : S256000x8.Idx) :
    i ∈ ((cfg1.win 11).blk t).view.set ↔ ∀ a : Fin 2, win1_11.index t a * S512x8.size a ≤ (i a).val ∧ (i a).val < win1_11.index t a * S512x8.size a + S512x8.size a := by
  show i ∈ ((View.whole main_v57_2).slice (win1_11.rect t)).set ↔ _
  rw [View.set_slice_whole, Rect.mem_set_unit]
  exact Iff.rfl

/-- The tile of row `r` is `r / 512`. -/
theorem tile_of (r : Nat) (hr : r < 256000) : ∃ t : Fin cfg1.N, t.val * 512 ≤ r ∧ r < t.val * 512 + 512 :=
  ⟨⟨r / 512, by show r / 512 < 500; omega⟩, by show r / 512 * 512 ≤ r ∧ r < r / 512 * 512 + 512; omega⟩

theorem cover1_9 (i : S256000x256.Idx) : ∃ t : Fin cfg1.N, (cfg1.win 9).flush t = true ∧ i ∈ ((cfg1.win 9).blk t).view.set := by
  have h1 : (i 1).val < 256 := (i 1).isLt
  obtain ⟨t, ht⟩ := tile_of (i 0).val (i 0).isLt
  refine ⟨t, flush1_9 t, ?_⟩
  rw [mem_blk1_9]
  have e0 := (idx1_9 t).1
  have e1 := (idx1_9 t).2
  intro a
  match a with
  | ⟨0, _⟩ => show win1_9.index t (0 : Fin 2) * 512 ≤ (i 0).val ∧ (i 0).val < win1_9.index t (0 : Fin 2) * 512 + 512; omega
  | ⟨1, _⟩ => show win1_9.index t (1 : Fin 2) * 256 ≤ (i 1).val ∧ (i 1).val < win1_9.index t (1 : Fin 2) * 256 + 256; omega
theorem cover1_10 (i : S256000x256.Idx) : ∃ t : Fin cfg1.N, (cfg1.win 10).flush t = true ∧ i ∈ ((cfg1.win 10).blk t).view.set := by
  have h1 : (i 1).val < 256 := (i 1).isLt
  obtain ⟨t, ht⟩ := tile_of (i 0).val (i 0).isLt
  refine ⟨t, flush1_10 t, ?_⟩
  rw [mem_blk1_10]
  have e0 := (idx1_10 t).1
  have e1 := (idx1_10 t).2
  intro a
  match a with
  | ⟨0, _⟩ => show win1_10.index t (0 : Fin 2) * 512 ≤ (i 0).val ∧ (i 0).val < win1_10.index t (0 : Fin 2) * 512 + 512; omega
  | ⟨1, _⟩ => show win1_10.index t (1 : Fin 2) * 256 ≤ (i 1).val ∧ (i 1).val < win1_10.index t (1 : Fin 2) * 256 + 256; omega
theorem cover1_11 (i : S256000x8.Idx) : ∃ t : Fin cfg1.N, (cfg1.win 11).flush t = true ∧ i ∈ ((cfg1.win 11).blk t).view.set := by
  have h1 : (i 1).val < 8 := (i 1).isLt
  obtain ⟨t, ht⟩ := tile_of (i 0).val (i 0).isLt
  refine ⟨t, flush1_11 t, ?_⟩
  rw [mem_blk1_11]
  have e0 := (idx1_11 t).1
  have e1 := (idx1_11 t).2
  intro a
  match a with
  | ⟨0, _⟩ => show win1_11.index t (0 : Fin 2) * 512 ≤ (i 0).val ∧ (i 0).val < win1_11.index t (0 : Fin 2) * 512 + 512; omega
  | ⟨1, _⟩ => show win1_11.index t (1 : Fin 2) * 8 ≤ (i 1).val ∧ (i 1).val < win1_11.index t (1 : Fin 2) * 8 + 8; omega

/-! ## The three output arrays after the run -/

/-- The score array: edge `e`, column `j`. -/
theorem region1_score (c : Dev nD) (e : Fin 256000) (j : Fin 256) :
    (dat1 V c).arrAt 9 cfg1.N (ix2 e j) = sc1 V c e j :=
  congrFun ((dat1 V c).arrAt_eq_of_cover 9 (G9 V c) (fun t _ => flushed1_9_eq V c t) cover1_9) (ix2 e j)

/-- The head-weight array: edge `e`, head `h`. -/
theorem region1_headw (c : Dev nD) (e : Fin 256000) (h : Fin 8) :
    (dat1 V c).arrAt 11 cfg1.N (ix2 e h) = hw1 V c e h :=
  congrFun ((dat1 V c).arrAt_eq_of_cover 11 (G11 V c) (fun t _ => flushed1_11_eq V c t) cover1_11) (ix2 e h)

/-- The weighted-value array: edge `e`, column `j`. -/
theorem region1_wval (c : Dev nD) (e : Fin 256000) (j : Fin 256) :
    (dat1 V c).arrAt 10 cfg1.N (ix2 e j) = wv1 V c e j :=
  congrFun ((dat1 V c).arrAt_eq_of_cover 10 (G10 V c) (fun t _ => flushed1_10_eq V c t) cover1_10) (ix2 e j)

end Cert.KernelIdeal.Hand

end
-- ==== Proof.LibTiles.lean ====
/-
  Concatenations whose pieces are an explicit list of vectors of ONE shape, read at an index: the piece is named by the
  axis coordinate divided by the pieces' common extent, the position inside it by the remainder. And the case where the
  pieces are tiles of equal width cut from one matrix at a list of column offsets: the concatenation read at row `r`,
  column `k·T + b` is the matrix at row `r`, column `offs[k] + b`.
-/
import Idealize.ShloMosaic.Lib.Pipeline.Value

namespace Idealize.ShloMosaic

/-- A list mapped through `g` is the list, by position, of `g` of its entries. -/
theorem map_eq_ofFn_get {β γ : Type _} (g : β → γ) (vs : List β) :
    vs.map g = List.ofFn fun n : Fin vs.length => g (vs.get n) := by
  apply List.ext_get
  · simp
  · intro k h₁ h₂
    simp

/-- A concatenation of an explicit list `vs` of vectors OF ONE SHAPE `s₁`, whose extent along the axis is `K`, read at an
    index `j`: entry `(j a) / K` of the list, at the index `i` that has `(j a) % K` on the axis and `j`'s coordinates elsewhere. -/
theorem concatenate_map_apply {α : Type} {t s₁ : Shape} (a : Fin t.rank) (vs : List (s₁.Idx → α))
    (h : Shape.Concatenates ((vs.map fun v => (⟨s₁, v⟩ : (s : Shape) × (s.Idx → α))).map (·.1)) t a)
    (hr : s₁.rank = t.rank) (K : Nat) (hK : s₁.size (a.cast hr.symm) = K) (j : t.Idx) (n : Fin vs.length)
    (hn : (j a).val / K = n.val) (i : s₁.Idx) (hia : (i (a.cast hr.symm)).val = (j a).val % K)
    (hi : ∀ b : Fin s₁.rank, b.cast hr ≠ a → (i b).val = (j (b.cast hr)).val) :
    concatenate t a (vs.map fun v => (⟨s₁, v⟩ : (s : Shape) × (s.Idx → α))) h j = vs.get n i := by
  -- the statement for any list equal to the by-position listing of `vs`, where the library's lemma applies as it stands
  have key : ∀ (xs : List ((s : Shape) × (s.Idx → α)))
      (e : xs = List.ofFn fun n : Fin vs.length => (⟨s₁, vs.get n⟩ : (s : Shape) × (s.Idx → α)))
      (hx : Shape.Concatenates (xs.map (·.1)) t a), concatenate t a xs hx j = vs.get n i := by
    intro xs e hx
    subst e
    exact concatenate_ofFn_apply a (fun n => vs.get n) hx hr K hK j n hn i hia hi
  exact key _ (map_eq_ofFn_get (fun v => (⟨s₁, v⟩ : (s : Shape) × (s.Idx → α))) vs) h

/-- A window of `T` columns, all rows, starting at column `off`, lies inside an `R × C` matrix when `off + T ≤ C`. -/
theorem slices_cols {R C T off : Nat} (h : off + T ≤ C) :
    (⟨2, ![R, C]⟩ : Shape).Slices ![0, off] ⟨2, ![R, T]⟩ :=
  ⟨rfl, fun (a : Fin 2) => match a with
    | ⟨0, _⟩ => Nat.le_of_eq (Nat.zero_add R)
    | ⟨1, _⟩ => h⟩

/-- The tiles of width `T` of the matrix `A` at the column offsets `offs`, in the list's order. -/
def colTiles {α : Type} {R C : Nat} (T : Nat) (A : (⟨2, ![R, C]⟩ : Shape).Idx → α) (offs : List Nat)
    (hoffs : ∀ off ∈ offs, off + T ≤ C) : List ((⟨2, ![R, T]⟩ : Shape).Idx → α) :=
  offs.pmap (fun off hoff => extractStridedSlice ⟨2, ![R, T]⟩ ![0, off] A (slices_cols hoff)) hoffs

theorem length_colTiles {α : Type} {R C : Nat} (T : Nat) (A : (⟨2, ![R, C]⟩ : Shape).Idx → α) (offs : List Nat)
    (hoffs : ∀ off ∈ offs, off + T ≤ C) : (colTiles T A offs hoffs).length = offs.length := by
  simp [colTiles]

/-- Tile `k` read at `i` is the matrix at `i`'s row and column `offs[k]` further right. -/
theorem colTiles_get_apply {α : Type} {R C : Nat} (T : Nat) (A : (⟨2, ![R, C]⟩ : Shape).Idx → α) (offs : List Nat)
    (hoffs : ∀ off ∈ offs, off + T ≤ C) (n : Fin (colTiles T A offs hoffs).length) (k : Fin offs.length) (hnk : n.val = k.val)
    (i : (⟨2, ![R, T]⟩ : Shape).Idx) (x : (⟨2, ![R, C]⟩ : Shape).Idx)
    (hx0 : (x 0).val = (i 0).val) (hx1 : (x 1).val = offs.get k + (i 1).val) :
    (colTiles T A offs hoffs).get n i = A x := by
  have hk : n.val < offs.length := hnk ▸ k.isLt
  have e : (colTiles T A offs hoffs).get n
      = extractStridedSlice ⟨2, ![R, T]⟩ ![0, offs[n.val]] A (slices_cols (hoffs _ (List.getElem_mem hk))) :=
    List.get_eq_getElem.trans
      (List.getElem_pmap (fun off hoff => extractStridedSlice ⟨2, ![R, T]⟩ ![0, off] A (slices_cols hoff)) hoffs n.isLt)
  rw [e]
  refine extractStridedSlice_apply _ A _ i x fun (b : Fin 2) => ?_
  match b with
  | ⟨0, _⟩ => exact hx0.trans (Nat.zero_add _).symm
  | ⟨1, _⟩ =>
    have hcol : offs.get k = offs[n.val] := by simp only [List.get_eq_getElem, hnk]
    show (x 1).val = offs[n.val] + (i 1).val
    exact hx1.trans (congrArg (· + (i 1).val) hcol)

/-- The tiles of width `T > 0` of `A` at the offsets `offs`, concatenated along the columns (axis `1`), read at `j`: with
    `k = (column of j) / T`, the matrix at `j`'s row and column `offs[k] + (column of j) % T`. -/
theorem concatenate_colTiles_apply {α : Type} {R C T : Nat} (hT : 0 < T) (A : (⟨2, ![R, C]⟩ : Shape).Idx → α)
    (offs : List Nat) (hoffs : ∀ off ∈ offs, off + T ≤ C) {t : Shape} (a : Fin t.rank)
    (h : Shape.Concatenates (((colTiles T A offs hoffs).map fun v => (⟨⟨2, ![R, T]⟩, v⟩ : (s : Shape) × (s.Idx → α))).map (·.1)) t a)
    (hr : (⟨2, ![R, T]⟩ : Shape).rank = t.rank) (ha : a = (1 : Fin 2).cast hr)
    (j : t.Idx) (k : Fin offs.length) (hk : (j a).val / T = k.val)
    (x : (⟨2, ![R, C]⟩ : Shape).Idx) (hx0 : (x 0).val = (j ((0 : Fin 2).cast hr)).val)
    (hx1 : (x 1).val = offs.get k + (j a).val % T) :
    concatenate t a ((colTiles T A offs hoffs).map fun v => (⟨⟨2, ![R, T]⟩, v⟩ : (s : Shape) × (s.Idx → α))) h j = A x := by
  subst ha
  -- the position inside the tile: `j`'s row, the column's remainder
  let i : (⟨2, ![R, T]⟩ : Shape).Idx := fun (b : Fin 2) => match b with
    | ⟨0, _⟩ => ⟨(x 0).val, (x 0).isLt⟩
    | ⟨1, _⟩ => ⟨(j ((1 : Fin 2).cast hr)).val % T, Nat.mod_lt _ hT⟩
  let n : Fin (colTiles T A offs hoffs).length := k.cast (length_colTiles T A offs hoffs).symm
  have h1 := concatenate_map_apply ((1 : Fin 2).cast hr) (colTiles T A offs hoffs) h hr T rfl j n hk i rfl
    (fun (b : Fin 2) => match b with
      | ⟨0, _⟩ => fun _ => hx0
      | ⟨1, _⟩ => fun hb => absurd (Fin.ext rfl) hb)
  rw [h1]
  exact colTiles_get_apply T A offs hoffs n k rfl i x rfl hx1

end Idealize.ShloMosaic
-- ==== Proof.LibRowGather.lean ====
/-
  A gather of whole rows out of a table, one start index per result row, read at an index.

  The table has N rows; a row is either a vector of C entries or an A x B block. The start indices are an M x 1 array of
  words. Result row q is the table row named by word (q, 0), read as a signed integer and clamped into [0, N - 1]: a
  negative word names row 0, a word of N or more names row N - 1. Inside the row nothing moves: entry j of result row q
  is entry j of that table row, and entry (a, b) of result block q is entry (a, b) of that table block.

  Why. The operand index of a gather is, on each table axis, the clamped start plus a batching coordinate plus an offset
  coordinate. There is no batching axis, so the middle term is 0 on every axis. The row axis is the one axis in the
  start index map, so its start is the word clamped to N - 1 (the slice is one row tall), and it is collapsed, so it
  has no offset coordinate. Every other axis is outside the start index map, so its start is 0, and it is an offset
  axis, so its offset coordinate is the result's coordinate on the matching axis.

  Each of the two dimension records below is fixed by its sizes together with a proof of the gather's conditions on them;
  a record written with literal sizes and the same seven fields is an instance of one of them.
-/
import Idealize.ShloMosaic.Lib.ValueIdx
import proofs.«409030_j11063835754631_4_alg».proof.Proof.LibRows

noncomputable section

namespace Cert.LibRowGather

open Idealize.ShloMosaic Idealize.ShloMosaic.ValueIdx

/-- A gather of M rows of C columns out of a table of N rows, one start index per result row. -/
abbrev rowsGather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

section Rows2

variable {N C M w : Nat} (wf : GatherDims.WF ⟨2, ![N, C]⟩ ⟨2, ![M, 1]⟩ ⟨2, ![M, C]⟩ [1] [0] [] [0] [] 1 ![1, C])
  (idx : IVec ⟨2, ![M, 1]⟩ w) (q : Fin M) (j : Fin C)

/-- Result entry (q, j) reads the one component of its start index at (q, 0). -/
private theorem rows2_siIdx :
    (rowsGather2 N C M wf).siIdx (ix2 q j) ⟨List.idxOf (0 : Fin 2) (rowsGather2 N C M wf).startIndexMap,
      List.idxOf_lt_length_iff.2 (List.mem_singleton.mpr rfl)⟩ = ix2 q 0 := by
  funext b
  refine Fin.ext ?_
  match b with
  | ⟨0, _⟩ => rfl
  | ⟨1, _⟩ => rfl

/-- On the row axis the slice starts at word (q, 0), read signed and clamped to the last row. -/
private theorem rows2_start0 :
    (rowsGather2 N C M wf).start (ix2 q j) idx 0 = min (idx (ix2 q 0)).toInt.toNat (N - 1) := by
  unfold GatherDims.start
  rw [dif_pos (show (0 : Fin 2) ∈ (rowsGather2 N C M wf).startIndexMap from List.mem_singleton.mpr rfl),
    rows2_siIdx wf q j]
  rfl

/-- The column axis is outside the start index map: its slice starts at 0. -/
private theorem rows2_start1 : (rowsGather2 N C M wf).start (ix2 q j) idx 1 = 0 := by
  unfold GatherDims.start
  rw [dif_neg (show (1 : Fin 2) ∉ ([0] : List (Fin 2)) by decide)]

/-- The row axis is collapsed: it has no offset coordinate. -/
private theorem rows2_off0 : (rowsGather2 N C M wf).offCoord (ix2 q j) 0 = 0 :=
  GatherDims.offCoord_eq_zero _ _ _ (fun h => ((GatherDims.mem_sKept _ _).mp h).1 (List.mem_singleton.mpr rfl))

/-- The column axis is the one offset axis: its offset coordinate is the result's column. -/
private theorem rows2_off1 : (rowsGather2 N C M wf).offCoord (ix2 q j) 1 = j.val := by
  unfold GatherDims.offCoord
  rw [dif_pos ((GatherDims.mem_sKept _ _).mpr ⟨(show (1 : Fin 2) ∉ ([0] : List (Fin 2)) by decide), List.not_mem_nil⟩)]
  rfl

end Rows2

/-- THE ROW GATHER READ AT (q, j): column j of the table row that word (q, 0) names. -/
theorem gather_rows2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (q : Fin M) (j : Fin C) :
    Host.gather (rowsGather2 N C M wf) x idx (ix2 q j) = x (ix2 (Cert.LibRows.rowClamp N hN (idx (ix2 q 0))) j) := by
  unfold Host.gather
  congr 1
  funext e
  refine Fin.ext ?_
  match e with
  | ⟨0, _⟩ =>
    show (rowsGather2 N C M wf).start (ix2 q j) idx 0 + (rowsGather2 N C M wf).batchCoord (ix2 q j) 0
      + (rowsGather2 N C M wf).offCoord (ix2 q j) 0 = min (idx (ix2 q 0)).toInt.toNat (N - 1)
    rw [rows2_start0 wf idx q j, GatherDims.batchCoord_eq_zero _ _ _ List.not_mem_nil, rows2_off0 wf q j]
    simp only [Nat.add_zero]
  | ⟨1, _⟩ =>
    show (rowsGather2 N C M wf).start (ix2 q j) idx 1 + (rowsGather2 N C M wf).batchCoord (ix2 q j) 1
      + (rowsGather2 N C M wf).offCoord (ix2 q j) 1 = j.val
    rw [rows2_start1 wf idx q j, GatherDims.batchCoord_eq_zero _ _ _ List.not_mem_nil, rows2_off1 wf q j]
    simp only [Nat.add_zero, Nat.zero_add]

/-- A gather of M blocks of A x B entries out of a table of N blocks, one start index per result block. -/
abbrev rowsGather2of3 (N A B M : Nat)
    (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

section Rows3

variable {N A B M w : Nat}
  (wf : GatherDims.WF ⟨3, ![N, A, B]⟩ ⟨2, ![M, 1]⟩ ⟨3, ![M, A, B]⟩ [1, 2] [0] [] [0] [] 1 ![1, A, B])
  (idx : IVec ⟨2, ![M, 1]⟩ w) (q : Fin M) (a : Fin A) (b : Fin B)

/-- Result entry (q, a, b) reads the one component of its start index at (q, 0). -/
private theorem rows3_siIdx :
    (rowsGather2of3 N A B M wf).siIdx (ix3 q a b) ⟨List.idxOf (0 : Fin 3) (rowsGather2of3 N A B M wf).startIndexMap,
      List.idxOf_lt_length_iff.2 (List.mem_singleton.mpr rfl)⟩ = ix2 q 0 := by
  funext c
  refine Fin.ext ?_
  match c with
  | ⟨0, _⟩ => rfl
  | ⟨1, _⟩ => rfl

/-- On the block axis the slice starts at word (q, 0), read signed and clamped to the last block. -/
private theorem rows3_start0 :
    (rowsGather2of3 N A B M wf).start (ix3 q a b) idx 0 = min (idx (ix2 q 0)).toInt.toNat (N - 1) := by
  unfold GatherDims.start
  rw [dif_pos (show (0 : Fin 3) ∈ (rowsGather2of3 N A B M wf).startIndexMap from List.mem_singleton.mpr rfl),
    rows3_siIdx wf q a b]
  rfl

/-- The two axes inside a block are outside the start index map: their slices start at 0. -/
private theorem rows3_start1 : (rowsGather2of3 N A B M wf).start (ix3 q a b) idx 1 = 0 := by
  unfold GatherDims.start
  rw [dif_neg (show (1 : Fin 3) ∉ ([0] : List (Fin 3)) by decide)]

private theorem rows3_start2 : (rowsGather2of3 N A B M wf).start (ix3 q a b) idx 2 = 0 := by
  unfold GatherDims.start
  rw [dif_neg (show (2 : Fin 3) ∉ ([0] : List (Fin 3)) by decide)]

/-- The block axis is collapsed: it has no offset coordinate. -/
private theorem rows3_off0 : (rowsGather2of3 N A B M wf).offCoord (ix3 q a b) 0 = 0 :=
  GatherDims.offCoord_eq_zero _ _ _ (fun h => ((GatherDims.mem_sKept _ _).mp h).1 (List.mem_singleton.mpr rfl))

/-- The first axis inside a block is the first offset axis: its offset coordinate is the result's a. -/
private theorem rows3_off1 : (rowsGather2of3 N A B M wf).offCoord (ix3 q a b) 1 = a.val := by
  unfold GatherDims.offCoord
  rw [dif_pos ((GatherDims.mem_sKept _ _).mpr ⟨(show (1 : Fin 3) ∉ ([0] : List (Fin 3)) by decide), List.not_mem_nil⟩)]
  rfl

/-- The second axis inside a block is the second offset axis: its offset coordinate is the result's b. -/
private theorem rows3_off2 : (rowsGather2of3 N A B M wf).offCoord (ix3 q a b) 2 = b.val := by
  unfold GatherDims.offCoord
  rw [dif_pos ((GatherDims.mem_sKept _ _).mpr ⟨(show (2 : Fin 3) ∉ ([0] : List (Fin 3)) by decide), List.not_mem_nil⟩)]
  rfl

end Rows3

/-- THE BLOCK GATHER READ AT (q, a, b): entry (a, b) of the table block that word (q, 0) names. -/
theorem gather_rows2of3_apply {α : Type} {N A B M w : Nat} (hN : 0 < N)
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ w) (q : Fin M) (a : Fin A) (b : Fin B) :
    Host.gather (rowsGather2of3 N A B M wf) x idx (ix3 q a b)
      = x (ix3 (Cert.LibRows.rowClamp N hN (idx (ix2 q 0))) a b) := by
  unfold Host.gather
  congr 1
  funext e
  refine Fin.ext ?_
  match e with
  | ⟨0, _⟩ =>
    show (rowsGather2of3 N A B M wf).start (ix3 q a b) idx 0 + (rowsGather2of3 N A B M wf).batchCoord (ix3 q a b) 0
      + (rowsGather2of3 N A B M wf).offCoord (ix3 q a b) 0 = min (idx (ix2 q 0)).toInt.toNat (N - 1)
    rw [rows3_start0 wf idx q a b, GatherDims.batchCoord_eq_zero _ _ _ List.not_mem_nil, rows3_off0 wf q a b]
    simp only [Nat.add_zero]
  | ⟨1, _⟩ =>
    show (rowsGather2of3 N A B M wf).start (ix3 q a b) idx 1 + (rowsGather2of3 N A B M wf).batchCoord (ix3 q a b) 1
      + (rowsGather2of3 N A B M wf).offCoord (ix3 q a b) 1 = a.val
    rw [rows3_start1 wf idx q a b, GatherDims.batchCoord_eq_zero _ _ _ List.not_mem_nil, rows3_off1 wf q a b]
    simp only [Nat.add_zero, Nat.zero_add]
  | ⟨2, _⟩ =>
    show (rowsGather2of3 N A B M wf).start (ix3 q a b) idx 2 + (rowsGather2of3 N A B M wf).batchCoord (ix3 q a b) 2
      + (rowsGather2of3 N A B M wf).offCoord (ix3 q a b) 2 = b.val
    rw [rows3_start2 wf idx q a b, GatherDims.batchCoord_eq_zero _ _ _ List.not_mem_nil, rows3_off2 wf q a b]
    simp only [Nat.add_zero, Nat.zero_add]

end Cert.LibRowGather

end
-- ==== Proof.KI.HostA.lean ====
/-
  What the host-written buffers read by the two calls hold at the calls' entries, as functions of the argument arrays:
  the three 256 x 256 weights joined along the columns, the two row slices of the 257-row edge weight, and the three
  gathers of projected rows, one per edge, at the edge's normalised and clamped row or column node.
-/
import proofs.«409030_j11063835754631_4_alg».proof.Proof.KI.Run
import proofs.«409030_j11063835754631_4_alg».proof.Proof.LibTiles
import proofs.«409030_j11063835754631_4_alg».proof.Proof.LibRowGather
import proofs.«409030_j11063835754631_4_alg».proof.Proof.LibRows
import proofs.«409030_j11063835754631_4_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-! ## Buffers no stretch has written yet -/

/-- A buffer the first two stretches do not write holds its launch contents after them. -/
theorem W2_of (r : Ref sig .tc) (h0 : r ∉ hostOps0_W) (h1 : r ∉ hostOps0_1_W) :
    W2 m c (Proc.devRef .tc r) = m ((c : Thread nD τ).loc r) :=
  calc W2 m c (Proc.devRef .tc r)
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-- A buffer none of the first three stretches writes holds its launch contents at the projection's entry. -/
theorem W3_of (r : Ref sig .tc) (h0 : r ∉ hostOps0_W) (h1 : r ∉ hostOps0_1_W) (h2 : r ∉ hostOps0_2_W) :
    W3 m c (Proc.devRef .tc r) = m ((c : Thread nD τ).loc r) :=
  (StableHlo.after_of_writes_sub hostOps0_2 _ hostOps0_2_writes h2).trans (W2_of m c r h0 h1)

/-- … and at the projection's exit, when it is none of the projection's arrays either. -/
theorem W4_of (r : Ref sig .tc) (h0 : r ∉ hostOps0_W) (h1 : r ∉ hostOps0_1_W) (h2 : r ∉ hostOps0_2_W)
    (h3 : ∀ w, Pipeline.arrRef spec0 w ≠ r) : W4 m c (Proc.devRef .tc r) = m ((c : Thread nD τ).loc r) :=
  (W4_of_ne m c r h3).trans (W3_of m c r h0 h1 h2)

/-- A buffer the fifth and sixth stretches do not write enters the per-edge call as the fourth stretch left it. -/
theorem W7_of_W5 (r : Ref sig .tc) (h5 : r ∉ hostOps1_1_W) (h6 : r ∉ hostOps1_2_W) :
    W7 m c (Proc.devRef .tc r) = W5 m c (Proc.devRef .tc r) :=
  (StableHlo.after_of_writes_sub hostOps1_2 _ hostOps1_2_writes h6).trans
    (StableHlo.after_of_writes_sub hostOps1_1 _ hostOps1_1_writes h5)

/-- A buffer none of the three stretches between the calls writes enters the per-edge call as the projection left it. -/
theorem W7_of_W4 (r : Ref sig .tc) (h4 : r ∉ hostOps1_W) (h5 : r ∉ hostOps1_1_W) (h6 : r ∉ hostOps1_2_W) :
    W7 m c (Proc.devRef .tc r) = W4 m c (Proc.devRef .tc r) :=
  (W7_of_W5 m c r h5 h6).trans (StableHlo.after_of_writes_sub hostOps1 _ hostOps1_writes h4)

/-! ## The projection's entry -/

/-- The node features enter the projection as launched. -/
theorem W3_main_arg0 : W3 m c (Proc.devRef .tc main_arg0) = m ((c : Thread nD τ).loc main_arg0) :=
  W3_of m c main_arg0 (by decide) (by decide) (by decide)

/-- Three 256 x 256 blocks joined along the columns, read at row k and column 256 n + j: block n at (k, j). -/
theorem cat3_read {α : Type} (A0 A1 A2 : S256x256.Idx → α)
    (h : Shape.Concatenates [S256x256, S256x256, S256x256] S256x768 1) (k : Fin 256) (q : Fin 768) (n : Nat) (hn : n < 3)
    (j : Fin 256) (hq : q.val = 256 * n + j.val) :
    concatenate S256x768 1 [⟨S256x256, A0⟩, ⟨S256x256, A1⟩, ⟨S256x256, A2⟩] h (ix2 k q) = [A0, A1, A2].get ⟨n, hn⟩ (ix2 k j) :=
  concatenate_map_apply (t := S256x768) (s₁ := S256x256) (1 : Fin 2) [A0, A1, A2] h rfl 256 rfl (ix2 k q) ⟨n, hn⟩
    (by have := j.isLt; show q.val / 256 = n; omega) (ix2 k j)
    (by have := j.isLt; show j.val = q.val % 256; omega)
    (fun (b : Fin 2) => match b with
      | ⟨0, _⟩ => fun _ => rfl
      | ⟨1, _⟩ => fun hb => absurd (Fin.ext rfl) hb)

/-- The joined block with each operand's contents at its own reference. -/
theorem cat_of_vals (G : Valuation τ sig (Elt Ideal)) :
    (fun u : (k : Fin 3) → ((![main_arg4, main_arg5, main_arg6] : Fin 3 → Ref sig .tc) k).ty.Contents (Elt Ideal) =>
        concatenate S256x768 1 [⟨S256x256, u 0⟩, ⟨S256x256, u 1⟩, ⟨S256x256, u 2⟩] concatenates_S256x256_S256x256_S256x256_S256x768_d1)
      (fun k => G (Proc.devRef .tc ((![main_arg4, main_arg5, main_arg6] : Fin 3 → Ref sig .tc) k)))
      = concatenate S256x768 1 [⟨S256x256, G (Proc.devRef .tc main_arg4)⟩, ⟨S256x256, G (Proc.devRef .tc main_arg5)⟩,
          ⟨S256x256, G (Proc.devRef .tc main_arg6)⟩] concatenates_S256x256_S256x256_S256x256_S256x768_d1 := rfl

/-- The weight block the projection reads is the three weights side by side. -/
theorem W3_main_v22 :
    W3 m c (Proc.devRef .tc main_v22)
      = (concatenate S256x768 1 [⟨S256x256, m ((c : Thread nD τ).loc main_arg4)⟩, ⟨S256x256, m ((c : Thread nD τ).loc main_arg5)⟩,
          ⟨S256x256, m ((c : Thread nD τ).loc main_arg6)⟩] concatenates_S256x256_S256x256_S256x256_S256x768_d1
          : (⟨S256x768, .f32⟩ : BufTy).Contents (Elt Ideal)) := by
  show StableHlo.after hostOps0_2 (W2 m c) (Proc.devRef .tc main_v22) = _
  after_results
  refine (cat_of_vals _).trans ?_
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  all_goals rfl

theorem W3_main_v22_q (k j : Fin 256) :
    (W3 m c (Proc.devRef .tc main_v22) : (⟨S256x768, .f32⟩ : BufTy).Contents (Elt Ideal)) (ix2 k ⟨j.val, by omega⟩)
      = (m ((c : Thread nD τ).loc main_arg4) : (⟨S256x256, .f32⟩ : BufTy).Contents (Elt Ideal)) (ix2 k j) := by
  rw [W3_main_v22]
  exact cat3_read _ _ _ _ k _ 0 (by decide) j (by show j.val = 256 * 0 + j.val; omega)

theorem W3_main_v22_k (k j : Fin 256) :
    (W3 m c (Proc.devRef .tc main_v22) : (⟨S256x768, .f32⟩ : BufTy).Contents (Elt Ideal)) (ix2 k ⟨256 + j.val, by omega⟩)
      = (m ((c : Thread nD τ).loc main_arg5) : (⟨S256x256, .f32⟩ : BufTy).Contents (Elt Ideal)) (ix2 k j) := by
  rw [W3_main_v22]
  exact cat3_read _ _ _ _ k _ 1 (by decide) j (by show 256 + j.val = 256 * 1 + j.val; omega)

theorem W3_main_v22_v (k j : Fin 256) :
    (W3 m c (Proc.devRef .tc main_v22) : (⟨S256x768, .f32⟩ : BufTy).Contents (Elt Ideal)) (ix2 k ⟨512 + j.val, by omega⟩)
      = (m ((c : Thread nD τ).loc main_arg6) : (⟨S256x256, .f32⟩ : BufTy).Contents (Elt Ideal)) (ix2 k j) := by
  rw [W3_main_v22]
  exact cat3_read _ _ _ _ k _ 2 (by decide) j (by show 512 + j.val = 256 * 2 + j.val; omega)

/-! ## The per-edge call's entry: the edge features and the two slices of the edge weight -/

/-- The edge features enter the per-edge call as launched. -/
theorem W7_main_arg1 : W7 m c (Proc.devRef .tc main_arg1) = m ((c : Thread nD τ).loc main_arg1) :=
  (W7_of_W4 m c main_arg1 (by decide) (by decide) (by decide)).trans
    (W4_of m c main_arg1 (by decide) (by decide) (by decide) (by decide))

theorem W5_main_v45 :
    W5 m c (Proc.devRef .tc main_v45)
      = (extractStridedSlice S256x256 ![0, 0] (m ((c : Thread nD τ).loc main_arg7)) slices_S257x256_S256x256_0_0
          : (⟨S256x256, .f32⟩ : BufTy).Contents (Elt Ideal)) := by
  rw [← W4_of m c main_arg7 (by decide) (by decide) (by decide) (by decide)]
  show StableHlo.after hostOps1 (W4 m c) (Proc.devRef .tc main_v45) = _
  after_results <;> rfl

theorem W5_main_v46 :
    W5 m c (Proc.devRef .tc main_v46)
      = (extractStridedSlice S1x256 ![256, 0] (m ((c : Thread nD τ).loc main_arg7)) slices_S257x256_S1x256_256_0
          : (⟨S1x256, .f32⟩ : BufTy).Contents (Elt Ideal)) := by
  rw [← W4_of m c main_arg7 (by decide) (by decide) (by decide) (by decide)]
  show StableHlo.after hostOps1 (W4 m c) (Proc.devRef .tc main_v46) = _
  after_results <;> rfl

/-- The first 256 rows of the edge weight. -/
theorem W7_main_v45 (k j : Fin 256) :
    (W7 m c (Proc.devRef .tc main_v45) : (⟨S256x256, .f32⟩ : BufTy).Contents (Elt Ideal)) (ix2 k j)
      = (m ((c : Thread nD τ).loc main_arg7) : (⟨S257x256, .f32⟩ : BufTy).Contents (Elt Ideal)) (ix2 k.castSucc j) := by
  rw [W7_of_W5 m c main_v45 (by decide) (by decide), W5_main_v45]
  exact extractStridedSlice_apply _ _ _ (ix2 k j) (ix2 k.castSucc j) (fun (a : Fin 2) => match a with
    | ⟨0, _⟩ => (Nat.zero_add _).symm
    | ⟨1, _⟩ => (Nat.zero_add _).symm)

/-- Its last row. -/
theorem W7_main_v46 (j : Fin 256) :
    (W7 m c (Proc.devRef .tc main_v46) : (⟨S1x256, .f32⟩ : BufTy).Contents (Elt Ideal)) (ix2 0 j)
      = (m ((c : Thread nD τ).loc main_arg7) : (⟨S257x256, .f32⟩ : BufTy).Contents (Elt Ideal)) (ix2 (Fin.last 256) j) := by
  rw [W7_of_W5 m c main_v46 (by decide) (by decide), W5_main_v46]
  exact extractStridedSlice_apply _ _ _ (ix2 0 j) (ix2 (Fin.last 256) j) (fun (a : Fin 2) => match a with
    | ⟨0, _⟩ => rfl
    | ⟨1, _⟩ => (Nat.zero_add _).symm)

end Cert.KernelIdeal.Hand

end
-- ==== Proof.KI.HostAGather.lean ====
/-
  The three gathers of projected rows at the per-edge call's entry, as functions of what the projection left and of the
  edge index array: one row per edge, the row of the edge's row node (for k and v) or of its column node (for q), the
  node's index normalised (16000 added to a negative one) and clamped into the table as a gather reads it.
-/
import proofs.«409030_j11063835754631_4_alg».proof.Proof.KI.Run
import Idealize.ShloMosaic.Lib.Pipeline.Value
import proofs.«409030_j11063835754631_4_alg».proof.Proof.LibRowGather
import proofs.«409030_j11063835754631_4_alg».proof.Proof.LibRows
import proofs.«409030_j11063835754631_4_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- A buffer the fifth and sixth stretches do not write enters the per-edge call as the fourth stretch left it. -/
private theorem W7_W5 (r : Ref sig .tc) (h5 : r ∉ hostOps1_1_W) (h6 : r ∉ hostOps1_2_W) :
    W7 m c (Proc.devRef .tc r) = W5 m c (Proc.devRef .tc r) :=
  (StableHlo.after_of_writes_sub hostOps1_2 _ hostOps1_2_writes h6).trans
    (StableHlo.after_of_writes_sub hostOps1_1 _ hostOps1_1_writes h5)

/-! ## The start indices -/

/-- The edge index array. -/
abbrev EI : IVec S2x256000 32 := m ((c : Thread nD τ).loc main_arg2)

/-- The programs' normalisation of a start-index vector — 16000 added where the index is negative — as the [256000, 1]
    array a row gather reads. -/
def nidxArr (v : IVec S256000 32) : IVec S256000x1 32 :=
  broadcastInDim S256000x1 ![0] bcast_S256000_S256000x1_0
    (select (cmpi .slt v (broadcastInDim S256000 ![] bcast_S_S256000 (constantI S_ 32 0#32)))
      (addi v (broadcastInDim S256000 ![] bcast_S_S256000 (constantI S_ 32 16000#32))) v)

/-- On one word: the selection by the sign test is the normalised index. -/
theorem nidx_word (r : BitVec 32) : Scalar.select (IntOp.cmpi .slt r 0#32) (IntOp.addi r 16000#32) r = Spec.nidx r := by
  unfold Scalar.select IntOp.cmpi IntOp.addi Spec.nidx
  cases h : r.slt 0#32 <;> simp [h]

/-- Row e of the index array is the normalised e-th start index. -/
theorem nidxArr_apply (v : IVec S256000 32) (e : Fin 256000) : nidxArr v (ix2 e 0) = Spec.nidx (v (ix1 e)) := by
  unfold nidxArr
  rw [broadcastInDim_apply (![0]) bcast_S256000_S256000x1_0 _ (ix2 e 0) (ix1 e)
    (fun (a : Fin 1) => match a with | ⟨0, _⟩ => (if_neg (show ¬ (256000 : Nat) = 1 by decide)).symm)]
  exact nidx_word (v (ix1 e))

/-- The row nodes' raw indices, as the first stretch leaves them: row 0 of the edge index array. -/
theorem W1_main_v1 :
    W1 m c (Proc.devRef .tc main_v1)
      = (shapeCast S256000 (extractStridedSlice S1x256000 ![0, 0] (EI m c) slices_S2x256000_S1x256000_0_0)
          shapeCasts_S1x256000_S256000 : IVec S256000 32) := by
  show StableHlo.after hostOps0 (W0 m c) (Proc.devRef .tc main_v1) = _
  after_results <;> rfl

/-- The column nodes' raw indices: row 1. -/
theorem W1_main_v3 :
    W1 m c (Proc.devRef .tc main_v3)
      = (shapeCast S256000 (extractStridedSlice S1x256000 ![1, 0] (EI m c) slices_S2x256000_S1x256000_1_0)
          shapeCasts_S1x256000_S256000 : IVec S256000 32) := by
  show StableHlo.after hostOps0 (W0 m c) (Proc.devRef .tc main_v3) = _
  after_results <;> rfl

/-- A row of the [2, 256000] array flattened, read at e. -/
theorem row_read (x : IVec S2x256000 32) (r : Fin 2) (h : S2x256000.Slices ![r.val, 0] S1x256000) (e : Fin 256000) :
    shapeCast S256000 (extractStridedSlice S1x256000 ![r.val, 0] x h) shapeCasts_S1x256000_S256000 (ix1 e) = x (ix2 r e) := by
  rw [shapeCast_apply _ shapeCasts_S1x256000_S256000 (ix1 e) (ix2 0 e)
    (by rw [Shape.rowMajor_val_two, Shape.rowMajor_val_one]; show 0 * 256000 + e.val = e.val; omega)]
  exact extractStridedSlice_apply _ _ _ (ix2 0 e) (ix2 r e) (fun (a : Fin 2) => match a with
    | ⟨0, _⟩ => rfl
    | ⟨1, _⟩ => (Nat.zero_add _).symm)

/-- A buffer the first stretch wrote and nothing since has touched leaves the projection as the first stretch left it. -/
theorem W4_of_W1 (r : Ref sig .tc) (h1 : r ∉ hostOps0_1_W) (h2 : r ∉ hostOps0_2_W) (h3 : ∀ w, Pipeline.arrRef spec0 w ≠ r) :
    W4 m c (Proc.devRef .tc r) = W1 m c (Proc.devRef .tc r) :=
  calc W4 m c (Proc.devRef .tc r)
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1

/-- The raw row indices are still there after the projection. -/
theorem W4_main_v1 (e : Fin 256000) :
    (W4 m c (Proc.devRef .tc main_v1) : IVec S256000 32) (ix1 e) = EI m c (ix2 0 e) := by
  rw [W4_of_W1 m c main_v1 (by decide) (by decide) (by decide), W1_main_v1]
  exact row_read (EI m c) 0 _ e

/-- And the raw column indices. -/
theorem W4_main_v3 (e : Fin 256000) :
    (W4 m c (Proc.devRef .tc main_v3) : IVec S256000 32) (ix1 e) = EI m c (ix2 1 e) := by
  rw [W4_of_W1 m c main_v3 (by decide) (by decide) (by decide), W1_main_v3]
  exact row_read (EI m c) 1 _ e

/-! ## The three row gathers -/

theorem W5_main_v30 :
    W5 m c (Proc.devRef .tc main_v30)
      = (Host.gather gather_S16000x256_S256000x1_S256000x256_1_0_n_n_0_1_1256 (W4 m c (Proc.devRef .tc main_v23_1))
          (nidxArr (W4 m c (Proc.devRef .tc main_v1))) : (⟨S256000x256, .bf16⟩ : BufTy).Contents (Elt Ideal)) := by
  show StableHlo.after hostOps1 (W4 m c) (Proc.devRef .tc main_v30) = _
  after_results <;> rfl

theorem W5_main_v37 :
    W5 m c (Proc.devRef .tc main_v37)
      = (Host.gather gather_S16000x256_S256000x1_S256000x256_1_0_n_n_0_1_1256 (W4 m c (Proc.devRef .tc main_v23_0))
          (nidxArr (W4 m c (Proc.devRef .tc main_v3))) : (⟨S256000x256, .bf16⟩ : BufTy).Contents (Elt Ideal)) := by
  show StableHlo.after hostOps1 (W4 m c) (Proc.devRef .tc main_v37) = _
  after_results <;> rfl

theorem W5_main_v44 :
    W5 m c (Proc.devRef .tc main_v44)
      = (Host.gather gather_S16000x256_S256000x1_S256000x256_1_0_n_n_0_1_1256 (W4 m c (Proc.devRef .tc main_v23_2))
          (nidxArr (W4 m c (Proc.devRef .tc main_v1))) : (⟨S256000x256, .bf16⟩ : BufTy).Contents (Elt Ideal)) := by
  show StableHlo.after hostOps1 (W4 m c) (Proc.devRef .tc main_v44) = _
  after_results <;> rfl

/-- The program's gather record is the gather of whole rows by one start index each. -/
theorem gather_eq : gather_S16000x256_S256000x1_S256000x256_1_0_n_n_0_1_1256
    = LibRowGather.rowsGather2 16000 256 256000 gather_S16000x256_S256000x1_S256000x256_1_0_n_n_0_1_1256_wf := rfl

/-- A row gather by the normalised indices of v, read at (e, j). -/
theorem gather_nidx_apply (x : (⟨S16000x256, .bf16⟩ : BufTy).Contents (Elt Ideal)) (v : IVec S256000 32) (e : Fin 256000) (j : Fin 256) :
    Host.gather gather_S16000x256_S256000x1_S256000x256_1_0_n_n_0_1_1256 x (nidxArr v) (ix2 e j)
      = x (ix2 (LibRows.rowClamp 16000 (by decide) (Spec.nidx (v (ix1 e)))) j) := by
  rw [gather_eq, LibRowGather.gather_rows2_apply (by decide), nidxArr_apply]

/-- The k rows of the edges' row nodes. -/
theorem W7_main_v30 (e : Fin 256000) (j : Fin 256) :
    (W7 m c (Proc.devRef .tc main_v30) : (⟨S256000x256, .bf16⟩ : BufTy).Contents (Elt Ideal)) (ix2 e j)
      = (W4 m c (Proc.devRef .tc main_v23_1) : (⟨S16000x256, .bf16⟩ : BufTy).Contents (Elt Ideal)) (ix2 (Spec.rowOf (EI m c) e) j) := by
  rw [W7_W5 m c main_v30 (by decide) (by decide), W5_main_v30, gather_nidx_apply, W4_main_v1]
  rfl

/-- The q rows of the edges' column nodes. -/
theorem W7_main_v37 (e : Fin 256000) (j : Fin 256) :
    (W7 m c (Proc.devRef .tc main_v37) : (⟨S256000x256, .bf16⟩ : BufTy).Contents (Elt Ideal)) (ix2 e j)
      = (W4 m c (Proc.devRef .tc main_v23_0) : (⟨S16000x256, .bf16⟩ : BufTy).Contents (Elt Ideal)) (ix2 (Spec.colOf (EI m c) e) j) := by
  rw [W7_W5 m c main_v37 (by decide) (by decide), W5_main_v37, gather_nidx_apply, W4_main_v3]
  rfl

/-- The v rows of the edges' row nodes. -/
theorem W7_main_v44 (e : Fin 256000) (j : Fin 256) :
    (W7 m c (Proc.devRef .tc main_v44) : (⟨S256000x256, .bf16⟩ : BufTy).Contents (Elt Ideal)) (ix2 e j)
      = (W4 m c (Proc.devRef .tc main_v23_2) : (⟨S16000x256, .bf16⟩ : BufTy).Contents (Elt Ideal)) (ix2 (Spec.rowOf (EI m c) e) j) := by
  rw [W7_W5 m c main_v44 (by decide) (by decide), W5_main_v44, gather_nidx_apply, W4_main_v1]
  rfl

end Cert.KernelIdeal.Hand

end
-- ==== Proof.KI.HostB.lean ====
/-
  The two head selectors of the per-edge call, read at an index.

  The 256 columns come in 8 heads of 32. Before the per-edge call the host program builds a 256 x 8 array of floats: the
  column counter 0 … 255, floor-divided by 32, is compared for equality with the head counter 0 … 7, and the truth value
  is converted to a float; a second array is its transpose. Neither depends on an input. Read back through the three
  stretches of host operations that build them, entry (j, h) of the first and entry (h, j) of the second are 1 where the
  quotient of j by 32 is h, and 0 elsewhere.

  The floor division is seventeen operations on 32-bit words (the quotient rounded toward zero, less one where the signs
  of dividend and divisor differ and the remainder is not zero); for the 256 x 8 pairs of a column and a head its
  comparison with the head is a closed statement over words, settled by computing every case.
-/
import proofs.«409030_j11063835754631_4_alg».proof.Proof.KI.Run
import proofs.«409030_j11063835754631_4_alg».proof.Proof.LibRowGather
import proofs.«409030_j11063835754631_4_alg».proof.Proof.LibRows
import proofs.«409030_j11063835754631_4_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.ValueIdx
open Idealize.ShloMosaic.TcCoe Idealize.ShloMosaic.StableHlo

variable (m : (ℓ : Loc nD τ sig) → Buf (Elt Ideal) ℓ) (c : Dev nD)

/-! ## The host stretches before the per-edge call, over any entry contents -/

section General
variable (V : Valuation τ sig (Elt Ideal))

/-- The head selector after the last stretch before the per-edge call. -/
abbrev r55 : FVec Ideal S256x8 .f32 := StableHlo.after hostOps1_2 V (Proc.devRef .tc main_v55)
/-- Its transpose. -/
abbrev r56 : FVec Ideal S8x256 .f32 := StableHlo.after hostOps1_2 V (Proc.devRef .tc main_v56)
/-- The floor division's result as that stretch enters. -/
abbrev g48 : IVec S256 32 := V (Proc.devRef .tc main_v48)
/-- The floor division's result after its seventeen operations. -/
abbrev r48 : IVec S256 32 := StableHlo.after hostOps1_1 V (Proc.devRef .tc main_v48)
/-- The column counter and the divisor word as the floor division enters. -/
abbrev g47 : IVec S256 32 := V (Proc.devRef .tc main_v47)
abbrev gc9 : IVec S_ 32 := V (Proc.devRef .tc main_c_9)
/-- The same two after the stretch that writes them. -/
abbrev r47 : IVec S256 32 := StableHlo.after hostOps1 V (Proc.devRef .tc main_v47)
abbrev rc9 : IVec S_ 32 := StableHlo.after hostOps1 V (Proc.devRef .tc main_c_9)

/-- The comparison of the two broadcasts, converted to a float. -/
abbrev selTerm (q : IVec S256 32) : FVec Ideal S256x8 .f32 :=
  uitofp (F := Ideal) .f32 (cmpi .eq
    (broadcastInDim S256x8 ![0, 1] bcast_S256x1_S256x8_0_1 (broadcastInDim S256x1 ![0] bcast_S256_S256x1_0 q))
    (broadcastInDim S256x8 ![0, 1] bcast_S1x8_S256x8_0_1 (broadcastInDim S1x8 ![1] bcast_S8_S1x8_1 (iotaInDim S8 32 0))))

theorem r55_eq : r55 V = selTerm (g48 V) := by
  unfold r55
  after_results

theorem r56_eq : r56 V = transpose S8x256 [1, 0] (selTerm (g48 V)) transposes_S256x8_S8x256_1_0 := by
  unfold r56
  after_results

/-- The floor division by the word the caller passes, as its seventeen operations compute it: the quotient rounded toward
    zero, less one where the signs differ and the remainder is not zero. -/
abbrev fdTerm (x : IVec S256 32) (d : IVec S_ 32) : IVec S256 32 :=
  select (andi (cmpi .ne (signi x) (broadcastInDim S256 ![] bcast_S_S256 (signi (id d))))
               (cmpi .ne (Host.remsi x (broadcastInDim S256 ![] bcast_S_S256 (id d))) (broadcastInDim S256 ![] bcast_S_S256 (constantI S_ 32 0#32))))
    (subi (Host.divsi x (broadcastInDim S256 ![] bcast_S_S256 (id d))) (broadcastInDim S256 ![] bcast_S_S256 (constantI S_ 32 1#32)))
    (Host.divsi x (broadcastInDim S256 ![] bcast_S_S256 (id d)))

theorem r48_eq : r48 V = fdTerm (g47 V) (gc9 V) := by
  unfold r48
  after_results_simp
  simp only [TRef.ofBuf, TRef.toBuf, cast_eq]

theorem r47_eq : r47 V = iotaInDim S256 32 0 := by
  unfold r47
  after_results

theorem rc9_eq : rc9 V = constantI S_ 32 32#32 := by
  unfold rc9
  after_results

end General

/-! ## The words -/

/-- The sign word of a 32-bit word: 0, -1 or 1. -/
def sgn32 (x : BitVec 32) : BitVec 32 := if x = 0 then 0 else if x.msb then -1 else 1

/-- The floor division of one word by 32, operation by operation. -/
def fdw (x : BitVec 32) : BitVec 32 :=
  Scalar.select
    (IntOp.andi (IntOp.cmpi .ne (sgn32 x) (sgn32 32#32)) (IntOp.cmpi .ne (IntOp.remsi .host x 32#32) 0#32))
    (IntOp.subi (IntOp.divsi .host x 32#32) 1#32)
    (IntOp.divsi .host x 32#32)

set_option maxRecDepth 100000 in
/-- For a column below 256 and a head below 8 the floor-divided column equals the head exactly when the column's
    quotient by 32 is the head: a closed statement over 256 x 8 cases, each computed. -/
theorem fd_word : ∀ j : Fin 256, ∀ h : Fin 8,
    IntOp.cmpi .eq (fdw (BitVec.ofNat 32 j.val)) (BitVec.ofNat 32 h.val) = if j.val / 32 = h.val then 1#1 else 0#1 := by
  decide +kernel

/-- A scalar broadcast to the 256 columns reads the scalar. -/
theorem bc_scalar (y : IVec S_ 32) (j : Fin 256) : broadcastInDim S256 ![] bcast_S_S256 y (ix1 j) = y ix0 :=
  broadcastInDim_apply _ bcast_S_S256 y (ix1 j) ix0 (fun a => a.elim0)

/-- The floor division of the column counter by the word 32, at column j. -/
theorem fdTerm_apply (j : Fin 256) :
    fdTerm (iotaInDim S256 32 0) (constantI S_ 32 32#32) (ix1 j) = fdw (BitVec.ofNat 32 j.val) := by
  show Scalar.select
      (IntOp.andi
        (IntOp.cmpi .ne (sgn32 (BitVec.ofNat 32 j.val)) (broadcastInDim S256 ![] bcast_S_S256 (signi (id (constantI S_ 32 32#32))) (ix1 j)))
        (IntOp.cmpi .ne (IntOp.remsi .host (BitVec.ofNat 32 j.val) (broadcastInDim S256 ![] bcast_S_S256 (id (constantI S_ 32 32#32)) (ix1 j)))
          (broadcastInDim S256 ![] bcast_S_S256 (constantI S_ 32 0#32) (ix1 j))))
      (IntOp.subi (IntOp.divsi .host (BitVec.ofNat 32 j.val) (broadcastInDim S256 ![] bcast_S_S256 (id (constantI S_ 32 32#32)) (ix1 j)))
        (broadcastInDim S256 ![] bcast_S_S256 (constantI S_ 32 1#32) (ix1 j)))
      (IntOp.divsi .host (BitVec.ofNat 32 j.val) (broadcastInDim S256 ![] bcast_S_S256 (id (constantI S_ 32 32#32)) (ix1 j))) = _
  rw [bc_scalar, bc_scalar, bc_scalar, bc_scalar]
  rfl

/-- The column-side broadcast pair reads its vector at the column. -/
theorem bc_col (q : IVec S256 32) (j : Fin 256) (h : Fin 8) :
    broadcastInDim S256x8 ![0, 1] bcast_S256x1_S256x8_0_1 (broadcastInDim S256x1 ![0] bcast_S256_S256x1_0 q) (ix2 j h) = q (ix1 j) := by
  rw [broadcastInDim_apply _ bcast_S256x1_S256x8_0_1 _ (ix2 j h) (ix2 j (0 : Fin 1))
        (fun a => match a with | ⟨0, _⟩ => rfl | ⟨1, _⟩ => rfl),
      broadcastInDim_apply _ bcast_S256_S256x1_0 q (ix2 j (0 : Fin 1)) (ix1 j) (fun a => match a with | ⟨0, _⟩ => rfl)]

/-- The head-side broadcast pair reads its vector at the head. -/
theorem bc_head (w : IVec S8 32) (j : Fin 256) (h : Fin 8) :
    broadcastInDim S256x8 ![0, 1] bcast_S1x8_S256x8_0_1 (broadcastInDim S1x8 ![1] bcast_S8_S1x8_1 w) (ix2 j h) = w (ix1 h) := by
  rw [broadcastInDim_apply _ bcast_S1x8_S256x8_0_1 _ (ix2 j h) (ix2 (0 : Fin 1) h)
        (fun a => match a with | ⟨0, _⟩ => rfl | ⟨1, _⟩ => rfl),
      broadcastInDim_apply _ bcast_S8_S1x8_1 w (ix2 (0 : Fin 1) h) (ix1 h) (fun a => match a with | ⟨0, _⟩ => rfl)]

/-- The selector over the floor-divided column counter, at (j, h): 1 where column j lies in head h, else 0. -/
theorem selTerm_apply (j : Fin 256) (h : Fin 8) :
    selTerm (fdTerm (iotaInDim S256 32 0) (constantI S_ 32 32#32)) (ix2 j h) = if j.val / 32 = h.val then (1 : EReal) else 0 := by
  show (((IntOp.cmpi .eq
      (broadcastInDim S256x8 ![0, 1] bcast_S256x1_S256x8_0_1 (broadcastInDim S256x1 ![0] bcast_S256_S256x1_0
        (fdTerm (iotaInDim S256 32 0) (constantI S_ 32 32#32))) (ix2 j h))
      (broadcastInDim S256x8 ![0, 1] bcast_S1x8_S256x8_0_1 (broadcastInDim S1x8 ![1] bcast_S8_S1x8_1 (iotaInDim S8 32 0)) (ix2 j h))).toNat : ℝ) : EReal) = _
  rw [bc_col, bc_head, fdTerm_apply]
  show (((IntOp.cmpi .eq (fdw (BitVec.ofNat 32 j.val)) (BitVec.ofNat 32 h.val)).toNat : ℝ) : EReal) = _
  rw [fd_word j h]
  by_cases hjh : j.val / 32 = h.val
  · rw [if_pos hjh, if_pos hjh]; norm_num
  · rw [if_neg hjh, if_neg hjh]; norm_num

/-! ## The two head selectors as the per-edge call enters them -/

/-- The head selector, columns by heads, at the per-edge call's entry. -/
abbrev a55 : FVec Ideal S256x8 .f32 := W7 m c (Proc.devRef .tc main_v55)
/-- Its transpose, heads by columns. -/
abbrev a56 : FVec Ideal S8x256 .f32 := W7 m c (Proc.devRef .tc main_v56)

/-- The selector is the comparison term over the floor-divided column counter: three stretches read back in turn. -/
theorem a55_eq : a55 m c = selTerm (fdTerm (iotaInDim S256 32 0) (constantI S_ 32 32#32)) := by
  have e1 : a55 m c = r55 (W6 m c) := rfl
  have e2 : g48 (W6 m c) = r48 (W5 m c) := rfl
  have e3 : g47 (W5 m c) = r47 (W4 m c) := rfl
  have e4 : gc9 (W5 m c) = rc9 (W4 m c) := rfl
  rw [e1, r55_eq, e2, r48_eq, e3, e4, r47_eq, rc9_eq]

theorem a56_eq : a56 m c = transpose S8x256 [1, 0] (selTerm (fdTerm (iotaInDim S256 32 0) (constantI S_ 32 32#32))) transposes_S256x8_S8x256_1_0 := by
  have e1 : a56 m c = r56 (W6 m c) := rfl
  have e2 : g48 (W6 m c) = r48 (W5 m c) := rfl
  have e3 : g47 (W5 m c) = r47 (W4 m c) := rfl
  have e4 : gc9 (W5 m c) = rc9 (W4 m c) := rfl
  rw [e1, r56_eq, e2, r48_eq, e3, e4, r47_eq, rc9_eq]

/-- THE HEAD SELECTOR at (j, h): 1 where column j lies in head h (its quotient by 32 is h), else 0. -/
theorem W7_main_v55 (j : Fin 256) (h : Fin 8) :
    a55 m c (ix2 j h) = if j.val / 32 = h.val then (1 : EReal) else 0 := by
  rw [a55_eq]; exact selTerm_apply j h

/-- THE TRANSPOSED SELECTOR at (h, j): the same. -/
theorem W7_main_v56 (h : Fin 8) (j : Fin 256) :
    a56 m c (ix2 h j) = if j.val / 32 = h.val then (1 : EReal) else 0 := by
  rw [a56_eq, transpose_ix2_apply]; exact selTerm_apply j h

end Cert.KernelIdeal.Hand

end
-- ==== Proof.KI.HostBDist.lean ====
/-
  The scaled length of an edge as the per-edge call reads it, at an index.

  Edge e runs from its row node to its column node; the two start indices are rows 0 and 1 of the edge index at column e,
  a negative index counted from the end of the 16000 nodes. The host program gathers the three coordinates of each of the
  two nodes (a start index outside the table is clamped into it), subtracts, squares, sums the three squares from the zero
  word, takes the square root and multiplies by the scale word. Three stretches of host operations do this before the
  projection, and nothing between the projection's entry and the per-edge call's entry writes the result; read back
  through them, entry e is the square root of zero plus the sum over the three axes of the squared coordinate difference,
  times the scale word: the length the specification names.
-/
import proofs.«409030_j11063835754631_4_alg».proof.Proof.KI.Run
import proofs.«409030_j11063835754631_4_alg».proof.Proof.LibRowGather
import proofs.«409030_j11063835754631_4_alg».proof.Proof.LibRows
import proofs.«409030_j11063835754631_4_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.ValueIdx
open Idealize.ShloMosaic.TcCoe Idealize.ShloMosaic.StableHlo

variable (m : (ℓ : Loc nD τ sig) → Buf (Elt Ideal) ℓ) (c : Dev nD)
open scoped BigOperators

/-! ## The host stretches before the projection, over any entry contents -/

section General
variable (V : Valuation τ sig (Elt Ideal))

/-- The scaled edge length after the last stretch before the projection. -/
abbrev r21 : FVec Ideal S256000 .f32 := StableHlo.after hostOps0_2 V (Proc.devRef .tc main_v21)
/-- The edge length as that stretch enters. -/
abbrev g19 : FVec Ideal S256000 .f32 := V (Proc.devRef .tc main_v19)
/-- The edge length after the norm's four operations. -/
abbrev r19 : FVec Ideal S256000 .f32 := StableHlo.after hostOps0_1 V (Proc.devRef .tc main_v19)
/-- The coordinate differences as the norm enters. -/
abbrev g18 : FVec Ideal S256000x3 .f32 := V (Proc.devRef .tc main_v18)
/-- The coordinate differences after the first stretch. -/
abbrev r18 : FVec Ideal S256000x3 .f32 := StableHlo.after hostOps0 V (Proc.devRef .tc main_v18)
/-- The edge index and the coordinates as the first stretch enters. -/
abbrev gA2 : IVec S2x256000 32 := V (Proc.devRef .tc main_arg2)
abbrev gA3 : FVec Ideal S16000x3 .f32 := V (Proc.devRef .tc main_arg3)

theorem r21_eq : r21 V = mulf (g19 V) (broadcastInDim S256000 ![] bcast_S_S256000 (constant (F := Ideal) S_ .f32 0x3DCCCCCD#32)) := by
  unfold r21
  after_results

theorem r19_eq : r19 V = Host.sqrt (Host.reduceAdd (mulf (g18 V) (g18 V)) (constant (F := Ideal) S_ .f32 0x00000000#32)
    reducesTo_S256000x3_S256000_d1 h_S_) := by
  unfold r19
  after_results_simp
  simp only [TRef.ofBuf, TRef.toBuf, cast_eq]

/-- Row o of the edge index as a column of start indices: a negative index moved up by the 16000 rows. -/
abbrev idxTerm (ei : IVec S2x256000 32) (o : Nat) (hs : S2x256000.Slices ![o, 0] S1x256000) : IVec S256000x1 32 :=
  broadcastInDim S256000x1 ![0] bcast_S256000_S256000x1_0
    (select
      (cmpi .slt (shapeCast S256000 (extractStridedSlice S1x256000 ![o, 0] ei hs) shapeCasts_S1x256000_S256000)
        (broadcastInDim S256000 ![] bcast_S_S256000 (constantI S_ 32 0#32)))
      (addi (shapeCast S256000 (extractStridedSlice S1x256000 ![o, 0] ei hs) shapeCasts_S1x256000_S256000)
        (broadcastInDim S256000 ![] bcast_S_S256000 (constantI S_ 32 16000#32)))
      (shapeCast S256000 (extractStridedSlice S1x256000 ![o, 0] ei hs) shapeCasts_S1x256000_S256000))

theorem r18_eq : r18 V = subf
    (Host.gather gather_S16000x3_S256000x1_S256000x3_1_0_n_n_0_1_13 (gA3 V) (idxTerm (gA2 V) 0 slices_S2x256000_S1x256000_0_0))
    (Host.gather gather_S16000x3_S256000x1_S256000x3_1_0_n_n_0_1_13 (gA3 V) (idxTerm (gA2 V) 1 slices_S2x256000_S1x256000_1_0)) := by
  unfold r18
  after_results_simp <;> rfl

end General

/-! ## Read at an index -/

/-- The select between the moved-up and the plain index, on the sign test, is the normalised index. -/
theorem nidx_wordE (r : BitVec 32) :
    Scalar.select (IntOp.cmpi .slt r 0#32) (IntOp.addi r 16000#32) r = Cert.Spec.nidx r := by
  unfold Scalar.select IntOp.cmpi IntOp.addi Cert.Spec.nidx
  cases hb : r.slt 0#32
  · simp [hb]
  · simp [hb]

/-- A scalar broadcast to the 256000 edges reads the scalar. -/
theorem bc_edge (y : IVec S_ 32) (e : Fin 256000) : broadcastInDim S256000 ![] bcast_S_S256000 y (ix1 e) = y ix0 :=
  broadcastInDim_apply _ bcast_S_S256000 y (ix1 e) ix0 (fun a => a.elim0)

/-- The start index of edge e taken from row k of the edge index (k = 0: the row node, k = 1: the column node). -/
theorem idxTerm_apply (ei : IVec S2x256000 32) (o : Nat) (hs : S2x256000.Slices ![o, 0] S1x256000)
    (k : Fin 2) (hk : k.val = o) (e : Fin 256000) :
    idxTerm ei o hs (ix2 e (0 : Fin 1)) = Cert.Spec.nidx (ei (ix2 k e)) := by
  have hv : shapeCast S256000 (extractStridedSlice S1x256000 ![o, 0] ei hs) shapeCasts_S1x256000_S256000 (ix1 e) = ei (ix2 k e) := by
    rw [shapeCast_1a_a_apply, slice2_axis0_apply o ei hs (0 : Fin 1) e k (by rw [hk]; rfl)]
  unfold idxTerm
  rw [broadcastInDim_apply _ bcast_S256000_S256000x1_0 _ (ix2 e (0 : Fin 1)) (ix1 e) (fun a => match a with | ⟨0, _⟩ => rfl)]
  show Scalar.select
      (IntOp.cmpi .slt (shapeCast S256000 (extractStridedSlice S1x256000 ![o, 0] ei hs) shapeCasts_S1x256000_S256000 (ix1 e))
        (broadcastInDim S256000 ![] bcast_S_S256000 (constantI S_ 32 0#32) (ix1 e)))
      (IntOp.addi (shapeCast S256000 (extractStridedSlice S1x256000 ![o, 0] ei hs) shapeCasts_S1x256000_S256000 (ix1 e))
        (broadcastInDim S256000 ![] bcast_S_S256000 (constantI S_ 32 16000#32) (ix1 e)))
      (shapeCast S256000 (extractStridedSlice S1x256000 ![o, 0] ei hs) shapeCasts_S1x256000_S256000 (ix1 e)) = _
  rw [hv, bc_edge, bc_edge]
  exact nidx_wordE _

/-- A gathered coordinate row: row (its start index normalised, then clamped into the table) of the coordinates. -/
theorem gather_apply (co : FVec Ideal S16000x3 .f32) (idx : IVec S256000x1 32) (e : Fin 256000) (a : Fin 3) :
    Host.gather gather_S16000x3_S256000x1_S256000x3_1_0_n_n_0_1_13 co idx (ix2 e a)
      = co (ix2 (Cert.LibRows.rowClamp 16000 (by decide) (idx (ix2 e (0 : Fin 1)))) a) :=
  Cert.LibRowGather.gather_rows2_apply (N := 16000) (C := 3) (M := 256000) (by decide)
    gather_S16000x3_S256000x1_S256000x3_1_0_n_n_0_1_13_wf co idx e a

/-- The sum of a 256000 x 3 array over its second axis from an initial scalar, at edge e. -/
theorem reduce_apply (y : FVec Ideal S256000x3 .f32) (z : FVec Ideal S_ .f32) (e : Fin 256000) :
    Host.reduceAdd y z reducesTo_S256000x3_S256000_d1 h_S_ (ix1 e) = z (Shape.Idx.first h_S_) + ∑ a : Fin 3, y (ix2 e a) := by
  simp only [Host.reduceAdd, Ideal.hostReduceAdd_def]
  rw [Ideal.hostReduceAdd_single reducesTo_S256000x3_S256000_d1 (by decide)]
  refine congrArg (_ + ·) (Finset.sum_congr rfl fun a _ => ?_)
  exact congrArg y (funext fun b => Fin.ext (by match b with | ⟨0, _⟩ => rfl | ⟨1, _⟩ => rfl))

/-! ## The scaled edge length as the per-edge call enters it -/

/-- The scaled edge length at the per-edge call's entry. -/
abbrev a21 : FVec Ideal S256000 .f32 := W7 m c (Proc.devRef .tc main_v21)
/-- The edge index and the node coordinates at launch. -/
abbrev EIe : IVec S2x256000 32 := m ((c : Thread nD τ).loc main_arg2)
abbrev CO : FVec Ideal S16000x3 .f32 := m ((c : Thread nD τ).loc main_arg3)

/-- Nothing between the projection's entry and the per-edge call's entry writes the scaled length. -/
theorem a21_W3 : a21 m c = W3 m c (Proc.devRef .tc main_v21) :=
  calc W7 m c (Proc.devRef .tc main_v21)
    _ = W6 m c (Proc.devRef .tc main_v21) := StableHlo.after_of_writes_sub hostOps1_2 _ hostOps1_2_writes (by decide)
    _ = W5 m c (Proc.devRef .tc main_v21) := StableHlo.after_of_writes_sub hostOps1_1 _ hostOps1_1_writes (by decide)
    _ = W4 m c (Proc.devRef .tc main_v21) := StableHlo.after_of_writes_sub hostOps1 _ hostOps1_writes (by decide)
    _ = W3 m c (Proc.devRef .tc main_v21) := W4_of_ne m c main_v21 (by decide)

/-- The scaled length is the product, square root, sum, difference-of-gathers term of the launch arrays. -/
theorem a21_eq : a21 m c = mulf
    (Host.sqrt (Host.reduceAdd
      (mulf
        (subf (Host.gather gather_S16000x3_S256000x1_S256000x3_1_0_n_n_0_1_13 (CO m c) (idxTerm (EIe m c) 0 slices_S2x256000_S1x256000_0_0))
              (Host.gather gather_S16000x3_S256000x1_S256000x3_1_0_n_n_0_1_13 (CO m c) (idxTerm (EIe m c) 1 slices_S2x256000_S1x256000_1_0)))
        (subf (Host.gather gather_S16000x3_S256000x1_S256000x3_1_0_n_n_0_1_13 (CO m c) (idxTerm (EIe m c) 0 slices_S2x256000_S1x256000_0_0))
              (Host.gather gather_S16000x3_S256000x1_S256000x3_1_0_n_n_0_1_13 (CO m c) (idxTerm (EIe m c) 1 slices_S2x256000_S1x256000_1_0))))
      (constant (F := Ideal) S_ .f32 0x00000000#32) reducesTo_S256000x3_S256000_d1 h_S_))
    (broadcastInDim S256000 ![] bcast_S_S256000 (constant (F := Ideal) S_ .f32 0x3DCCCCCD#32)) := by
  have e0 : W3 m c (Proc.devRef .tc main_v21) = r21 (W2 m c) := rfl
  have e1 : g19 (W2 m c) = r19 (W1 m c) := rfl
  have e2 : g18 (W1 m c) = r18 (W0 m c) := rfl
  have e3 : gA2 (W0 m c) = EIe m c := rfl
  have e4 : gA3 (W0 m c) = CO m c := rfl
  rw [a21_W3, e0, r21_eq, e1, r19_eq, e2, r18_eq, e3, e4]

/-- A scalar float broadcast to the 256000 edges reads the scalar. -/
theorem bcf_edge (y : FVec Ideal S_ .f32) (e : Fin 256000) : broadcastInDim S256000 ![] bcast_S_S256000 y (ix1 e) = y ix0 :=
  broadcastInDim_apply _ bcast_S_S256000 y (ix1 e) ix0 (fun a => a.elim0)

/-- A product with a broadcast scalar, at edge e. -/
theorem scale_apply (u : FVec Ideal S256000 .f32) (t : FVec Ideal S_ .f32) (e : Fin 256000) :
    mulf u (broadcastInDim S256000 ![] bcast_S_S256000 t) (ix1 e) = u (ix1 e) * t ix0 := by
  show u (ix1 e) * broadcastInDim S256000 ![] bcast_S_S256000 t (ix1 e) = _
  rw [bcf_edge]

/-- The host's square root, at edge e. -/
theorem sqrt_apply (w : FVec Ideal S256000 .f32) (e : Fin 256000) : Host.sqrt w (ix1 e) = Ideal.sqrt (w (ix1 e)) := rfl

/-- The square of a difference of two arrays, at an index. -/
theorem sqdiff_apply (p q : FVec Ideal S256000x3 .f32) (i : S256000x3.Idx) :
    mulf (subf p q) (subf p q) i = (p i - q i) * (p i - q i) := rfl

/-- THE SCALED EDGE LENGTH at edge e: the square root of the sum of squares of the three coordinate differences between
    the edge's row node and its column node, times the scale word. -/
theorem W7_main_v21 (e : Fin 256000) : a21 m c (ix1 e) = Cert.Spec.dist (EIe m c) (CO m c) e := by
  rw [a21_eq, scale_apply, sqrt_apply, reduce_apply]
  unfold Cert.Spec.dist
  refine congrArg₂ (· * ·) (congrArg Ideal.sqrt (congrArg₂ (· + ·) rfl (Finset.sum_congr rfl fun a _ => ?_))) rfl
  rw [sqdiff_apply, gather_apply, gather_apply, idxTerm_apply (EIe m c) 0 _ 0 rfl e, idxTerm_apply (EIe m c) 1 _ 1 rfl e]
  rfl

end Cert.KernelIdeal.Hand

end
-- ==== Proof.KI.HostC.lean ====
/-
  The closing host stretch read at an index. After the per-edge call the program reshapes the per-edge scores from
  256 flat columns to 8 heads of 32, sums the weighted value rows and the head weights over the edges that name a node as
  their column node, and divides the first sum by the second shifted by a small constant. Column (h, d) of the head layout
  is flat column 32 h + d, so both reshapes keep the row and move only between the flat column and its (head, offset) pair.
  The sums are accumulating scatters whose index array is the raw second row of the edge index, one index per edge: an
  edge is summed into the node its column index names, and dropped when that index lies outside the table.
-/
import proofs.«409030_j11063835754631_4_alg».proof.Proof.KI.Run
import proofs.«409030_j11063835754631_4_alg».proof.Proof.LibRows
import proofs.«409030_j11063835754631_4_alg».proof.Proof.Spec
import Idealize.ShloMosaic.Lib.Pipeline.Value
import Idealize.ShloMosaic.Lib.IdealHost

set_option maxRecDepth 16384

noncomputable section

namespace Cert.KernelIdeal.Hand

open Cert.KernelIdeal Cert.KernelIdeal.Gen Cert.LibRows
open Idealize.ShloMosaic Idealize.ShloMosaic.TcCoe Idealize.ShloMosaic.ValueIdx
open scoped BigOperators

/-! ## The two reshapes between flat columns and heads -/

/-- An [N, 256] array cast to [N, 8, 32] reads, at (n, h, d), the operand at row n, flat column 32 h + d. -/
theorem cast_heads_apply {α : Type} {N : ℕ} (x : (⟨2, ![N, 256]⟩ : Shape).Idx → α)
    (hc : (⟨2, ![N, 256]⟩ : Shape).ShapeCasts ⟨3, ![N, 8, 32]⟩) (n : Fin N) (h : Fin 8) (d : Fin 32) :
    shapeCast ⟨3, ![N, 8, 32]⟩ x hc (ix3 n h d) = x (ix2 n (Spec.col h d)) :=
  shapeCast_apply x hc _ _ (by
    rw [Shape.rowMajor_val_two, Shape.rowMajor_val_three]
    show n.val * 256 + (32 * h.val + d.val) = (n.val * 8 + h.val) * 32 + d.val
    omega)

/-- An [N, 8, 32] array cast to [N, 256] reads, at row n and flat column 32 h + d, the operand at (n, h, d). -/
theorem cast_flat_apply {α : Type} {N : ℕ} (x : (⟨3, ![N, 8, 32]⟩ : Shape).Idx → α)
    (hc : (⟨3, ![N, 8, 32]⟩ : Shape).ShapeCasts ⟨2, ![N, 256]⟩) (n : Fin N) (h : Fin 8) (d : Fin 32) :
    shapeCast ⟨2, ![N, 256]⟩ x hc (ix2 n (Spec.col h d)) = x (ix3 n h d) :=
  shapeCast_apply x hc _ _ (by
    rw [Shape.rowMajor_val_two, Shape.rowMajor_val_three]
    show (n.val * 8 + h.val) * 32 + d.val = n.val * 256 + (32 * h.val + d.val)
    omega)

/-! ## The column index of an edge, as the sums read it -/

/-- The second row of the [2, 256000] edge index, sliced off and flattened, reads at e the index's entry (1, e). -/
theorem colRow_apply (ei : S2x256000.Idx → BitVec 32) (q : Fin 256000) :
    shapeCast S256000 (extractStridedSlice S1x256000 ![1, 0] ei slices_S2x256000_S1x256000_1_0) shapeCasts_S1x256000_S256000 (ix1 q)
      = ei (ix2 1 q) := by
  refine (shapeCast_apply _ _ (ix1 q) (ix2 (0 : Fin 1) q) ?_).trans ?_
  · rw [Shape.rowMajor_val_two, Shape.rowMajor_val_one]
    show 0 * 256000 + q.val = q.val
    omega
  · exact extractStridedSlice_apply _ _ _ _ (ix2 1 q) fun a => match a with
      | ⟨0, _⟩ => rfl
      | ⟨1, _⟩ => (Nat.zero_add _).symm

/-- That row given a unit column reads, at (e, 0), the same entry. -/
theorem idxCol_apply (ei : IVec ⟨2, ![2, 256000]⟩ 32) (v3 : S256000.Idx → BitVec 32)
    (hv3 : ∀ q : Fin 256000, v3 (ix1 q) = ei (ix2 1 q)) (q : Fin 256000) :
    broadcastInDim S256000x1 _ bcast_S256000_S256000x1_0 v3 (ix2 q 0) = ei (ix2 1 q) :=
  (broadcastInDim_apply _ _ _ _ (ix1 q) fun a => match a with | ⟨0, _⟩ => rfl).trans (hv3 q)

/-! ## A sum over the edges that name a node -/

/-- The accumulating scatter of the rows of u into a table of 16000 constant rows, indexed by the edges' column
    indices: entry (n, j) is the constant plus column j of u summed over the edges that name node n. -/
theorem segsum_apply {C : ℕ} (ei : IVec ⟨2, ![2, 256000]⟩ 32) (v3 : S256000.Idx → BitVec 32)
    (hv3 : ∀ q : Fin 256000, v3 (ix1 q) = ei (ix2 1 q))
    (wf : ScatterDims.WF ⟨2, ![16000, C]⟩ ⟨2, ![256000, 1]⟩ ⟨2, ![256000, C]⟩ [1] [0] [0] 1)
    (hb : S_.BroadcastsInDim ⟨2, ![16000, C]⟩ ![]) (z : BitVec 32)
    (u : FVec Ideal ⟨2, ![256000, C]⟩ .f32) (n : Fin 16000) (j : Fin C) :
    Host.scatterAdd (F := Ideal) (rowsScatter 16000 256000 C wf)
        (broadcastInDim ⟨2, ![16000, C]⟩ ![] hb (constant (F := Ideal) S_ .f32 z))
        (broadcastInDim S256000x1 _ bcast_S256000_S256000x1_0 v3) u (ix2 n j)
      = Ideal.ofBits .f32 z + ∑ e ∈ Finset.univ.filter (fun e : Fin 256000 => Spec.Hits ei e n), u (ix2 e j) := by
  refine (scatterAdd_rows_apply wf _ _ u n j).trans ?_
  refine congrArg₂ (· + ·) ((broadcastInDim_scalar_apply hb _ _).trans (constant_apply _ _)) ?_
  refine Finset.sum_congr (Finset.filter_congr fun q _ => ?_) fun _ _ => rfl
  exact Iff.of_eq (congrArg (fun w : BitVec 32 => RowHit 16000 w n) (idxCol_apply ei v3 hv3 q))

/-! ## The node output as a function of the column indices and the per-edge call's two sums' terms -/

/-- The closing stretch's quotient: the value rows summed into nodes, over the head weights summed into nodes, spread
    over each head's 32 columns and shifted by the small constant; then split into heads. -/
def nodeTail (v3 : S256000.Idx → BitVec 32) (u1 : FVec Ideal S256000x256 .f32) (u2 : FVec Ideal S256000x8 .f32) :
    S16000x8x32.Idx → EReal :=
  fun i => shapeCast S16000x8x32
    (Host.divf (F := Ideal)
      (Host.scatterAdd (F := Ideal) scatter_S16000x256_S256000x1_S256000x256_1_0_0_1
        (broadcastInDim S16000x256 _ bcast_S_S16000x256 (constant (F := Ideal) S_ .f32 0x00000000#32))
        (broadcastInDim S256000x1 _ bcast_S256000_S256000x1_0 v3) u1)
      (addf (F := Ideal)
        (fun i => shapeCast S16000x256
          (broadcastInDim S16000x8x32 _ bcast_S16000x8_S16000x8x32_0_1
            (Host.scatterAdd (F := Ideal) scatter_S16000x8_S256000x1_S256000x8_1_0_0_1
              (broadcastInDim S16000x8 _ bcast_S_S16000x8 (constant (F := Ideal) S_ .f32 0x00000000#32))
              (broadcastInDim S256000x1 _ bcast_S256000_S256000x1_0 v3) u2))
          shapeCasts_S16000x8x32_S16000x256 i)
        (broadcastInDim S16000x256 _ bcast_S_S16000x256 (constant (F := Ideal) S_ .f32 0x358637BD#32))))
    shapeCasts_S16000x256_S16000x8x32 i

/-- The quotient at node n, head h, offset d. -/
theorem nodeTail_apply (ei : IVec ⟨2, ![2, 256000]⟩ 32) (v3 : S256000.Idx → BitVec 32)
    (hv3 : ∀ q : Fin 256000, v3 (ix1 q) = ei (ix2 1 q))
    (u1 : FVec Ideal S256000x256 .f32) (u2 : FVec Ideal S256000x8 .f32) (n : Fin 16000) (h : Fin 8) (d : Fin 32) :
    nodeTail v3 u1 u2 (ix3 n h d)
      = Ideal.div (Spec.zero + ∑ e ∈ Finset.univ.filter (fun e : Fin 256000 => Spec.Hits ei e n), u1 (ix2 e (Spec.col h d)))
          ((Spec.zero + ∑ e ∈ Finset.univ.filter (fun e : Fin 256000 => Spec.Hits ei e n), u2 (ix2 e h)) + Spec.eps) := by
  unfold nodeTail
  refine (cast_heads_apply _ _ n h d).trans ?_
  refine (hostDivf_apply _ _ _).trans ?_
  refine congrArg₂ Ideal.div ?_ ?_
  · exact segsum_apply ei v3 hv3 scatter_S16000x256_S256000x1_S256000x256_1_0_0_1_wf _ _ u1 n (Spec.col h d)
  · refine (addf_apply _ _ _).trans ?_
    refine congrArg₂ (· + ·) ?_ ?_
    · refine (cast_flat_apply _ _ n h d).trans ?_
      refine (broadcastInDim_apply _ _ _ _ (ix2 n h) fun a => match a with | ⟨0, _⟩ => rfl | ⟨1, _⟩ => rfl).trans ?_
      exact segsum_apply ei v3 hv3 scatter_S16000x8_S256000x1_S256000x8_1_0_0_1_wf _ _ u2 n h
    · exact (broadcastInDim_scalar_apply _ _ _).trans (constant_apply _ _)

variable (m : (ℓ : Loc nD τ sig) → Buf (Elt Ideal) ℓ) (c : Dev nD)

/-! ## The arrays the readings are over -/

/-- The edge index as launched. -/
abbrev edgeIdx : IVec ⟨2, ![2, 256000]⟩ 32 := m ((c : Thread nD τ).loc main_arg2)
/-- The per-edge call's first output at its exit: the scores. -/
abbrev edgeOut0 : S256000x256.Idx → EReal := W8 m c (Proc.devRef .tc main_v57_0)
/-- Its second output: the weighted value rows. -/
abbrev edgeOut1 : S256000x256.Idx → EReal := W8 m c (Proc.devRef .tc main_v57_1)
/-- Its third output: the head weights. -/
abbrev edgeOut2 : S256000x8.Idx → EReal := W8 m c (Proc.devRef .tc main_v57_2)

/-! ## The per-edge scores, by heads -/

/-- The last result is the per-edge call's first output with its 256 columns split into 8 heads of 32. -/
theorem W9_scores (e : Fin 256000) (h : Fin 8) (d : Fin 32) :
    (W9 m c (Proc.devRef .tc main_v70) : S256000x8x32.Idx → EReal) (ix3 e h d)
      = edgeOut0 m c (ix2 e (Spec.col h d)) := by
  have e0 : (W9 m c (Proc.devRef .tc main_v70) : S256000x8x32.Idx → EReal)
      = fun i => shapeCast S256000x8x32 (W8 m c (Proc.devRef .tc main_v57_0) : S256000x256.Idx → EReal)
          shapeCasts_S256000x256_S256000x8x32 i := by
    show StableHlo.after hostOps2 _ (Proc.devRef .tc main_v70) = _
    after_results
    rfl
  rw [e0]
  exact cast_heads_apply _ _ e h d

/-! ## The column indices at the per-edge call's exit -/

/-- The flattened second row of the edge index is written by the first host stretch and by nothing after it: at the
    per-edge call's exit it still reads, at e, the launch index's entry (1, e). -/
theorem W8_colIdx (q : Fin 256000) :
    (W8 m c (Proc.devRef .tc main_v3) : S256000.Idx → BitVec 32) (ix1 q)
      = edgeIdx m c (ix2 1 q) := by
  have e1 : W8 m c (Proc.devRef .tc main_v3) = W1 m c (Proc.devRef .tc main_v3) :=
    calc W8 m c (Proc.devRef .tc main_v3)
      _ = W7 m c (Proc.devRef .tc main_v3) := W8_of_ne m c main_v3 (by decide)
      _ = W6 m c (Proc.devRef .tc main_v3) := StableHlo.after_of_writes_sub hostOps1_2 _ hostOps1_2_writes (by decide)
      _ = W5 m c (Proc.devRef .tc main_v3) := StableHlo.after_of_writes_sub hostOps1_1 _ hostOps1_1_writes (by decide)
      _ = W4 m c (Proc.devRef .tc main_v3) := StableHlo.after_of_writes_sub hostOps1 _ hostOps1_writes (by decide)
      _ = W3 m c (Proc.devRef .tc main_v3) := W4_of_ne m c main_v3 (by decide)
      _ = W2 m c (Proc.devRef .tc main_v3) := StableHlo.after_of_writes_sub hostOps0_2 _ hostOps0_2_writes (by decide)
      _ = W1 m c (Proc.devRef .tc main_v3) := StableHlo.after_of_writes_sub hostOps0_1 _ hostOps0_1_writes (by decide)
  have e2 : (W1 m c (Proc.devRef .tc main_v3) : S256000.Idx → BitVec 32)
      = fun i => shapeCast S256000 (extractStridedSlice S1x256000 ![1, 0]
          (m ((c : Thread nD τ).loc main_arg2) : S2x256000.Idx → BitVec 32) slices_S2x256000_S1x256000_1_0)
          shapeCasts_S1x256000_S256000 i := by
    show StableHlo.after hostOps0 _ (Proc.devRef .tc main_v3) = _
    after_results
    rfl
  rw [e1, e2]
  exact colRow_apply _ q

/-! ## The node outputs -/

/-- The first result at node n, head h, offset d: the weighted value rows summed over the edges that name n as their
    column node, over the head's weights summed over the same edges shifted by the small constant; both sums start
    from the zero word. -/
theorem W9_nodes (n : Fin 16000) (h : Fin 8) (d : Fin 32) :
    (W9 m c (Proc.devRef .tc main_v69) : S16000x8x32.Idx → EReal) (ix3 n h d)
      = Ideal.div
          (Spec.zero + ∑ e ∈ Finset.univ.filter (fun e : Fin 256000 => Spec.Hits (edgeIdx m c) e n),
            edgeOut1 m c (ix2 e (Spec.col h d)))
          ((Spec.zero + ∑ e ∈ Finset.univ.filter (fun e : Fin 256000 => Spec.Hits (edgeIdx m c) e n),
            edgeOut2 m c (ix2 e h)) + Spec.eps) := by
  have e0 : (W9 m c (Proc.devRef .tc main_v69) : S16000x8x32.Idx → EReal)
      = nodeTail (W8 m c (Proc.devRef .tc main_v3)) (edgeOut1 m c) (edgeOut2 m c) := by
    show StableHlo.after hostOps2 _ (Proc.devRef .tc main_v69) = _
    after_results_simp
    rfl
  rw [e0]
  exact nodeTail_apply (edgeIdx m c) _ (W8_colIdx m c) (edgeOut1 m c) (edgeOut2 m c) n h d

end Cert.KernelIdeal.Hand

end
-- ==== Proof.LibSelect.lean ====
/-
# Sums against a 0/1 block selector on the extended reals

Let `n = A * B` and read an index `j < n` as the pair (block `j / B`, offset `j % B`),
so that block `h` holds exactly the `B` indices `h * B + d` with `d < B`.
The block selector is the 0/1 matrix `S j h = if j / B = h then 1 else 0`.

On the extended reals `x * 1 = x` and `x * 0 = 0` hold for every `x`, the two
infinities included, so a product with a selector entry is either the factor itself or
zero, and no finiteness hypothesis is needed anywhere below.

* Summing a family `f` over `j` against column `h` of the selector keeps the entries of
  block `h` and drops the rest: the result is the sum of `f` over the `B` entries of
  the block (`sum_mul_blockSelector`, `sum_blockSelector_mul'` for the other order of
  the factors).
* Summing a family `g` over `h` against row `j` of the selector keeps the single entry
  `h = j / B` (`sum_blockSelector_mul`, `sum_mul_blockSelector'`).

The last section states the same facts at `n = 256`, `A = 8`, `B = 32`, with the block
entries written in row-major form `32 * h + d`.
-/
import Mathlib.Data.EReal.Basic
import Mathlib.Algebra.BigOperators.Group.Finset.Basic
import Mathlib.Data.Fintype.Basic

open scoped BigOperators

namespace Cert.LibSelect

/-- The block number of an index below `A * B` is below `A`. -/
theorem div_lt_of_eq_mul {n A B : Nat} (hn : n = A * B) (j : Fin n) : j.val / B < A := by
  have hj : j.val < A * B := Nat.lt_of_lt_of_eq j.isLt hn
  rw [Nat.mul_comm] at hj
  exact Nat.div_lt_of_lt_mul hj

/-- Entry `d` of block `h` is an index below `A * B`:
`h * B + d < h * B + B = (h + 1) * B ≤ A * B`. -/
theorem block_index_lt {n A B : Nat} (hn : n = A * B) (h : Fin A) (d : Fin B) :
    h.val * B + d.val < n := by
  subst hn
  calc h.val * B + d.val < h.val * B + B := Nat.add_lt_add_left d.isLt _
    _ = (h.val + 1) * B := (Nat.succ_mul _ _).symm
    _ ≤ A * B := Nat.mul_le_mul_right B (Nat.succ_le_of_lt h.isLt)

/-- Summing `f` against the indicator of block `h` (the indices `j` with `j / B = h`)
is the sum of `f` over the `B` entries `h * B + d` of that block.

The product with the indicator is `f j` on the block and `0` off it, so the sum is the
sum of `f` over the block; the block is the image of `d ↦ h * B + d`, which is injective,
lands in the block because `(h * B + d) / B = h` for `d < B`, and reaches every `j` of
the block from `d = j % B` because `(j / B) * B + j % B = j`. -/
theorem sum_mul_blockSelector {n A B : Nat} (hn : n = A * B) (f : Fin n → EReal) (h : Fin A) :
    ∑ j : Fin n, f j * (if j.val / B = h.val then (1 : EReal) else 0)
      = ∑ d : Fin B, f ⟨h.val * B + d.val, block_index_lt hn h d⟩ := by
  simp only [mul_ite, mul_one, mul_zero]
  rw [← Finset.sum_filter]
  symm
  apply Finset.sum_bij
    (fun (d : Fin B) _ => (⟨h.val * B + d.val, block_index_lt hn h d⟩ : Fin n))
  · intro d _
    simp only [Finset.mem_filter, Finset.mem_univ, true_and]
    have hB : 0 < B := Nat.lt_of_le_of_lt (Nat.zero_le _) d.isLt
    rw [Nat.add_comm, Nat.add_mul_div_right _ _ hB, Nat.div_eq_of_lt d.isLt, Nat.zero_add]
  · intro d₁ _ d₂ _ heq
    have hval : h.val * B + d₁.val = h.val * B + d₂.val := congrArg Fin.val heq
    exact Fin.ext (Nat.add_left_cancel hval)
  · intro j hj
    simp only [Finset.mem_filter, Finset.mem_univ, true_and] at hj
    have hB : 0 < B := by
      rcases Nat.eq_zero_or_pos B with h0 | hpos
      · have hlt : j.val < A * B := Nat.lt_of_lt_of_eq j.isLt hn
        rw [h0, Nat.mul_zero] at hlt
        exact absurd hlt (Nat.not_lt_zero _)
      · exact hpos
    refine ⟨⟨j.val % B, Nat.mod_lt _ hB⟩, Finset.mem_univ _, ?_⟩
    apply Fin.ext
    show h.val * B + j.val % B = j.val
    rw [← hj]
    exact Nat.div_add_mod' j.val B
  · intro d _
    rfl

/-- Summing `g` against the indicator `j / B = h`, now read as a function of `h`, picks
the single entry `h = j / B`: every other term is `g h * 0 = 0`. -/
theorem sum_blockSelector_mul {n A B : Nat} (hn : n = A * B) (g : Fin A → EReal) (j : Fin n) :
    ∑ h : Fin A, g h * (if j.val / B = h.val then (1 : EReal) else 0)
      = g ⟨j.val / B, div_lt_of_eq_mul hn j⟩ := by
  simp only [mul_ite, mul_one, mul_zero]
  rw [Finset.sum_eq_single (⟨j.val / B, div_lt_of_eq_mul hn j⟩ : Fin A)]
  · rw [if_pos rfl]
  · intro h _ hne
    rw [if_neg]
    intro heq
    exact hne (Fin.ext heq.symm)
  · intro hnot
    exact absurd (Finset.mem_univ _) hnot

/-- `sum_mul_blockSelector` with the indicator as the left factor. -/
theorem sum_blockSelector_mul' {n A B : Nat} (hn : n = A * B) (f : Fin n → EReal) (h : Fin A) :
    ∑ j : Fin n, (if j.val / B = h.val then (1 : EReal) else 0) * f j
      = ∑ d : Fin B, f ⟨h.val * B + d.val, block_index_lt hn h d⟩ :=
  (Finset.sum_congr rfl fun _ _ => EReal.mul_comm _ _).trans (sum_mul_blockSelector hn f h)

/-- `sum_blockSelector_mul` with the indicator as the left factor. -/
theorem sum_mul_blockSelector' {n A B : Nat} (hn : n = A * B) (g : Fin A → EReal) (j : Fin n) :
    ∑ h : Fin A, (if j.val / B = h.val then (1 : EReal) else 0) * g h
      = g ⟨j.val / B, div_lt_of_eq_mul hn j⟩ :=
  (Finset.sum_congr rfl fun _ _ => EReal.mul_comm _ _).trans (sum_blockSelector_mul hn g j)

/-! ## The instance `256 = 8 * 32`

Eight blocks of thirty-two entries; entry `d` of block `h` sits at the row-major position
`32 * h + d` of an `8 × 32` layout. -/

/-- Row-major position `32 * h + d` is below `256` for `h < 8`, `d < 32`. -/
theorem rowMajor_lt_256 (h : Fin 8) (d : Fin 32) : 32 * h.val + d.val < 256 := by
  have := h.isLt
  have := d.isLt
  omega

/-- The block number `j / 32` of an index `j < 256` is below `8`. -/
theorem div32_lt_8 (j : Fin 256) : j.val / 32 < 8 := by
  have := j.isLt
  omega

/-- Against column `h` of the `256 × 8` block selector a sum over `256` indices is the sum
over the `32` entries `32 * h + d` of block `h`. -/
theorem sum_mul_blockSelector_256 (f : Fin 256 → EReal) (h : Fin 8) :
    ∑ j : Fin 256, f j * (if j.val / 32 = h.val then (1 : EReal) else 0)
      = ∑ d : Fin 32, f ⟨32 * h.val + d.val, rowMajor_lt_256 h d⟩ := by
  rw [sum_mul_blockSelector (n := 256) (A := 8) (B := 32) rfl f h]
  refine Finset.sum_congr rfl fun d _ => ?_
  congr 1
  apply Fin.ext
  exact Nat.add_right_cancel_iff.mpr (Nat.mul_comm _ _)

/-- The same with the indicator as the left factor. -/
theorem sum_blockSelector_mul'_256 (f : Fin 256 → EReal) (h : Fin 8) :
    ∑ j : Fin 256, (if j.val / 32 = h.val then (1 : EReal) else 0) * f j
      = ∑ d : Fin 32, f ⟨32 * h.val + d.val, rowMajor_lt_256 h d⟩ :=
  (Finset.sum_congr rfl fun _ _ => EReal.mul_comm _ _).trans (sum_mul_blockSelector_256 f h)

/-- Against row `j` of the `256 × 8` block selector a sum over the `8` blocks is the entry
at block `j / 32`. -/
theorem sum_blockSelector_mul_256 (g : Fin 8 → EReal) (j : Fin 256) :
    ∑ h : Fin 8, g h * (if j.val / 32 = h.val then (1 : EReal) else 0)
      = g ⟨j.val / 32, div32_lt_8 j⟩ :=
  sum_blockSelector_mul (n := 256) (A := 8) (B := 32) rfl g j

/-- The same with the indicator as the left factor. -/
theorem sum_mul_blockSelector'_256 (g : Fin 8 → EReal) (j : Fin 256) :
    ∑ h : Fin 8, (if j.val / 32 = h.val then (1 : EReal) else 0) * g h
      = g ⟨j.val / 32, div32_lt_8 j⟩ :=
  sum_mul_blockSelector' (n := 256) (A := 8) (B := 32) rfl g j

end Cert.LibSelect
-- ==== Proof.KI.Value.lean ====
/-
  The kernel program's values, composed: what the first call leaves (the three projections), read through the host
  gathers into the second call's inputs, through that call's three outputs, and through the closing host stretch into the
  two results — each at an index, as the functions of the argument arrays that Spec.lean names. The two matrix products
  against the 0/1 head selectors become the sum over a head's 32 columns and the pick of a column's head.
-/
import proofs.«409030_j11063835754631_4_alg».proof.Proof.KI.Val0kv
import proofs.«409030_j11063835754631_4_alg».proof.Proof.KI.Val1c
import proofs.«409030_j11063835754631_4_alg».proof.Proof.KI.HostA
import proofs.«409030_j11063835754631_4_alg».proof.Proof.KI.HostAGather
import proofs.«409030_j11063835754631_4_alg».proof.Proof.KI.HostB
import proofs.«409030_j11063835754631_4_alg».proof.Proof.KI.HostBDist
import proofs.«409030_j11063835754631_4_alg».proof.Proof.KI.HostC
import proofs.«409030_j11063835754631_4_alg».proof.Proof.LibSelect
import proofs.«409030_j11063835754631_4_alg».proof.Proof.Spec

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

variable (m : (ℓ : Loc nD τ sig) → Buf (Elt Ideal) ℓ) (c : Dev nD)

/-! ## The argument arrays at their literal types -/

abbrev aX : FVec Ideal ⟨2, ![16000, 256]⟩ .f32 := m ((c : Thread nD τ).loc main_arg0)
abbrev aEA : FVec Ideal ⟨2, ![256000, 256]⟩ .f32 := m ((c : Thread nD τ).loc main_arg1)
abbrev aEI : IVec ⟨2, ![2, 256000]⟩ 32 := m ((c : Thread nD τ).loc main_arg2)
abbrev aCO : FVec Ideal ⟨2, ![16000, 3]⟩ .f32 := m ((c : Thread nD τ).loc main_arg3)
abbrev aWq : FVec Ideal ⟨2, ![256, 256]⟩ .f32 := m ((c : Thread nD τ).loc main_arg4)
abbrev aWk : FVec Ideal ⟨2, ![256, 256]⟩ .f32 := m ((c : Thread nD τ).loc main_arg5)
abbrev aWv : FVec Ideal ⟨2, ![256, 256]⟩ .f32 := m ((c : Thread nD τ).loc main_arg6)
abbrev aWe : FVec Ideal ⟨2, ![257, 256]⟩ .f32 := m ((c : Thread nD τ).loc main_arg7)

/-! ## What the first call leaves: the three projections -/

abbrev qArr : S16000x256.Idx → EReal := W4 m c (Proc.devRef .tc main_v23_0)
abbrev kArr : S16000x256.Idx → EReal := W4 m c (Proc.devRef .tc main_v23_1)
abbrev vArr : S16000x256.Idx → EReal := W4 m c (Proc.devRef .tc main_v23_2)

/-- After the first call the q array is x · Wq. -/
theorem qArr_apply (n : Fin 16000) (j : Fin 256) : qArr m c (ix2 n j) = Spec.proj (aX m c) (aWq m c) n j := by
  unfold qArr
  rw [show W4 m c (Proc.devRef .tc main_v23_0) = (dat0 (F := Ideal) (E3 m) c).arrAt 2 cfg0.N from W4_arr m c 2]
  rw [region0_q (E3 m) c (aX m c) (W3 m c (Proc.devRef .tc main_v22)) (W3_main_arg0 m c) rfl n j]
  unfold Spec.proj
  refine Finset.sum_congr rfl fun k _ => ?_
  rw [W3_main_v22_q m c k j]

/-- The k array is x · Wk. -/
theorem kArr_apply (n : Fin 16000) (j : Fin 256) : kArr m c (ix2 n j) = Spec.proj (aX m c) (aWk m c) n j := by
  unfold kArr
  rw [show W4 m c (Proc.devRef .tc main_v23_1) = (dat0 (F := Ideal) (E3 m) c).arrAt 3 cfg0.N from W4_arr m c 3]
  rw [region0_k (E3 m) c (aX m c) (W3 m c (Proc.devRef .tc main_v22)) (W3_main_arg0 m c) rfl n j]
  unfold Spec.proj
  refine Finset.sum_congr rfl fun k _ => ?_
  rw [W3_main_v22_k m c k j]

/-- The v array is x · Wv. -/
theorem vArr_apply (n : Fin 16000) (j : Fin 256) : vArr m c (ix2 n j) = Spec.proj (aX m c) (aWv m c) n j := by
  unfold vArr
  rw [show W4 m c (Proc.devRef .tc main_v23_2) = (dat0 (F := Ideal) (E3 m) c).arrAt 4 cfg0.N from W4_arr m c 4]
  rw [region0_v (E3 m) c (aX m c) (W3 m c (Proc.devRef .tc main_v22)) (W3_main_arg0 m c) rfl n j]
  unfold Spec.proj
  refine Finset.sum_congr rfl fun k _ => ?_
  rw [W3_main_v22_v m c k j]

/-! ## The second call's three outputs as functions of the arguments -/

/-- The score the second call computes is the kernel program's score of Spec.lean. -/
theorem sc1_eq (e : Fin 256000) (j : Fin 256) :
    sc1 (E7 m) c e j = Spec.scoreK (aX m c) (aEA m c) (aEI m c) (aCO m c) (aWq m c) (aWk m c) (aWe m c) e j := by
  unfold sc1 scoreA Spec.scoreK Spec.edgeProjK
  have hk : (E7 m c main_v30 : S256000x256.Idx → EReal) (ix2 e j) = Spec.proj (aX m c) (aWk m c) (Spec.rowOf (aEI m c) e) j :=
    (W7_main_v30 m c e j).trans (kArr_apply m c _ j)
  have hq : (E7 m c main_v37 : S256000x256.Idx → EReal) (ix2 e j) = Spec.proj (aX m c) (aWq m c) (Spec.colOf (aEI m c) e) j :=
    (W7_main_v37 m c e j).trans (qArr_apply m c _ j)
  have hd : (E7 m c main_v21 : S256000.Idx → EReal) (ix1 e) = Spec.dist (aEI m c) (aCO m c) e := W7_main_v21 m c e
  have hb : (E7 m c main_v46 : S1x256.Idx → EReal) (ix2 (0 : Fin 1) j) = aWe m c (ix2 (Fin.last 256) j) := W7_main_v46 m c j
  have hW : ∀ i : Fin 256, (E7 m c main_v45 : S256x256.Idx → EReal) (ix2 i j) = aWe m c (ix2 i.castSucc j) :=
    fun i => W7_main_v45 m c i j
  have hA : (E7 m c main_arg1 : S256000x256.Idx → EReal) = aEA m c := W7_main_arg1 m c
  simp only [hk, hq, hd, hb, hW, hA]

/-- The head weight the second call computes: the selector product is the sum over the head's 32 columns. -/
theorem hw1_eq (e : Fin 256000) (h : Fin 8) :
    hw1 (E7 m) c e h = Spec.headW' (Spec.scoreK (aX m c) (aEA m c) (aEI m c) (aCO m c) (aWq m c) (aWk m c) (aWe m c)) e h := by
  unfold hw1 headA Spec.headW'
  have hsel : ∀ j : Fin 256, (E7 m c main_v55 : S256x8.Idx → EReal) (ix2 j h) = if j.val / 32 = h.val then (1 : EReal) else 0 :=
    fun j => W7_main_v55 m c j h
  simp only [hsel, sc1_eq]
  rw [Cert.LibSelect.sum_mul_blockSelector_256]
  first | done | rfl

/-- The weighted value the second call computes: the selector product picks the column's head. -/
theorem wv1_eq (e : Fin 256000) (j : Fin 256) :
    wv1 (E7 m) c e j = Spec.wval (aX m c) (aEI m c) (aWv m c)
      (Spec.headW' (Spec.scoreK (aX m c) (aEA m c) (aEI m c) (aCO m c) (aWq m c) (aWk m c) (aWe m c))) e j := by
  unfold wv1 wvalA Spec.wval
  have hv : (E7 m c main_v44 : S256000x256.Idx → EReal) (ix2 e j) = Spec.proj (aX m c) (aWv m c) (Spec.rowOf (aEI m c) e) j :=
    (W7_main_v44 m c e j).trans (vArr_apply m c _ j)
  have hsel : ∀ h : Fin 8, (E7 m c main_v56 : S8x256.Idx → EReal) (ix2 h j) = if j.val / 32 = h.val then (1 : EReal) else 0 :=
    fun h => W7_main_v56 m c h j
  simp only [hsel, hw1_eq]
  rw [hv, Cert.LibSelect.sum_blockSelector_mul_256]
  first | done | rfl

/-! ## The two results -/

/-- The edge result: the kernel program's score, its 256 columns split into 8 heads of 32. -/
theorem kernel_scores (e : Fin 256000) (h : Fin 8) (d : Fin 32) :
    (W9 m c (Proc.devRef .tc main_v70) : S256000x8x32.Idx → EReal) (ix3 e h d)
      = Spec.scoreK (aX m c) (aEA m c) (aEI m c) (aCO m c) (aWq m c) (aWk m c) (aWe m c) e (Spec.col h d) := by
  rw [W9_scores]
  unfold edgeOut0
  rw [show W8 m c (Proc.devRef .tc main_v57_0) = (dat1 (F := Ideal) (E7 m) c).arrAt 9 cfg1.N from W8_arr m c 9]
  exact (region1_score (E7 m) c e _).trans (sc1_eq m c e _)

/-- The node result: the quotient of the two sums over the edges that name the node. -/
theorem kernel_nodes (n : Fin 16000) (h : Fin 8) (d : Fin 32) :
    (W9 m c (Proc.devRef .tc main_v69) : S16000x8x32.Idx → EReal) (ix3 n h d)
      = Spec.nodeOut (aX m c) (aEI m c) (aWv m c)
          (Spec.headW' (Spec.scoreK (aX m c) (aEA m c) (aEI m c) (aCO m c) (aWq m c) (aWk m c) (aWe m c))) n h d := by
  rw [W9_nodes]
  unfold Spec.nodeOut Spec.segSum
  have h1 : ∀ e : Fin 256000, edgeOut1 m c (ix2 e (Spec.col h d)) = Spec.wval (aX m c) (aEI m c) (aWv m c)
      (Spec.headW' (Spec.scoreK (aX m c) (aEA m c) (aEI m c) (aCO m c) (aWq m c) (aWk m c) (aWe m c))) e (Spec.col h d) := by
    intro e
    unfold edgeOut1
    rw [show W8 m c (Proc.devRef .tc main_v57_1) = (dat1 (F := Ideal) (E7 m) c).arrAt 10 cfg1.N from W8_arr m c 10]
    exact (region1_wval (E7 m) c e _).trans (wv1_eq m c e _)
  have h2 : ∀ e : Fin 256000, edgeOut2 m c (ix2 e h)
      = Spec.headW' (Spec.scoreK (aX m c) (aEA m c) (aEI m c) (aCO m c) (aWq m c) (aWk m c) (aWe m c)) e h := by
    intro e
    unfold edgeOut2
    rw [show W8 m c (Proc.devRef .tc main_v57_2) = (dat1 (F := Ideal) (E7 m) c).arrAt 11 cfg1.N from W8_arr m c 11]
    exact (region1_headw (E7 m) c e h).trans (hw1_eq m c e h)
  simp only [h1, h2]
  first | done | rfl

end Cert.KernelIdeal.Hand

end
-- ==== Proof.Ref.Score.lean ====
/-
  The reference program's score, read at an index.

  Entry (e, h, d) of the reference's score array is the specification's score of edge e in flat column 32 h + d:
  the product of the key projection at the edge's row node with the query projection at its column node, divided
  by the divisor word, clamped to [-5, 5], times the edge's own projection (its 256 features followed by its scaled
  length, contracted with the 257-row edge weight). Each lemma below reads one array of the program at an index:
  the two rows of the edge index array and their normalised copies, the coordinate rows and the edge's length,
  the joined 257 features and their contraction, the three node projections flat and by heads, and the rows of
  those projections an edge reads.
-/
import proofs.«409030_j11063835754631_4_alg».proof.Proof.Gen.ReferenceIdeal.Read
import proofs.«409030_j11063835754631_4_alg».proof.Proof.Spec
import proofs.«409030_j11063835754631_4_alg».proof.Proof.LibRowGather

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S16000x256, .f32⟩ : BufTy).Contents (Elt Ideal)) (x1 : (⟨S256000x256, .f32⟩ : BufTy).Contents (Elt Ideal))
  (x2 : (⟨S2x256000, .i32⟩ : BufTy).Contents (Elt Ideal)) (x3 : (⟨S16000x3, .f32⟩ : BufTy).Contents (Elt Ideal))
  (x4 x5 x6 : (⟨S256x256, .f32⟩ : BufTy).Contents (Elt Ideal)) (x7 : (⟨S257x256, .f32⟩ : BufTy).Contents (Elt Ideal))

/-! ## The two rows of the edge index array -/

/-- The first row, flattened: entry e is the start word of edge e. -/
theorem v1_at (e : Fin 256000) : val_main_v1 (F := Ideal) x2 (ix1 e) = x2 (ix2 0 e) := by
  rw [val_main_v1_apply, val_main_v0_apply]
  congr 1
  funext a
  refine Fin.ext ?_
  match a with
  | ⟨0, _⟩ => rfl
  | ⟨1, _⟩ => exact Nat.mod_eq_of_lt e.isLt

/-- The second row, flattened: entry e is the end word of edge e. -/
theorem v3_at (e : Fin 256000) : val_main_v3 (F := Ideal) x2 (ix1 e) = x2 (ix2 1 e) := by
  rw [val_main_v3_apply, val_main_v2_apply]
  congr 1
  funext a
  refine Fin.ext ?_
  match a with
  | ⟨0, _⟩ => rfl
  | ⟨1, _⟩ => exact Nat.mod_eq_of_lt e.isLt

/-- Adding the row count to a negative word, as a select on the sign test. -/
theorem nidx_select (r : BitVec 32) :
    Scalar.select (IntOp.cmpi .slt r 0#32) (IntOp.addi r 16000#32) r = Cert.Spec.nidx r := by
  unfold Scalar.select IntOp.cmpi IntOp.addi Cert.Spec.nidx
  cases h : r.slt 0#32 <;> simp [h]

/-- A column array's one column reads the vector it was made from. -/
theorem col_idx (e : Fin 256000) : idx_main_v15 (ix2 e (0 : Fin 1)) = ix1 e := by
  funext a
  refine Fin.ext ?_
  match a with
  | ⟨0, _⟩ => rfl

theorem v15_at (e : Fin 256000) : val_main_v15 (F := Ideal) x2 (ix2 e 0) = Cert.Spec.nidx (x2 (ix2 0 e)) := by
  rw [val_main_v15_apply, col_idx, val_main_v14_apply, val_main_v11_apply, val_main_v13_apply, val_main_v10_apply,
    val_main_v12_apply, val_main_c_apply, val_main_c_0_apply, v1_at]
  exact nidx_select _

theorem col_idx22 (e : Fin 256000) : idx_main_v22 (ix2 e (0 : Fin 1)) = ix1 e := by
  funext a
  refine Fin.ext ?_
  match a with
  | ⟨0, _⟩ => rfl

theorem v22_at (e : Fin 256000) : val_main_v22 (F := Ideal) x2 (ix2 e 0) = Cert.Spec.nidx (x2 (ix2 1 e)) := by
  rw [val_main_v22_apply, col_idx22, val_main_v21_apply, val_main_v18_apply, val_main_v20_apply, val_main_v17_apply,
    val_main_v19_apply, val_main_c_1_apply, val_main_c_2_apply, v3_at]
  exact nidx_select _

theorem col_idx36 (e : Fin 256000) : idx_main_v36 (ix2 e (0 : Fin 1)) = ix1 e := by
  funext a
  refine Fin.ext ?_
  match a with
  | ⟨0, _⟩ => rfl

theorem v36_at (e : Fin 256000) : val_main_v36 (F := Ideal) x2 (ix2 e 0) = Cert.Spec.nidx (x2 (ix2 0 e)) := by
  rw [val_main_v36_apply, col_idx36, val_main_v35_apply, val_main_v32_apply, val_main_v34_apply, val_main_v31_apply,
    val_main_v33_apply, val_main_c_3_apply, val_main_c_4_apply, v1_at]
  exact nidx_select _

theorem col_idx43 (e : Fin 256000) : idx_main_v43 (ix2 e (0 : Fin 1)) = ix1 e := by
  funext a
  refine Fin.ext ?_
  match a with
  | ⟨0, _⟩ => rfl

theorem v43_at (e : Fin 256000) : val_main_v43 (F := Ideal) x2 (ix2 e 0) = Cert.Spec.nidx (x2 (ix2 1 e)) := by
  rw [val_main_v43_apply, col_idx43, val_main_v42_apply, val_main_v39_apply, val_main_v41_apply, val_main_v38_apply,
    val_main_v40_apply, val_main_c_5_apply, val_main_c_6_apply, v3_at]
  exact nidx_select _

theorem col_idx59 (e : Fin 256000) : idx_main_v59 (ix2 e (0 : Fin 1)) = ix1 e := by
  funext a
  refine Fin.ext ?_
  match a with
  | ⟨0, _⟩ => rfl

theorem v59_at (e : Fin 256000) : val_main_v59 (F := Ideal) x2 (ix2 e 0) = Cert.Spec.nidx (x2 (ix2 0 e)) := by
  rw [val_main_v59_apply, col_idx59, val_main_v58_apply, val_main_v55_apply, val_main_v57_apply, val_main_v54_apply,
    val_main_v56_apply, val_main_c_13_apply, val_main_c_14_apply, v1_at]
  exact nidx_select _

/-! ## The coordinate gathers and the edge's length -/

theorem gatherC_eq : gather_S16000x3_S256000x1_S256000x3_1_0_n_n_0_1_13
    = Cert.LibRowGather.rowsGather2 16000 3 256000 gather_S16000x3_S256000x1_S256000x3_1_0_n_n_0_1_13_wf := rfl

/-- The coordinates of the edge's row node. -/
theorem v16_at (e : Fin 256000) (a : Fin 3) :
    val_main_v16 (F := Ideal) x2 x3 (ix2 e a) = x3 (ix2 (Cert.Spec.rowOf x2 e) a) := by
  unfold val_main_v16
  rw [gatherC_eq, Cert.LibRowGather.gather_rows2_apply (by decide), v15_at]
  rfl

/-- The coordinates of the edge's column node. -/
theorem v23_at (e : Fin 256000) (a : Fin 3) :
    val_main_v23 (F := Ideal) x2 x3 (ix2 e a) = x3 (ix2 (Cert.Spec.colOf x2 e) a) := by
  unfold val_main_v23
  rw [gatherC_eq, Cert.LibRowGather.gather_rows2_apply (by decide), v22_at]
  rfl

theorem sum_idx (e : Fin 256000) (k : Fin 3) : idx_main_call0_v1 (ix1 e) k = ix2 e k := by
  funext a
  refine Fin.ext ?_
  match a with
  | ⟨0, _⟩ => rfl
  | ⟨1, _⟩ => rfl

theorem col_idxc2 (e : Fin 256000) : idx_main_call0_v2 (ix2 e (0 : Fin 1)) = ix1 e := by
  funext a
  refine Fin.ext ?_
  match a with
  | ⟨0, _⟩ => rfl

/-- The scaled length of edge e. -/
theorem v27_at (e : Fin 256000) : val_main_v27 (F := Ideal) x2 x3 (ix2 e 0) = Cert.Spec.dist x2 x3 e := by
  rw [val_main_v27_apply, val_main_v25_apply, val_main_v26_apply, val_main_cst_apply, val_main_call0_v2_apply, col_idxc2,
    val_main_call0_v1_apply, val_main_call0_cst_apply]
  simp only [sum_idx, val_main_call0_v0_apply, val_main_v24_apply, v16_at, v23_at, Ideal.mulf_def, Ideal.subf_def,
    Ideal.hostUnary_sqrt_def, Ideal.ofBits_def]
  rfl

/-! ## The edge's 257 features and their projection -/

/-- The edge's features: its 256 own, then its scaled length. -/
theorem v28_at (e : Fin 256000) (k : Fin 257) :
    val_main_v28 (F := Ideal) x1 x2 x3 (ix2 e k)
      = Fin.lastCases (Cert.Spec.dist x2 x3 e) (fun k' : Fin 256 => x1 (ix2 e k')) k := by
  unfold val_main_v28
  induction k using Fin.lastCases with
  | last =>
    rw [Fin.lastCases_last]
    exact (concatenate_pair_apply_right (1 : Fin S256000x257.rank) x1 (val_main_v27 (F := Ideal) x2 x3)
      concatenates_S256000x256_S256000x1_S256000x257_d1 (ix2 e (Fin.last 256)) rfl rfl (ix2 e 0)
      (fun b => match b with | ⟨0, _⟩ => fun _ => rfl | ⟨1, _⟩ => fun hb => absurd (Fin.ext rfl) hb) rfl).trans
      (v27_at x2 x3 e)
  | cast k' =>
    rw [Fin.lastCases_castSucc]
    exact concatenate_pair_apply_left (1 : Fin S256000x257.rank) x1 (val_main_v27 (F := Ideal) x2 x3)
      concatenates_S256000x256_S256000x1_S256000x257_d1 (ix2 e k'.castSucc) rfl (ix2 e k')
      (fun b => match b with | ⟨0, _⟩ => rfl | ⟨1, _⟩ => rfl)

/-- The contraction of the 257 features with the edge weight. -/
theorem v29_at (e : Fin 256000) (j : Fin 256) :
    val_main_v29 (F := Ideal) x1 x2 x3 x7 (ix2 e j) = Cert.Spec.edgeProjR x1 x2 x3 x7 e j := by
  rw [val_main_v29_apply]
  unfold Cert.Spec.edgeProjR
  refine Finset.sum_congr rfl fun k _ => ?_
  have el : lidx_main_v29 (ix2 e j) k = ix2 e k := by
    funext a
    refine Fin.ext ?_
    match a with
    | ⟨0, _⟩ => rfl
    | ⟨1, _⟩ => rfl
  have er : ridx_main_v29 (ix2 e j) k = ix2 k j := by
    funext a
    refine Fin.ext ?_
    match a with
    | ⟨0, _⟩ => rfl
    | ⟨1, _⟩ => rfl
  rw [el, er, v28_at]

/-- Position (h, d) of the head layout is flat column 32 h + d of the same row. -/
theorem heads_idx30 (e : Fin 256000) (h : Fin 8) (d : Fin 32) :
    idx_main_v30 (ix3 e h d) = ix2 e (Cert.Spec.col h d) := by
  have h1 := h.isLt
  have h2 := d.isLt
  funext a
  refine Fin.ext ?_
  match a with
  | ⟨0, _⟩ => show ((e.val * 8 + h.val) * 32 + d.val) / 256 = e.val; omega
  | ⟨1, _⟩ => show ((e.val * 8 + h.val) * 32 + d.val) % 256 = 32 * h.val + d.val; omega

theorem v30_at (e : Fin 256000) (h : Fin 8) (d : Fin 32) :
    val_main_v30 (F := Ideal) x1 x2 x3 x7 (ix3 e h d) = Cert.Spec.edgeProjR x1 x2 x3 x7 e (Cert.Spec.col h d) := by
  rw [val_main_v30_apply, heads_idx30, v29_at]

/-! ## The three projections of the node features, flat and by heads -/

theorem v4_at (n : Fin 16000) (j : Fin 256) :
    val_main_v4 (F := Ideal) x0 x4 (ix2 n j) = Cert.Spec.proj x0 x4 n j := by
  rw [val_main_v4_apply]
  unfold Cert.Spec.proj
  refine Finset.sum_congr rfl fun k _ => ?_
  have el : lidx_main_v4 (ix2 n j) k = ix2 n k := by
    funext a
    refine Fin.ext ?_
    match a with
    | ⟨0, _⟩ => rfl
    | ⟨1, _⟩ => rfl
  have er : ridx_main_v4 (ix2 n j) k = ix2 k j := by
    funext a
    refine Fin.ext ?_
    match a with
    | ⟨0, _⟩ => rfl
    | ⟨1, _⟩ => rfl
  rw [el, er]

theorem heads_idx5 (n : Fin 16000) (h : Fin 8) (d : Fin 32) :
    idx_main_v5 (ix3 n h d) = ix2 n (Cert.Spec.col h d) := by
  have h1 := h.isLt
  have h2 := d.isLt
  funext a
  refine Fin.ext ?_
  match a with
  | ⟨0, _⟩ => show ((n.val * 8 + h.val) * 32 + d.val) / 256 = n.val; omega
  | ⟨1, _⟩ => show ((n.val * 8 + h.val) * 32 + d.val) % 256 = 32 * h.val + d.val; omega

theorem v5_at (n : Fin 16000) (h : Fin 8) (d : Fin 32) :
    val_main_v5 (F := Ideal) x0 x4 (ix3 n h d) = Cert.Spec.proj x0 x4 n (Cert.Spec.col h d) := by
  rw [val_main_v5_apply, heads_idx5, v4_at]

theorem v6_at (n : Fin 16000) (j : Fin 256) :
    val_main_v6 (F := Ideal) x0 x5 (ix2 n j) = Cert.Spec.proj x0 x5 n j := by
  rw [val_main_v6_apply]
  unfold Cert.Spec.proj
  refine Finset.sum_congr rfl fun k _ => ?_
  have el : lidx_main_v6 (ix2 n j) k = ix2 n k := by
    funext a
    refine Fin.ext ?_
    match a with
    | ⟨0, _⟩ => rfl
    | ⟨1, _⟩ => rfl
  have er : ridx_main_v6 (ix2 n j) k = ix2 k j := by
    funext a
    refine Fin.ext ?_
    match a with
    | ⟨0, _⟩ => rfl
    | ⟨1, _⟩ => rfl
  rw [el, er]

theorem heads_idx7 (n : Fin 16000) (h : Fin 8) (d : Fin 32) :
    idx_main_v7 (ix3 n h d) = ix2 n (Cert.Spec.col h d) := by
  have h1 := h.isLt
  have h2 := d.isLt
  funext a
  refine Fin.ext ?_
  match a with
  | ⟨0, _⟩ => show ((n.val * 8 + h.val) * 32 + d.val) / 256 = n.val; omega
  | ⟨1, _⟩ => show ((n.val * 8 + h.val) * 32 + d.val) % 256 = 32 * h.val + d.val; omega

theorem v7_at (n : Fin 16000) (h : Fin 8) (d : Fin 32) :
    val_main_v7 (F := Ideal) x0 x5 (ix3 n h d) = Cert.Spec.proj x0 x5 n (Cert.Spec.col h d) := by
  rw [val_main_v7_apply, heads_idx7, v6_at]

theorem v8_at (n : Fin 16000) (j : Fin 256) :
    val_main_v8 (F := Ideal) x0 x6 (ix2 n j) = Cert.Spec.proj x0 x6 n j := by
  rw [val_main_v8_apply]
  unfold Cert.Spec.proj
  refine Finset.sum_congr rfl fun k _ => ?_
  have el : lidx_main_v8 (ix2 n j) k = ix2 n k := by
    funext a
    refine Fin.ext ?_
    match a with
    | ⟨0, _⟩ => rfl
    | ⟨1, _⟩ => rfl
  have er : ridx_main_v8 (ix2 n j) k = ix2 k j := by
    funext a
    refine Fin.ext ?_
    match a with
    | ⟨0, _⟩ => rfl
    | ⟨1, _⟩ => rfl
  rw [el, er]

theorem heads_idx9 (n : Fin 16000) (h : Fin 8) (d : Fin 32) :
    idx_main_v9 (ix3 n h d) = ix2 n (Cert.Spec.col h d) := by
  have h1 := h.isLt
  have h2 := d.isLt
  funext a
  refine Fin.ext ?_
  match a with
  | ⟨0, _⟩ => show ((n.val * 8 + h.val) * 32 + d.val) / 256 = n.val; omega
  | ⟨1, _⟩ => show ((n.val * 8 + h.val) * 32 + d.val) % 256 = 32 * h.val + d.val; omega

theorem v9_at (n : Fin 16000) (h : Fin 8) (d : Fin 32) :
    val_main_v9 (F := Ideal) x0 x6 (ix3 n h d) = Cert.Spec.proj x0 x6 n (Cert.Spec.col h d) := by
  rw [val_main_v9_apply, heads_idx9, v8_at]

/-! ## The rows of the projections an edge reads -/

theorem gatherB_eq : gather_S16000x8x32_S256000x1_S256000x8x32_12_0_n_n_0_1_1832
    = Cert.LibRowGather.rowsGather2of3 16000 8 32 256000 gather_S16000x8x32_S256000x1_S256000x8x32_12_0_n_n_0_1_1832_wf := rfl

/-- The key projection's row of the edge's row node. -/
theorem v37_at (e : Fin 256000) (h : Fin 8) (d : Fin 32) :
    val_main_v37 (F := Ideal) x0 x2 x5 (ix3 e h d)
      = Cert.Spec.proj x0 x5 (Cert.Spec.rowOf x2 e) (Cert.Spec.col h d) := by
  unfold val_main_v37
  rw [gatherB_eq, Cert.LibRowGather.gather_rows2of3_apply (by decide), v36_at]
  exact v7_at x0 x5 _ h d

/-- The query projection's row of the edge's column node. -/
theorem v44_at (e : Fin 256000) (h : Fin 8) (d : Fin 32) :
    val_main_v44 (F := Ideal) x0 x2 x4 (ix3 e h d)
      = Cert.Spec.proj x0 x4 (Cert.Spec.colOf x2 e) (Cert.Spec.col h d) := by
  unfold val_main_v44
  rw [gatherB_eq, Cert.LibRowGather.gather_rows2of3_apply (by decide), v43_at]
  exact v5_at x0 x4 _ h d

/-! ## The score -/

/-- THE REFERENCE'S SCORE at edge e, head h, column d. -/
theorem ref_score (e : Fin 256000) (h : Fin 8) (d : Fin 32) :
    val_main_v49 (F := Ideal) x0 x1 x2 x3 x4 x5 x7 (ix3 e h d)
      = Cert.Spec.scoreR x0 x1 x2 x3 x4 x5 x7 e (Cert.Spec.col h d) := by
  rw [val_main_v49_apply, val_main_v48_apply, val_main_call1_v2_apply, val_main_call1_v4_apply,
    val_main_call1_v3_apply, val_main_cst_9_apply, val_main_call1_v1_apply, val_main_call1_v0_apply,
    val_main_cst_8_apply, val_main_v47_apply, val_main_v46_apply, val_main_cst_7_apply, val_main_v45_apply,
    v37_at, v44_at, v30_at]
  rfl

end Cert.ReferenceIdeal.RefValue

end
-- ==== Proof.LibRowScatter3.lean ====
/-
  A scatter-add of whole blocks into a table of blocks, read at an index.

  The host's accumulating scatter with one index per update block, each block an A x B array: entry (c, a, b) of the
  result is the operand's entry plus the sum of entry (a, b) of every update block whose index, read as a signed
  integer, is c and lies inside the table; an update block whose index lies outside is dropped.
  The dimension record below is the one such a block scatter prints as; a printed record is it with its own
  well-formedness proof.
-/
import Idealize.ShloMosaic.PureOps.Ideal
import Idealize.ShloMosaic.PureOps.Ideal.Laws
import Idealize.ShloMosaic.Lib.ValueIdx
import proofs.«409030_j11063835754631_4_alg».proof.Proof.LibRows

noncomputable section

namespace Cert.LibRowScatter3

open Idealize.ShloMosaic Idealize.ShloMosaic.ValueIdx Cert.LibRows

/-- A scatter of M blocks, each A x B, into a table of N such blocks, one index per block. -/
abbrev rowsScatter3 (N M A B : Nat)
    (wf : ScatterDims.WF ⟨3, ![N, A, B]⟩ ⟨2, ![M, 1]⟩ ⟨3, ![M, A, B]⟩ [1, 2] [0] [0] 1) :
    ScatterDims ⟨3, ![N, A, B]⟩ ⟨2, ![M, 1]⟩ ⟨3, ![M, A, B]⟩ where
  updateWindowDims := [1, 2]
  insertedWindowDims := [0]
  scatterDimsToOperandDims := [0]
  indexVectorDim := 1
  wf := wf

section BlockScatter

variable {N M A B w : Nat} (wf : ScatterDims.WF ⟨3, ![N, A, B]⟩ ⟨2, ![M, 1]⟩ ⟨3, ![M, A, B]⟩ [1, 2] [0] [0] 1)
  (idx : IVec ⟨2, ![M, 1]⟩ w) (q : Fin M) (a' : Fin A) (b' : Fin B)

/-- On the table's block axis the window of update (q, a', b') starts at the q-th index, read signed. -/
private theorem blk_start0 : (rowsScatter3 N M A B wf).start (ix3 q a' b') idx 0 = (idx (ix2 q 0)).toInt := by
  unfold ScatterDims.start
  rw [dif_pos (show (0 : Fin 3) ∈ (rowsScatter3 N M A B wf).scatterDimsToOperandDims from List.mem_singleton.mpr rfl)]
  have hsi : (rowsScatter3 N M A B wf).siIdx (ix3 q a' b')
      ⟨List.idxOf (0 : Fin 3) (rowsScatter3 N M A B wf).scatterDimsToOperandDims,
        List.idxOf_lt_length_iff.2 (List.mem_singleton.mpr rfl)⟩ = ix2 q 0 := by
    funext e; refine Fin.ext ?_
    match e with
    | ⟨0, _⟩ => rfl
    | ⟨1, _⟩ => rfl
  rw [hsi]

/-- On the first axis inside a block it starts at 0. -/
private theorem blk_start1 : (rowsScatter3 N M A B wf).start (ix3 q a' b') idx 1 = 0 := by
  unfold ScatterDims.start
  rw [dif_neg (show (1 : Fin 3) ∉ ([0] : List (Fin 3)) by decide)]

/-- On the second axis inside a block it starts at 0. -/
private theorem blk_start2 : (rowsScatter3 N M A B wf).start (ix3 q a' b') idx 2 = 0 := by
  unfold ScatterDims.start
  rw [dif_neg (show (2 : Fin 3) ∉ ([0] : List (Fin 3)) by decide)]

/-- The block axis is inserted: no window coordinate. -/
private theorem blk_window0 : (rowsScatter3 N M A B wf).window (ix3 q a' b') 0 = 0 := by
  have h0 : (0 : Fin 3) ∉ (List.finRange 3).filter (fun e => decide (e ∉ ([0] : List (Fin 3)))) := by decide
  unfold ScatterDims.window
  rw [dif_neg (show (0 : Fin 3) ∉ (rowsScatter3 N M A B wf).sKept from h0)]

/-- The first axis inside a block carries the update's first inner coordinate. -/
private theorem blk_window1 : (rowsScatter3 N M A B wf).window (ix3 q a' b') 1 = a'.val := by
  have h1 : (1 : Fin 3) ∈ (List.finRange 3).filter (fun e => decide (e ∉ ([0] : List (Fin 3)))) := by decide
  unfold ScatterDims.window
  rw [dif_pos (show (1 : Fin 3) ∈ (rowsScatter3 N M A B wf).sKept from h1)]
  rfl

/-- The second axis inside a block carries the update's second inner coordinate. -/
private theorem blk_window2 : (rowsScatter3 N M A B wf).window (ix3 q a' b') 2 = b'.val := by
  have h2 : (2 : Fin 3) ∈ (List.finRange 3).filter (fun e => decide (e ∉ ([0] : List (Fin 3)))) := by decide
  unfold ScatterDims.window
  rw [dif_pos (show (2 : Fin 3) ∈ (rowsScatter3 N M A B wf).sKept from h2)]
  rfl

/-- Update (q, a', b') lands at (c, a, b) exactly when its index names block c inside the table, a' = a and b' = b. -/
private theorem blk_hit (c : Fin N) (a : Fin A) (b : Fin B) :
    (rowsScatter3 N M A B wf).resultIdx? (ix3 q a' b') idx = some (ix3 c a b)
      ↔ RowHit N (idx (ix2 q 0)) c ∧ a' = a ∧ b' = b := by
  unfold ScatterDims.resultIdx?
  constructor
  · intro h
    split at h
    · rename_i hall
      have hf := Option.some.inj h
      have h0 : ((rowsScatter3 N M A B wf).start (ix3 q a' b') idx 0
          + ((rowsScatter3 N M A B wf).window (ix3 q a' b') 0 : Nat)).toNat = c.val :=
        congrArg Fin.val (congrFun hf 0)
      have h1 : ((rowsScatter3 N M A B wf).start (ix3 q a' b') idx 1
          + ((rowsScatter3 N M A B wf).window (ix3 q a' b') 1 : Nat)).toNat = a.val :=
        congrArg Fin.val (congrFun hf 1)
      have h2 : ((rowsScatter3 N M A B wf).start (ix3 q a' b') idx 2
          + ((rowsScatter3 N M A B wf).window (ix3 q a' b') 2 : Nat)).toNat = b.val :=
        congrArg Fin.val (congrFun hf 2)
      have ha : 0 ≤ (rowsScatter3 N M A B wf).start (ix3 q a' b') idx 0
            + ((rowsScatter3 N M A B wf).window (ix3 q a' b') 0 : Nat)
          ∧ (rowsScatter3 N M A B wf).start (ix3 q a' b') idx 0
            + ((rowsScatter3 N M A B wf).window (ix3 q a' b') 0 : Nat) < (N : Int) := hall 0
      rw [blk_start0, blk_window0] at h0 ha
      rw [blk_start1, blk_window1] at h1
      rw [blk_start2, blk_window2] at h2
      refine ⟨⟨by omega, by omega, by omega⟩, Fin.ext (by omega), Fin.ext (by omega)⟩
    · exact absurd h (by simp)
  · rintro ⟨⟨h0, h1, h2⟩, rfl, rfl⟩
    have hall : ∀ e, 0 ≤ (rowsScatter3 N M A B wf).start (ix3 q a' b') idx e
          + ((rowsScatter3 N M A B wf).window (ix3 q a' b') e : Nat)
        ∧ (rowsScatter3 N M A B wf).start (ix3 q a' b') idx e
          + ((rowsScatter3 N M A B wf).window (ix3 q a' b') e : Nat) < ((⟨3, ![N, A, B]⟩ : Shape).size e : Int) := by
      intro e
      match e with
      | ⟨0, _⟩ =>
        show 0 ≤ (rowsScatter3 N M A B wf).start (ix3 q a' b') idx 0
              + ((rowsScatter3 N M A B wf).window (ix3 q a' b') 0 : Nat)
          ∧ (rowsScatter3 N M A B wf).start (ix3 q a' b') idx 0
              + ((rowsScatter3 N M A B wf).window (ix3 q a' b') 0 : Nat) < (N : Int)
        rw [blk_start0, blk_window0]; omega
      | ⟨1, _⟩ =>
        show 0 ≤ (rowsScatter3 N M A B wf).start (ix3 q a' b') idx 1
              + ((rowsScatter3 N M A B wf).window (ix3 q a' b') 1 : Nat)
          ∧ (rowsScatter3 N M A B wf).start (ix3 q a' b') idx 1
              + ((rowsScatter3 N M A B wf).window (ix3 q a' b') 1 : Nat) < (A : Int)
        rw [blk_start1, blk_window1]; have := a'.isLt; omega
      | ⟨2, _⟩ =>
        show 0 ≤ (rowsScatter3 N M A B wf).start (ix3 q a' b') idx 2
              + ((rowsScatter3 N M A B wf).window (ix3 q a' b') 2 : Nat)
          ∧ (rowsScatter3 N M A B wf).start (ix3 q a' b') idx 2
              + ((rowsScatter3 N M A B wf).window (ix3 q a' b') 2 : Nat) < (B : Int)
        rw [blk_start2, blk_window2]; have := b'.isLt; omega
    rw [dif_pos hall]
    congr 1
    funext e
    refine Fin.ext ?_
    match e with
    | ⟨0, _⟩ =>
      show ((rowsScatter3 N M A B wf).start (ix3 q a' b') idx 0
        + ((rowsScatter3 N M A B wf).window (ix3 q a' b') 0 : Nat)).toNat = c.val
      rw [blk_start0, blk_window0]; omega
    | ⟨1, _⟩ =>
      show ((rowsScatter3 N M A B wf).start (ix3 q a' b') idx 1
        + ((rowsScatter3 N M A B wf).window (ix3 q a' b') 1 : Nat)).toNat = a'.val
      rw [blk_start1, blk_window1]; omega
    | ⟨2, _⟩ =>
      show ((rowsScatter3 N M A B wf).start (ix3 q a' b') idx 2
        + ((rowsScatter3 N M A B wf).window (ix3 q a' b') 2 : Nat)).toNat = b'.val
      rw [blk_start2, blk_window2]; omega

end BlockScatter

/-- THE BLOCK SCATTER-ADD READ AT (c, a, b). -/
theorem scatterAdd_rows3_apply {N M A B w : Nat} {φ : FTy}
    (wf : ScatterDims.WF ⟨3, ![N, A, B]⟩ ⟨2, ![M, 1]⟩ ⟨3, ![M, A, B]⟩ [1, 2] [0] [0] 1)
    (x : FVec Ideal ⟨3, ![N, A, B]⟩ φ) (idx : IVec ⟨2, ![M, 1]⟩ w) (upd : FVec Ideal ⟨3, ![M, A, B]⟩ φ)
    (c : Fin N) (a : Fin A) (b : Fin B) :
    Host.scatterAdd (F := Ideal) (rowsScatter3 N M A B wf) x idx upd (ix3 c a b)
      = x (ix3 c a b)
        + ∑ q ∈ Finset.univ.filter (fun q : Fin M => Cert.LibRows.RowHit N (idx (ix2 q 0)) c), upd (ix3 q a b) := by
  show Ideal.hostScatterAdd (rowsScatter3 N M A B wf) x idx upd (ix3 c a b) = _
  unfold Ideal.hostScatterAdd
  congr 1
  -- an update that lands at (c, a, b) hits block c and sits at (a, b) inside its block
  have key : ∀ i : (⟨3, ![M, A, B]⟩ : Shape).Idx,
      (rowsScatter3 N M A B wf).resultIdx? i idx = some (ix3 c a b) →
      RowHit N (idx (ix2 (i 0) 0)) c ∧ ix3 (i 0) a b = i := by
    intro i hi
    have hi2 : (rowsScatter3 N M A B wf).resultIdx? (ix3 (i 0) (i 1) (i 2)) idx = some (ix3 c a b) :=
      Eq.mp (congrArg (fun t => (rowsScatter3 N M A B wf).resultIdx? t idx = some (ix3 c a b)) (eq_ix3 i)) hi
    obtain ⟨hr, ha, hb⟩ := (blk_hit wf idx (i 0) (i 1) (i 2) c a b).mp hi2
    exact ⟨hr, (congrArg₂ (fun s t => ix3 (i 0) s t) ha hb).symm.trans (eq_ix3 i).symm⟩
  -- so the updates landing at (c, a, b) are the (q, a, b) with q a hit, one for one
  refine Finset.sum_nbij' (fun i => (i 0 : Fin M)) (fun q => ix3 q a b) ?_ ?_ ?_ ?_ ?_
  · intro i hi
    exact Finset.mem_filter.mpr ⟨Finset.mem_univ _, (key i (Finset.mem_filter.mp hi).2).1⟩
  · intro q hq
    exact Finset.mem_filter.mpr
      ⟨Finset.mem_univ _, (blk_hit wf idx q a b c a b).mpr ⟨(Finset.mem_filter.mp hq).2, rfl, rfl⟩⟩
  · intro i hi
    exact (key i (Finset.mem_filter.mp hi).2).2
  · intro q _
    rfl
  · intro i hi
    exact congrArg upd (key i (Finset.mem_filter.mp hi).2).2.symm

end Cert.LibRowScatter3

end
-- ==== Proof.Ref.Node.lean ====
/-
  The reference program's output, read at an index.

  Entry (n, h, d) of the reference's result is the specification's node output: the quotient of the weighted value
  rows summed over the edges that name node n as their column node by the head weights summed over the same edges,
  the latter shifted by the small constant. A head's weight on an edge is the exponential of the clamped sum of the
  head's 32 scores; the weighted value row is the value projection at the edge's row node times that weight. The
  lemmas below read, at an index, the head sum and its exponential, the value rows an edge reads and their product
  with the weight, the two sums over edges, and the final quotient.
-/
import proofs.«409030_j11063835754631_4_alg».proof.Proof.Ref.Score
import proofs.«409030_j11063835754631_4_alg».proof.Proof.LibRowScatter3

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S16000x256, .f32⟩ : BufTy).Contents (Elt Ideal)) (x1 : (⟨S256000x256, .f32⟩ : BufTy).Contents (Elt Ideal))
  (x2 : (⟨S2x256000, .i32⟩ : BufTy).Contents (Elt Ideal)) (x3 : (⟨S16000x3, .f32⟩ : BufTy).Contents (Elt Ideal))
  (x4 x5 x6 : (⟨S256x256, .f32⟩ : BufTy).Contents (Elt Ideal)) (x7 : (⟨S257x256, .f32⟩ : BufTy).Contents (Elt Ideal))

/-! ## A head's weight on an edge -/

theorem sum_idx50 (e : Fin 256000) (h : Fin 8) (d : Fin 32) : idx_main_v50 (ix2 e h) d = ix3 e h d := by
  funext a
  refine Fin.ext ?_
  match a with
  | ⟨0, _⟩ => rfl
  | ⟨1, _⟩ => rfl
  | ⟨2, _⟩ => rfl

/-- The sum of a head's 32 scores, from the zero word. -/
theorem v50_at (e : Fin 256000) (h : Fin 8) :
    val_main_v50 (F := Ideal) x0 x1 x2 x3 x4 x5 x7 (ix2 e h)
      = Cert.Spec.zero + ∑ d : Fin 32, Cert.Spec.scoreR x0 x1 x2 x3 x4 x5 x7 e (Cert.Spec.col h d) := by
  rw [val_main_v50_apply, val_main_cst_10_apply]
  congr 1
  refine Finset.sum_congr rfl fun d _ => ?_
  rw [sum_idx50, ref_score]

theorem unit_idx51 (e : Fin 256000) (h : Fin 8) : idx_main_v51 (ix3 e h (0 : Fin 1)) = ix2 e h := by
  funext a
  refine Fin.ext ?_
  match a with
  | ⟨0, _⟩ => rfl
  | ⟨1, _⟩ => rfl

/-- The exponential of the clamped head sum. -/
theorem v53_at (e : Fin 256000) (h : Fin 8) :
    val_main_v53 (F := Ideal) x0 x1 x2 x3 x4 x5 x7 (ix3 e h 0)
      = Cert.Spec.headW (Cert.Spec.scoreR x0 x1 x2 x3 x4 x5 x7) e h := by
  rw [val_main_v53_apply, val_main_v52_apply, val_main_call2_v2_apply, val_main_call2_v4_apply,
    val_main_call2_v3_apply, val_main_cst_12_apply, val_main_call2_v1_apply, val_main_call2_v0_apply,
    val_main_cst_11_apply, val_main_v51_apply, unit_idx51, v50_at]
  rfl

/-! ## The weighted value row of an edge -/

/-- The value projection's row of the edge's row node. -/
theorem v60_at (e : Fin 256000) (h : Fin 8) (d : Fin 32) :
    val_main_v60 (F := Ideal) x0 x2 x6 (ix3 e h d)
      = Cert.Spec.proj x0 x6 (Cert.Spec.rowOf x2 e) (Cert.Spec.col h d) := by
  unfold val_main_v60
  rw [gatherB_eq, Cert.LibRowGather.gather_rows2of3_apply (by decide), v59_at]
  exact v9_at x0 x6 _ h d

theorem unit_idx61 (e : Fin 256000) (h : Fin 8) (d : Fin 32) : idx_main_v61 (ix3 e h d) = ix3 e h (0 : Fin 1) := by
  funext a
  refine Fin.ext ?_
  match a with
  | ⟨0, _⟩ => rfl
  | ⟨1, _⟩ => rfl
  | ⟨2, _⟩ => rfl

/-- Flat column 32 h + d lies in head h. -/
theorem head_col (h : Fin 8) (d : Fin 32) : Cert.Spec.head (Cert.Spec.col h d) = h := by
  have h2 := d.isLt
  refine Fin.ext ?_
  show (32 * h.val + d.val) / 32 = h.val
  omega

theorem v62_at (e : Fin 256000) (h : Fin 8) (d : Fin 32) :
    val_main_v62 (F := Ideal) x0 x1 x2 x3 x4 x5 x6 x7 (ix3 e h d)
      = Cert.Spec.wval x0 x2 x6 (Cert.Spec.headW (Cert.Spec.scoreR x0 x1 x2 x3 x4 x5 x7)) e (Cert.Spec.col h d) := by
  rw [val_main_v62_apply, val_main_v61_apply, unit_idx61, v60_at, v53_at]
  unfold Cert.Spec.wval
  rw [head_col]
  rfl

/-! ## The two sums over the edges that name a node -/

theorem col_idx64 (e : Fin 256000) : idx_main_v64 (ix2 e (0 : Fin 1)) = ix1 e := by
  funext a
  refine Fin.ext ?_
  match a with
  | ⟨0, _⟩ => rfl

theorem v64_at (e : Fin 256000) : val_main_v64 (F := Ideal) x2 (ix2 e 0) = x2 (ix2 1 e) := by
  rw [val_main_v64_apply, col_idx64, v3_at]

theorem col_idx67 (e : Fin 256000) : idx_main_v67 (ix2 e (0 : Fin 1)) = ix1 e := by
  funext a
  refine Fin.ext ?_
  match a with
  | ⟨0, _⟩ => rfl

theorem v67_at (e : Fin 256000) : val_main_v67 (F := Ideal) x2 (ix2 e 0) = x2 (ix2 1 e) := by
  rw [val_main_v67_apply, col_idx67, v3_at]

theorem scatterV_eq : scatter_S16000x8x32_S256000x1_S256000x8x32_12_0_0_1
    = Cert.LibRowScatter3.rowsScatter3 16000 256000 8 32 scatter_S16000x8x32_S256000x1_S256000x8x32_12_0_0_1_wf := rfl

theorem scatterW_eq : scatter_S16000x8x1_S256000x1_S256000x8x1_12_0_0_1
    = Cert.LibRowScatter3.rowsScatter3 16000 256000 8 1 scatter_S16000x8x1_S256000x1_S256000x8x1_12_0_0_1_wf := rfl

/-- The weighted value rows summed into node n. -/
theorem v65_at (n : Fin 16000) (h : Fin 8) (d : Fin 32) :
    val_main_v65 (F := Ideal) x0 x1 x2 x3 x4 x5 x6 x7 (ix3 n h d)
      = Cert.Spec.segSum x2 (fun e => Cert.Spec.wval x0 x2 x6
          (Cert.Spec.headW (Cert.Spec.scoreR x0 x1 x2 x3 x4 x5 x7)) e (Cert.Spec.col h d)) n := by
  unfold val_main_v65
  rw [scatterV_eq, Cert.LibRowScatter3.scatterAdd_rows3_apply, val_main_v63_apply, val_main_cst_15_apply]
  unfold Cert.Spec.segSum
  have hs : Finset.univ.filter (fun q : Fin 256000 =>
        Cert.LibRows.RowHit 16000 (val_main_v64 (F := Ideal) x2 (ix2 q 0)) n)
      = Finset.univ.filter (fun e : Fin 256000 => Cert.Spec.Hits x2 e n) := by
    ext q
    rw [Finset.mem_filter, Finset.mem_filter, v64_at]
    exact Iff.rfl
  rw [Finset.sum_congr hs (fun q _ => v62_at x0 x1 x2 x3 x4 x5 x6 x7 q h d)]
  rfl

/-- The head weights summed into node n. -/
theorem v68_at (n : Fin 16000) (h : Fin 8) :
    val_main_v68 (F := Ideal) x0 x1 x2 x3 x4 x5 x7 (ix3 n h 0)
      = Cert.Spec.segSum x2 (fun e => Cert.Spec.headW (Cert.Spec.scoreR x0 x1 x2 x3 x4 x5 x7) e h) n := by
  unfold val_main_v68
  rw [scatterW_eq, Cert.LibRowScatter3.scatterAdd_rows3_apply, val_main_v66_apply, val_main_cst_16_apply]
  unfold Cert.Spec.segSum
  have hs : Finset.univ.filter (fun q : Fin 256000 =>
        Cert.LibRows.RowHit 16000 (val_main_v67 (F := Ideal) x2 (ix2 q 0)) n)
      = Finset.univ.filter (fun e : Fin 256000 => Cert.Spec.Hits x2 e n) := by
    ext q
    rw [Finset.mem_filter, Finset.mem_filter, v67_at]
    exact Iff.rfl
  rw [Finset.sum_congr hs (fun q _ => v53_at x0 x1 x2 x3 x4 x5 x7 q h)]
  rfl

/-! ## The node's output -/

theorem unit_idx71 (n : Fin 16000) (h : Fin 8) (d : Fin 32) : idx_main_v71 (ix3 n h d) = ix3 n h (0 : Fin 1) := by
  funext a
  refine Fin.ext ?_
  match a with
  | ⟨0, _⟩ => rfl
  | ⟨1, _⟩ => rfl
  | ⟨2, _⟩ => rfl

/-- THE REFERENCE'S OUTPUT at node n, head h, column d. -/
theorem ref_node (n : Fin 16000) (h : Fin 8) (d : Fin 32) :
    val_main_v72 (F := Ideal) x0 x1 x2 x3 x4 x5 x6 x7 (ix3 n h d)
      = Cert.Spec.nodeOut x0 x2 x6 (Cert.Spec.headW (Cert.Spec.scoreR x0 x1 x2 x3 x4 x5 x7)) n h d := by
  rw [val_main_v72_apply, val_main_v71_apply, unit_idx71, val_main_v70_apply, val_main_v69_apply,
    val_main_cst_17_apply, v65_at, v68_at]
  rfl

end Cert.ReferenceIdeal.RefValue

end
-- ==== Proof.Bridge.lean ====
/-
  The law that joins the two programs' arrangements (Spec.lean): the reference's quotient by its divisor word is the
  kernel program's product with the named reciprocal of that word (division by a nonzero real is multiplication by its
  reciprocal on every extended real), the 257-term contraction is its first 256 terms plus the last, and a sum started
  from the zero word is the sum. No finiteness of the inputs is needed: only commutative-monoid laws of + and the one
  reciprocal law are used, and both hold at the infinities.
-/
import proofs.«409030_j11063835754631_4_alg».proof.Proof.Spec

noncomputable section

namespace Cert.Spec

open Idealize.ShloMosaic Idealize.ShloMosaic.ValueIdx Cert.LibRows
open scoped BigOperators

/-- The zero word denotes 0. -/
theorem zero_eq : zero = 0 := Ideal.ofBits_zero_f32

/-- The divisor word denotes 11863283 / 2^21. -/
theorem dvs_eq : dvs = ((11863283 / 2097152 : ℝ) : EReal) := by
  unfold dvs
  simp [Ideal.ofBits, Ideal.ieee, -EReal.coe_mul]; norm_num

/-- Dividing by the divisor word is multiplying by the named scale. -/
theorem div_dvs (y : EReal) : Ideal.div y dvs = y * scl := by
  rw [dvs_eq, Ideal.div_coe (by norm_num : (11863283 / 2097152 : ℝ) ≠ 0)]
  unfold scl
  norm_num

section

variable (x : FVec Ideal ⟨2, ![16000, 256]⟩ .f32) (ea : FVec Ideal ⟨2, ![256000, 256]⟩ .f32)
  (ei : IVec ⟨2, ![2, 256000]⟩ 32) (co : FVec Ideal ⟨2, ![16000, 3]⟩ .f32)
  (Wq Wk Wv : FVec Ideal ⟨2, ![256, 256]⟩ .f32) (We : FVec Ideal ⟨2, ![257, 256]⟩ .f32)

/-- The 257-term contraction is the 256 feature terms plus the length term. -/
theorem edgeProj_eq (e : Fin 256000) (j : Fin 256) : edgeProjR ea ei co We e j = edgeProjK ea ei co We e j := by
  unfold edgeProjR edgeProjK
  rw [Fin.sum_univ_castSucc]
  simp only [Fin.lastCases_castSucc, Fin.lastCases_last]

/-- The two scores are one function. -/
theorem score_eq (e : Fin 256000) (j : Fin 256) : scoreR x ea ei co Wq Wk We e j = scoreK x ea ei co Wq Wk We e j := by
  unfold scoreR scoreK
  rw [div_dvs, edgeProj_eq]

theorem scoreR_eq : scoreR x ea ei co Wq Wk We = scoreK x ea ei co Wq Wk We :=
  funext fun e => funext fun j => score_eq x ea ei co Wq Wk We e j

/-- A head sum started from the zero word is the head sum. -/
theorem headW_eq (s : Fin 256000 → Fin 256 → EReal) : headW s = headW' s := by
  funext e h
  unfold headW headW'
  rw [zero_eq, zero_add]

/-- The node outputs of the two arrangements agree. -/
theorem nodeOut_eq (n : Fin 16000) (h : Fin 8) (d : Fin 32) :
    nodeOut x ei Wv (headW (scoreR x ea ei co Wq Wk We)) n h d = nodeOut x ei Wv (headW' (scoreK x ea ei co Wq Wk We)) n h d := by
  rw [scoreR_eq, headW_eq]

end

end Cert.Spec

end
-- ==== Proof.Equal.lean ====
/-
  The two programs' results are equal, index by index: each side's result is the function of the arguments that Spec.lean
  names (the reference's by its generated read lemmas, the kernel program's by the composition over its two calls), and
  Bridge.lean joins the two arrangements. The memories agree on the arguments, so the argument arrays are the same.
-/
import proofs.«409030_j11063835754631_4_alg».proof.Proof.KI.Value
import proofs.«409030_j11063835754631_4_alg».proof.Proof.Ref.Node
import proofs.«409030_j11063835754631_4_alg».proof.Proof.Bridge

set_option maxRecDepth 16384

noncomputable section

namespace Cert.Proof.Equal

open Idealize.ShloMosaic Idealize.ShloMosaic.ValueIdx Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))

include hagree

/-- The edge results agree: the reference's score is the kernel program's. -/
theorem scores (c : Dev Cert.KernelIdeal.nD) :
    Cert.ReferenceIdeal.Value.res_main_v49 m' c = Cert.KernelIdeal.Hand.W9 m c (Proc.devRef .tc Cert.KernelIdeal.main_v70) := by
  show (Cert.ReferenceIdeal.Value.res_main_v49 m' c : Cert.KernelIdeal.S256000x8x32.Idx → EReal) = _
  funext i
  obtain ⟨e, h, d, rfl⟩ : ∃ (e : Fin 256000) (h : Fin 8) (d : Fin 32), i = ix3 e h d := ⟨i 0, i 1, i 2, eq_ix3 i⟩
  rw [Cert.ReferenceIdeal.Read.val_main_v49_eq, Cert.ReferenceIdeal.RefValue.ref_score, Cert.Spec.score_eq,
    (hagree c).1, (hagree c).2.1, (hagree c).2.2.1, (hagree c).2.2.2.1, (hagree c).2.2.2.2.1, (hagree c).2.2.2.2.2.1, (hagree c).2.2.2.2.2.2.2]
  exact (Cert.KernelIdeal.Hand.kernel_scores m c e h d).symm

/-- The node results agree. -/
theorem nodes (c : Dev Cert.KernelIdeal.nD) :
    Cert.ReferenceIdeal.Value.res_main_v72 m' c = Cert.KernelIdeal.Hand.W9 m c (Proc.devRef .tc Cert.KernelIdeal.main_v69) := by
  show (Cert.ReferenceIdeal.Value.res_main_v72 m' c : Cert.KernelIdeal.S16000x8x32.Idx → EReal) = _
  funext i
  obtain ⟨n, h, d, rfl⟩ : ∃ (n : Fin 16000) (h : Fin 8) (d : Fin 32), i = ix3 n h d := ⟨i 0, i 1, i 2, eq_ix3 i⟩
  rw [Cert.ReferenceIdeal.Read.val_main_v72_eq, Cert.ReferenceIdeal.RefValue.ref_node, Cert.Spec.nodeOut_eq,
    (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.KernelIdeal.Hand.kernel_nodes m c n h d).symm

end Cert.Proof.Equal

end
-- ==== Proof.lean ====
/-
  The certificate of the graph attention layer: a two-call kernel program (the q, k, v projection; the per-edge score and
  aggregation payload, with the row gathers and the two segment sums on the host) against its plain reference, over the
  extended reals.

  Frames. Each kernel program's @main is nine segments — host stretches and the two pallas_calls — launched once over
  the pipeline library's regions theorem; each call's body loads whole blocks, computes, and stores whole blocks, so its
  proof data is the input blocks and one whole-block piece per output. The reference is host operations only.

  Preservation. The idealized kernel differs from the printed one in one constant: the folded scale 1/sqrt(32), named
  as the reciprocal of the reference's own divisor word.

  Equivalence. Both programs compute, per edge, clip(k[row] · q[col] · scale) times the edge's projection, the
  exponential of each head's clamped score sum, and per node the quotient of two sums over the edges that name it. The
  kernel program's matrix products against 0/1 head selectors are the head sums and the head broadcast; its product
  with the named reciprocal is the reference's quotient; its 256-term product plus the distance term is the
  reference's 257-term product (Spec.lean, Bridge.lean).
-/
import proofs.«409030_j11063835754631_4_alg».proof.Defs
import proofs.«409030_j11063835754631_4_alg».proof.Proof.Gen.Kernel
import proofs.«409030_j11063835754631_4_alg».proof.Proof.Gen.KernelIdeal
import proofs.«409030_j11063835754631_4_alg».proof.Proof.Gen.ReferenceIdeal
import proofs.«409030_j11063835754631_4_alg».proof.Proof.Gen.Pre_finite_inputs
import proofs.«409030_j11063835754631_4_alg».proof.Proof.K.Run
import proofs.«409030_j11063835754631_4_alg».proof.Proof.KI.RunVals
import proofs.«409030_j11063835754631_4_alg».proof.Proof.RefFrame
import proofs.«409030_j11063835754631_4_alg».proof.Proof.Equal
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hR : Cert.ReferenceIdeal.Facts] [hP : Cert.Pre_finite_inputs.Facts]

/-- The word-level kernel program terminates, faults nowhere and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The one rewrite of the ideal pass: the scale constant is the named reciprocal of the reference's divisor. -/
theorem preserves : Cert.preserves_Kernel_KernelIdeal :=
  IdealRules.named_const.statement Cert.KernelIdeal.κ "inv_sqrt_d" .f32 0x3E3504F3#32 ((2097152 / 11863283 : ℝ) : EReal) rfl

/-- The two idealized programs, run from memories that agree on the arguments, end with equal results. -/
theorem algebraic : Cert.algebraic_KernelIdeal_ReferenceIdeal := by
  intro m ρ m' ρ' _ hagree
  refine ⟨_, _, _, Cert.KernelIdeal.Hand.run_vals (F := Ideal) m ρ, ?_⟩
  refine (θ_run Cert.ReferenceIdeal.defs _ _).mono (fun _ h c => ⟨(h c).1.trans ?_, (h c).2.1.trans ?_, (h c).2.2.1.trans (hagree c).2.2.2.1, (h c).2.2.2⟩)
    (Cert.ReferenceIdeal.Value.run (F := Ideal) m' ρ')
  · exact Cert.Proof.Equal.nodes m m' hagree c
  · exact Cert.Proof.Equal.scores m m' hagree c

end Claims

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, preserves, algebraic⟩

end Cert.Proof

end
